-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x256 : Shape := ⟨2, ![64, 256]⟩
abbrev S4x2 : Shape := ⟨2, ![4, 2]⟩
abbrev S64x64 : Shape := ⟨2, ![64, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S4x2 : S_.BroadcastsInDim S4x2 (![] : Fin 0 → Fin S4x2.rank)
  reducesTo_S4x2_S_d0_1 : S4x2.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v28 : IVec S_ 1) (main_v32 : IVec S1600000 1) (main_v34 : IVec S1600000 32) : IVec S_ 1 :=
  let main_c_11 : IVec S_ 32 := constantI S_ 32 100000#32
  let main_v35 : IVec S1600000 32 := broadcastInDim S1600000 ![] bcast_S_S1600000 main_c_11
  let main_v36 : IVec S1600000 1 := cmpi .slt main_v34 main_v35
  let main_v37 : IVec S1600000 1 := andi main_v32 main_v36
  let main_c_12 : IVec S_ 1 := constantI S_ 1 1#1
  let main_v38 : IVec S_ 1 := (fun x v => Host.reduce IntOp.andi x v reducesTo_S1600000_S_d0 h_S_) main_v37 main_c_12
  let main_v39 : IVec S_ 1 := andi main_v28 main_v38
  main_v39

def fn_part1 {F : FTy → Type} [FloatOps F] (main_arg1 : IVec S2x1600000 32) (main_arg5 : FVec F S64x64 .f32) (main_arg6 : FVec F S64 .f32) (main_v13 : IVec S_ 1) (main_v16 : IVec S4x2 1) : IVec S_ 1 :=
  let main_c_5 : IVec S_ 1 := constantI S_ 1 1#1
  let main_v17 : IVec S_ 1 := (fun x v => Host.reduce IntOp.andi x v reducesTo_S4x2_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : IVec S1x1600000 32 := (extractStridedSlice S1x1600000 ![0, 0] · slices_S2x1600000_S1x1600000_0_0) main_arg1
  let main_v30 : IVec S1600000 32 := shapeCast S1600000 main_v29 shapeCasts_S1x1600000_S1600000
  let main_c_10 : IVec S_ 32 := constantI S_ 32 0#32
  let main_v31 : IVec S1600000 32 := broadcastInDim S1600000 ![] bcast_S_S1600000 main_c_10
  let main_v32 : IVec S1600000 1 := cmpi .sge main_v30 main_v31
  let main_v33 : IVec S1x1600000 32 := (extractStridedSlice S1x1600000 ![0, 0] · slices_S2x1600000_S1x1600000_0_0) main_arg1
  let main_v34 : IVec S1600000 32 := shapeCast S1600000 main_v33 shapeCasts_S1x1600000_S1600000
  fn_part2 (F := F) main_v28 main_v32 main_v34

def fn {F : FTy → Type} [FloatOps F] (main_arg0 : FVec F S100000x64 .f32) (main_arg1 : IVec S2x1600000 32) (main_arg2 : FVec F S64x256 .f32) (main_arg3 : FVec F S4x2 .f32) (main_arg4 : FVec F S4x2 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S4x2 .f32 := Host.absf main_arg3
  let main_cst_2 : FVec F S_ .f32 := constant S_ .f32 0x7F800000#32
  let main_v10 : FVec F S4x2 .f32 := broadcastInDim S4x2 ![] bcast_S_S4x2 main_cst_2
  let main_v11 : IVec S4x2 1 := cmpf .olt main_v9 main_v10
  let main_c_3 : IVec S_ 1 := constantI S_ 1 1#1
  let main_v12 : IVec S_ 1 := (fun x v => Host.reduce IntOp.andi x v reducesTo_S4x2_S_d0_1 h_S_) main_v11 main_c_3
  let main_v13 : IVec S_ 1 := andi main_v8 main_v12
  let main_v14 : FVec F S4x2 .f32 := Host.absf main_arg4
  let main_cst_4 : FVec F S_ .f32 := constant S_ .f32 0x7F800000#32
  let main_v15 : FVec F S4x2 .f32 := broadcastInDim S4x2 ![] bcast_S_S4x2 main_cst_4
  let main_v16 : IVec S4x2 1 := cmpf .olt main_v14 main_v15
  fn_part1 (F := F) main_arg1 main_arg5 main_arg6 main_v13 main_v16
-- ==== Kernel.lean ====
abbrev S100000x64 : Shape := ⟨2, ![100000, 64]⟩
abbrev S2x1600000 : Shape := ⟨2, ![2, 1600000]⟩
abbrev S64x256 : Shape := ⟨2, ![64, 256]⟩
abbrev S4x2 : Shape := ⟨2, ![4, 2]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x2 : Shape := ⟨2, ![1600000, 2]⟩
abbrev S1600000x1x2 : Shape := ⟨3, ![1600000, 1, 2]⟩
abbrev S1x4x2 : Shape := ⟨3, ![1, 4, 2]⟩
abbrev S1600000x4x2 : Shape := ⟨3, ![1600000, 4, 2]⟩
abbrev S1600000x4 : Shape := ⟨2, ![1600000, 4]⟩
abbrev S1 : Shape := ⟨1, ![1]⟩
abbrev S1x1 : Shape := ⟨2, ![1, 1]⟩
abbrev S1600000x64 : Shape := ⟨2, ![1600000, 64]⟩
abbrev S3200x64 : Shape := ⟨2, ![3200, 64]⟩
abbrev S3200x4 : Shape := ⟨2, ![3200, 4]⟩
abbrev S3200x256 : Shape := ⟨2, ![3200, 256]⟩
abbrev S3200x4x64 : Shape := ⟨3, ![3200, 4, 64]⟩
abbrev S3200x4x1 : Shape := ⟨3, ![3200, 4, 1]⟩
abbrev S3200x1 : Shape := ⟨2, ![3200, 1]⟩
abbrev S5000x64 : Shape := ⟨2, ![5000, 64]⟩
abbrev S5000x1 : Shape := ⟨2, ![5000, 1]⟩
abbrev S1x5000 : Shape := ⟨2, ![1, 5000]⟩
abbrev S5000 : Shape := ⟨1, ![5000]⟩
abbrev S3200 : Shape := ⟨1, ![3200]⟩
abbrev S1x3200 : Shape := ⟨2, ![1, 3200]⟩
abbrev S5000x3200 : Shape := ⟨2, ![5000, 3200]⟩
abbrev S1x64 : Shape := ⟨2, ![1, 64]⟩

abbrev nBuf : Space → Nat
  | .hbm => 91
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x256, .f32⟩
  | .hbm, ⟨3, _⟩ => ⟨S4x2, .f32⟩
  | .hbm, ⟨4, _⟩ => ⟨S4x2, .f32⟩
  | .hbm, ⟨5, _⟩ => ⟨S64x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000x1, .f32⟩
  | .hbm, ⟨44, _⟩ => ⟨S1600000x1, .f32⟩
  | .hbm, ⟨45, _⟩ => ⟨S1600000x2, .f32⟩
  | .hbm, ⟨46, _⟩ => ⟨S1600000x1x2, .f32⟩
  | .hbm, ⟨47, _⟩ => ⟨S1x4x2, .f32⟩
  | .hbm, ⟨48, _⟩ => ⟨S1600000x4x2, .f32⟩
  | .hbm, ⟨49, _⟩ => ⟨S1600000x4x2, .f32⟩
  | .hbm, ⟨50, _⟩ => ⟨S1600000x4x2, .f32⟩
  | .hbm, ⟨51, _⟩ => ⟨S_, .f32⟩
  | .hbm, ⟨52, _⟩ => ⟨S1600000x4x2, .f32⟩
  | .hbm, ⟨53, _⟩ => ⟨S1600000x4x2, .f32⟩
  | .hbm, ⟨54, _⟩ => ⟨S1600000x4x2, .f32⟩
  | .hbm, ⟨55, _⟩ => ⟨S4x2, .f32⟩
  | .hbm, ⟨56, _⟩ => ⟨S_, .f32⟩
  | .hbm, ⟨57, _⟩ => ⟨S4x2, .f32⟩
  | .hbm, ⟨58, _⟩ => ⟨S4x2, .f32⟩
  | .hbm, ⟨59, _⟩ => ⟨S1x4x2, .f32⟩
  | .hbm, ⟨60, _⟩ => ⟨S1600000x4x2, .f32⟩
  | .hbm, ⟨61, _⟩ => ⟨S1600000x4x2, .f32⟩
  | .hbm, ⟨62, _⟩ => ⟨S_, .f32⟩
  | .hbm, ⟨63, _⟩ => ⟨S1600000x4, .f32⟩
  | .hbm, ⟨64, _⟩ => ⟨S1600000x4, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1, .i32⟩
  | .hbm, ⟨74, _⟩ => ⟨S_, .i32⟩
  | .hbm, ⟨75, _⟩ => ⟨S1600000x1, .i32⟩
  | .hbm, ⟨76, _⟩ => ⟨S1600000x1, .i1⟩
  | .hbm, ⟨77, _⟩ => ⟨S1x1, .i32⟩
  | .hbm, ⟨78, _⟩ => ⟨S1600000x1, .i32⟩
  | .hbm, ⟨79, _⟩ => ⟨S1600000x1, .i1⟩
  | .hbm, ⟨80, _⟩ => ⟨S1600000x1, .i1⟩
  | .hbm, ⟨81, _⟩ => ⟨S_, .i1⟩
  | .hbm, ⟨82, _⟩ => ⟨S1600000, .i1⟩
  | .hbm, ⟨83, _⟩ => ⟨S1600000x64, .f32⟩
  | .hbm, ⟨84, _⟩ => ⟨S1600000x64, .i1⟩
  | .hbm, ⟨85, _⟩ => ⟨S_, .f32⟩
  | .hbm, ⟨86, _⟩ => ⟨S1600000x64, .f32⟩
  | .hbm, ⟨87, _⟩ => ⟨S1600000x64, .f32⟩
  | .hbm, ⟨88, _⟩ => ⟨S1600000x64, .f32⟩
  | .hbm, ⟨89, _⟩ => ⟨S1600000x1, .i32⟩
  | .hbm, ⟨90, _⟩ => ⟨S100000x64, .f32⟩
  | .local _ .vmem, ⟨0, _⟩ => ⟨S3200x64, .f32⟩
  | .local _ .vmem, ⟨1, _⟩ => ⟨S3200x64, .f32⟩
  | .local _ .vmem, ⟨2, _⟩ => ⟨S3200x4, .f32⟩
  | .local _ .vmem, ⟨3, _⟩ => ⟨S3200x4, .f32⟩
  | .local _ .vmem, ⟨4, _⟩ => ⟨S64x256, .f32⟩
  | .local _ .vmem, ⟨5, _⟩ => ⟨S3200x64, .f32⟩
  | .local _ .vmem, ⟨6, _⟩ => ⟨S3200x64, .f32⟩
  | .local _ .vmem, ⟨7, _⟩ => ⟨S3200x1, .i32⟩
  | .local _ .vmem, ⟨8, _⟩ => ⟨S3200x1, .i32⟩
  | .local _ .vmem, ⟨9, _⟩ => ⟨S3200x64, .f32⟩
  | .local _ .vmem, ⟨10, _⟩ => ⟨S3200x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S64x64, .f32⟩
  | .local _ .vmem, ⟨16, _⟩ => ⟨S64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_call0_c : Ref sig .tc := ⟨.hbm, 65, rfl⟩
abbrev main_call0_v0 : Ref sig .tc := ⟨.hbm, 66, rfl⟩
abbrev main_call0_v1 : Ref sig .tc := ⟨.hbm, 67, rfl⟩
abbrev main_call0_c_0 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_c_1 : Ref sig .tc := ⟨.hbm, 73, rfl⟩
abbrev main_call0_c_2 : Ref sig .tc := ⟨.hbm, 74, rfl⟩
abbrev main_call0_v6 : Ref sig .tc := ⟨.hbm, 75, rfl⟩
abbrev main_call0_v7 : Ref sig .tc := ⟨.hbm, 76, rfl⟩
abbrev main_call0_v8 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_c_3 : Ref sig .tc := ⟨.hbm, 81, rfl⟩
abbrev main_call0_v12 : Ref sig .tc := ⟨.hbm, 82, rfl⟩
abbrev main_call0_v13 : Ref sig .tc := ⟨.hbm, 83, rfl⟩
abbrev main_call0_v14 : Ref sig .tc := ⟨.hbm, 84, rfl⟩
abbrev main_call0_cst : Ref sig .tc := ⟨.hbm, 85, rfl⟩
abbrev main_call0_v15 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3200x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![20, 500], ![false, false]⟩

def k1_cond2 (i : grid1.Coords) : BitVec 1 :=
  let arg1 : BitVec 32 := BitVec.ofNat 32 (i 1).val
  let c499_i32 : BitVec 32 := 499#32
  let v28 : BitVec 1 := Scalar.cmpi .eq arg1 c499_i32
  let v29 : BitVec 32 := Scalar.extui v28
  let c0_i32_8 : BitVec 32 := 0#32
  let v30 : BitVec 1 := Scalar.cmpi .ne v29 c0_i32_8
  v30

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S3200x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3200x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  concatenates_S1600000x1_S1600000x1_S1600000x2_d1 : Shape.Concatenates [S1600000x1, S1600000x1] S1600000x2 1
  bcast_S1600000x2_S1600000x1x2_0_2 : S1600000x2.BroadcastsInDim S1600000x1x2 (![0, 2] : Fin 2 → Fin S1600000x1x2.rank)
  bcast_S4x2_S1x4x2_1_2 : S4x2.BroadcastsInDim S1x4x2 (![1, 2] : Fin 2 → Fin S1x4x2.rank)
  bcast_S1600000x1x2_S1600000x4x2_0_1_2 : S1600000x1x2.BroadcastsInDim S1600000x4x2 (![0, 1, 2] : Fin 3 → Fin S1600000x4x2.rank)
  bcast_S1x4x2_S1600000x4x2_0_1_2 : S1x4x2.BroadcastsInDim S1600000x4x2 (![0, 1, 2] : Fin 3 → Fin S1600000x4x2.rank)
  bcast_S_S1600000x4x2 : S_.BroadcastsInDim S1600000x4x2 (![] : Fin 0 → Fin S1600000x4x2.rank)
  bcast_S_S4x2 : S_.BroadcastsInDim S4x2 (![] : Fin 0 → Fin S4x2.rank)
  reducesTo_S1600000x4x2_S1600000x4_d2 : S1600000x4x2.ReducesTo [2] S1600000x4
  h_S_ : 0 < S_.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S3200x256_S3200x4x64 : S3200x256.ShapeCasts S3200x4x64
  inb_S3200x4_S3200x4_0_0 : ∀ a, (![0, 0] : Fin 2 → Nat) a + S3200x4.size a ≤ S3200x4.size a
  h_S3200x4 : 0 < S3200x4.numel
  shapeCasts_S3200x4_S3200x4 : S3200x4.ShapeCasts S3200x4
  shapeCasts_S3200x4_S3200x4x1 : S3200x4.ShapeCasts S3200x4x1
  broadcasts_S3200x4x1_S3200x4x64 : S3200x4x1.Broadcasts S3200x4x64
  reduces_S3200x4x64_S3200x64 : S3200x4x64.Reduces [1] S3200x64
  shapeCasts_S1600000_S1600000x1 : S1600000.ShapeCasts S1600000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  iota_S1x5000_d1_w32 : S1x5000.Iotas .tc 32 [1]
  shapeCasts_S1x5000_S5000 : S1x5000.ShapeCasts S5000
  shapeCasts_S5000_S5000x1 : S5000.ShapeCasts S5000x1
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  shapeCasts_S3200x1_S3200 : S3200x1.ShapeCasts S3200
  shapeCasts_S3200_S1x3200 : S3200.ShapeCasts S1x3200
  broadcasts_S5000x1_S5000x3200 : S5000x1.Broadcasts S5000x3200
  broadcasts_S1x3200_S5000x3200 : S1x3200.Broadcasts S5000x3200
  natLt_1_32 : 1 < 32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  dot_S3200x64_S64x256_S3200x256_1_0_0_1_n_n_wf : DotDims.WF S3200x64 S64x256 S3200x256 [1] [0] [0] [1] [] []
  dot_S5000x3200_S3200x64_S5000x64_1_0_0_1_n_n_wf : DotDims.WF S5000x3200 S3200x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S1600000x64.size a
  hwx0_0 : ∀ i : grid0.Coords, EltTy.bits .f32 = 32 ∨ (Rect.block (s := S1600000x64) S3200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x4.size a ≤ S1600000x4.size a
  hwx0_1 : ∀ i : grid0.Coords, EltTy.bits .f32 = 32 ∨ (Rect.block (s := S1600000x4) S3200x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x64.size a ≤ S1600000x64.size a
  hwx0_3 : ∀ i : grid0.Coords, EltTy.bits .f32 = 32 ∨ (Rect.block (s := S1600000x64) S3200x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x1.size a ≤ S1600000x1.size a
  hwx1_0 : ∀ i : grid1.Coords, EltTy.bits .i32 = 32 ∨ (Rect.block (s := S1600000x1) S3200x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x64.size a ≤ S1600000x64.size a
  hwx1_1 : ∀ i : grid1.Coords, EltTy.bits .f32 = 32 ∨ (Rect.block (s := S1600000x64) S3200x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S3200x64_S64x256_S3200x256_1_0_0_1_n_n : DotDims S3200x64 S64x256 S3200x256 where
  lhsContracting := [1]
  rhsContracting := [0]
  lhsNonContracting := [0]
  rhsNonContracting := [1]
  lhsBatch := []
  rhsBatch := []
  wf := dot_S3200x64_S64x256_S3200x256_1_0_0_1_n_n_wf
def dot_S5000x3200_S3200x64_S5000x64_1_0_0_1_n_n : DotDims S5000x3200 S3200x64 S5000x64 where
  lhsContracting := [1]
  rhsContracting := [0]
  lhsNonContracting := [0]
  rhsNonContracting := [1]
  lhsBatch := []
  rhsBatch := []
  wf := dot_S5000x3200_S3200x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v47) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S3200x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S3200x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v49) S3200x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S3200x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S64x256 : Shape := ⟨2, ![64, 256]⟩
abbrev S4x2 : Shape := ⟨2, ![4, 2]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x2 : Shape := ⟨2, ![1600000, 2]⟩
abbrev S1600000x1x2 : Shape := ⟨3, ![1600000, 1, 2]⟩
abbrev S1x4x2 : Shape := ⟨3, ![1, 4, 2]⟩
abbrev S1600000x4x2 : Shape := ⟨3, ![1600000, 4, 2]⟩
abbrev S1600000x4 : Shape := ⟨2, ![1600000, 4]⟩
abbrev S100000x256 : Shape := ⟨2, ![100000, 256]⟩
abbrev S100000x4x64 : Shape := ⟨3, ![100000, 4, 64]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 173
  | .vmem => 0
  | .smem => 0
  | _ => 0

abbrev hbmTy0_0 (i : Nat) : BufTy := match i % 128 with
  | 0 => ⟨S100000x64, .f32⟩
  | 1 => ⟨S2x1600000, .i32⟩
  | 2 => ⟨S64x256, .f32⟩
  | 3 => ⟨S4x2, .f32⟩
  | 4 => ⟨S4x2, .f32⟩
  | 5 => ⟨S64x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000x1, .f32⟩
  | 40 => ⟨S1600000x1, .f32⟩
  | 41 => ⟨S1600000x2, .f32⟩
  | 42 => ⟨S1600000x1x2, .f32⟩
  | 43 => ⟨S1x4x2, .f32⟩
  | 44 => ⟨S1600000x4x2, .f32⟩
  | 45 => ⟨S1600000x4x2, .f32⟩
  | 46 => ⟨S1600000x4x2, .f32⟩
  | 47 => ⟨S_, .f32⟩
  | 48 => ⟨S1600000x4x2, .f32⟩
  | 49 => ⟨S1600000x4x2, .f32⟩
  | 50 => ⟨S1600000x4x2, .f32⟩
  | 51 => ⟨S4x2, .f32⟩
  | 52 => ⟨S_, .f32⟩
  | 53 => ⟨S4x2, .f32⟩
  | 54 => ⟨S4x2, .f32⟩
  | 55 => ⟨S1x4x2, .f32⟩
  | 56 => ⟨S1600000x4x2, .f32⟩
  | 57 => ⟨S1600000x4x2, .f32⟩
  | 58 => ⟨S_, .f32⟩
  | 59 => ⟨S1600000x4, .f32⟩
  | 60 => ⟨S1600000x4, .f32⟩
  | 61 => ⟨S100000x256, .f32⟩
  | 62 => ⟨S100000x4x64, .f32⟩
  | 63 => ⟨S_, .f32⟩
  | 64 => ⟨S100000x64, .f32⟩
  | 65 => ⟨S1600000x1, .f32⟩
  | 66 => ⟨S1600000, .f32⟩
  | 67 => ⟨S1600000x1, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S_, .i32⟩
  | 76 => ⟨S1600000, .i32⟩
  | 77 => ⟨S1600000, .i32⟩
  | 78 => ⟨S1600000x1, .i32⟩
  | 79 => ⟨S1600000x1, .i32⟩
  | 80 => ⟨S1600000x2, .i32⟩
  | 81 => ⟨S1600000x64, .f32⟩
  | 82 => ⟨S1600000x64, .f32⟩
  | 83 => ⟨S1600000x64, .f32⟩
  | 84 => ⟨S_, .f32⟩
  | 85 => ⟨S100000x64, .f32⟩
  | 86 => ⟨S1600000x1, .i32⟩
  | 87 => ⟨S100000x64, .f32⟩
  | 88 => ⟨S100000x64, .f32⟩
  | 89 => ⟨S1600000x1, .f32⟩
  | 90 => ⟨S1600000, .f32⟩
  | 91 => ⟨S1600000x1, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S_, .i32⟩
  | 100 => ⟨S1600000, .i32⟩
  | 101 => ⟨S1600000, .i32⟩
  | 102 => ⟨S1600000x1, .i32⟩
  | 103 => ⟨S1600000x1, .i32⟩
  | 104 => ⟨S1600000x2, .i32⟩
  | 105 => ⟨S1600000x64, .f32⟩
  | 106 => ⟨S1600000x64, .f32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S100000x64, .f32⟩
  | 113 => ⟨S1600000x1, .f32⟩
  | 114 => ⟨S1600000, .f32⟩
  | 115 => ⟨S1600000x1, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S_, .i32⟩
  | 124 => ⟨S1600000, .i32⟩
  | 125 => ⟨S1600000, .i32⟩
  | 126 => ⟨S1600000x1, .i32⟩
  | 127 => ⟨S1600000x1, .i32⟩
  | _ => ⟨S100000x64, .f32⟩

abbrev hbmTy0_1 (i : Nat) : BufTy := match i % 128 with
  | 0 => ⟨S1600000x2, .i32⟩
  | 1 => ⟨S1600000x64, .f32⟩
  | 2 => ⟨S1600000x64, .f32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S100000x64, .f32⟩
  | 9 => ⟨S1600000x1, .f32⟩
  | 10 => ⟨S1600000, .f32⟩
  | 11 => ⟨S1600000x1, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S_, .i32⟩
  | 20 => ⟨S1600000, .i32⟩
  | 21 => ⟨S1600000, .i32⟩
  | 22 => ⟨S1600000x1, .i32⟩
  | 23 => ⟨S1600000x1, .i32⟩
  | 24 => ⟨S1600000x2, .i32⟩
  | 25 => ⟨S1600000x64, .f32⟩
  | 26 => ⟨S1600000x64, .f32⟩
  | 27 => ⟨S1600000x64, .f32⟩
  | 28 => ⟨S_, .f32⟩
  | 29 => ⟨S100000x64, .f32⟩
  | 30 => ⟨S1600000x1, .i32⟩
  | 31 => ⟨S100000x64, .f32⟩
  | 32 => ⟨S100000x64, .f32⟩
  | 33 => ⟨S100000x1, .f32⟩
  | 34 => ⟨S100000x64, .f32⟩
  | 35 => ⟨S100000x64, .f32⟩
  | 36 => ⟨S100000x64, .f32⟩
  | 37 => ⟨S100000x64, .f32⟩
  | 38 => ⟨S1x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_c_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_c_13 : Ref sig .tc := ⟨.hbm, 92, rfl⟩
abbrev main_v70 : Ref sig .tc := ⟨.hbm, 93, rfl⟩
abbrev main_v71 : Ref sig .tc := ⟨.hbm, 94, rfl⟩
abbrev main_c_14 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_15 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_16 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_c_17 : Ref sig .tc := ⟨.hbm, 116, rfl⟩
abbrev main_v90 : Ref sig .tc := ⟨.hbm, 117, rfl⟩
abbrev main_v91 : Ref sig .tc := ⟨.hbm, 118, rfl⟩
abbrev main_c_18 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_c_19 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_20 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_c_21 : Ref sig .tc := ⟨.hbm, 140, rfl⟩
abbrev main_v110 : Ref sig .tc := ⟨.hbm, 141, rfl⟩
abbrev main_v111 : Ref sig .tc := ⟨.hbm, 142, rfl⟩
abbrev main_c_22 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_c_23 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_24 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_call0_cst : Ref sig .tc := ⟨.hbm, 169, rfl⟩
abbrev main_call0_v0 : Ref sig .tc := ⟨.hbm, 170, rfl⟩
abbrev main_v135 : Ref sig .tc := ⟨.hbm, 171, rfl⟩
abbrev main_v136 : Ref sig .tc := ⟨.hbm, 172, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bcast_S1600000x2_S1600000x1x2_0_2 : S1600000x2.BroadcastsInDim S1600000x1x2 (![0, 2] : Fin 2 → Fin S1600000x1x2.rank)
  bcast_S4x2_S1x4x2_1_2 : S4x2.BroadcastsInDim S1x4x2 (![1, 2] : Fin 2 → Fin S1x4x2.rank)
  bcast_S1600000x1x2_S1600000x4x2_0_1_2 : S1600000x1x2.BroadcastsInDim S1600000x4x2 (![0, 1, 2] : Fin 3 → Fin S1600000x4x2.rank)
  bcast_S1x4x2_S1600000x4x2_0_1_2 : S1x4x2.BroadcastsInDim S1600000x4x2 (![0, 1, 2] : Fin 3 → Fin S1600000x4x2.rank)
  bcast_S_S1600000x4x2 : S_.BroadcastsInDim S1600000x4x2 (![] : Fin 0 → Fin S1600000x4x2.rank)
  bcast_S_S4x2 : S_.BroadcastsInDim S4x2 (![] : Fin 0 → Fin S4x2.rank)
  reducesTo_S1600000x4x2_S1600000x4_d2 : S1600000x4x2.ReducesTo [2] S1600000x4
  h_S_ : 0 < S_.numel
  shapeCasts_S100000x256_S100000x4x64 : S100000x256.ShapeCasts S100000x4x64
  bcast_S_S100000x64 : S_.BroadcastsInDim S100000x64 (![] : Fin 0 → Fin S100000x64.rank)
  slices_S1600000x4_S1600000x1_0_0 : S1600000x4.Slices ![0, 0] S1600000x1
  shapeCasts_S1600000x1_S1600000 : S1600000x1.ShapeCasts S1600000
  bcast_S1600000x1_S1600000x64_0_1 : S1600000x1.BroadcastsInDim S1600000x64 (![0, 1] : Fin 2 → Fin S1600000x64.rank)
  slices_S1600000x4_S1600000x1_0_1 : S1600000x4.Slices ![0, 1] S1600000x1
  slices_S1600000x4_S1600000x1_0_2 : S1600000x4.Slices ![0, 2] S1600000x1
  slices_S1600000x4_S1600000x1_0_3 : S1600000x4.Slices ![0, 3] S1600000x1
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x64_S64x256_S100000x256_1_0_0_1_n_n_wf : DotDims.WF S100000x64 S64x256 S100000x256 [1] [0] [0] [1] [] []
  gather_S100000x4x64_S1600000x2_S1600000x64_1_01_n_n_01_1_1164_wf : GatherDims.WF S100000x4x64 S1600000x2 S1600000x64 [1] [0, 1] [] [0, 1] [] 1 ![1, 1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def gather_S100000x4x64_S1600000x2_S1600000x64_1_01_n_n_01_1_1164 : GatherDims S100000x4x64 S1600000x2 S1600000x64 where
  offsetDims := [1]
  collapsedSliceDims := [0, 1]
  operandBatchingDims := []
  startIndicesBatchingDims := []
  startIndexMap := [0, 1]
  indexVectorDim := 1
  sliceSizes := ![1, 1, 64]
  wf := gather_S100000x4x64_S1600000x2_S1600000x64_1_01_n_n_01_1_1164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KReg0.lean ====
/- The frame half of REGION 0 of the program: custom_call 0, the kernel function that forms the messages
   (one block of 3200 edges at a grid point), stated at a PARAMETER V — the TensorCore's buffer contents when the
   region is entered. Windows 0, 1, 2 are inputs (the gathered source rows, the 4 gaussian weights of each edge, the
   64x256 matrix, whose block index is constant), window 3 the output (the block of messages). Per point: each
   window's block read off its array, the closed form of what the body leaves in the output buffer from the three
   input blocks, the body's triple, the pipeline's proof data and the body obligation. Generic in the float
   interpretation. -/
import proofs.«400719_j31138512896561_3_alg».proof.Proof.Gen.Kernel.Launch
import proofs.«400719_j31138512896561_3_alg».proof.Proof.Gen.Kernel.Skeleton
import proofs.«400719_j31138512896561_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 3200 rows: the structural look recurses once per coordinate of the long axis
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the source rows): its current staging buffer holds its block at every point, for any proof data
    whose array is V's and whose body leaves the block in place. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the edge weights): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the matrix): its block index is constant, so it is fetched at the first point only; at a later
    point the index has not moved and the buffer still holds the block the body left in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 3200x64 block: the load of the source rows, and the (dead) load and the store of the messages. -/
abbrev r0_out : Rect S3200x64 := Rect.unit (s := S3200x64) ![0, 0] S3200x64.size inb_S3200x64_S3200x64_0_0
/-- The whole 3200x4 block of weights. -/
abbrev r0_gw : Rect S3200x4 := Rect.unit (s := S3200x4) ![0, 0] S3200x4.size inb_S3200x4_S3200x4_0_0
/-- The whole 64x256 matrix. -/
abbrev r0_g : Rect S64x256 := Rect.unit (s := S64x256) ![0, 0] S64x256.size inb_S64x256_S64x256_0_0

/-! ## What the body leaves in the output window's buffer -/

/-- Window 3's staging buffer after the body, from the three input blocks x0 (source rows), x1 (weights), x2 (matrix):
    its one store as a piece, the payload the skeleton's (whose arguments are ordered rows, matrix, weights). -/
def out0_3 (x0 : Vec F S3200x64 .f32) (x1 : Vec F S3200x4 .f32) (x2 : Vec F S64x256 .f32) : Vec F S3200x64 .f32 :=
  View.canon [⟨r0_out, k0_pay1 (View.ld x0 r0_out) (View.ld x2 r0_g) (View.ld x1 r0_gw)⟩]

/-- The store tiles the buffer (checked by evaluation), so it covers it. -/
theorem cover0_3 (p0 : Vec F S3200x64 .f32) (y : S3200x64.Idx) :
    ∃ pc ∈ ([⟨r0_out, p0⟩] : List (View.Piece (Elt F) S3200x64 .f32)), y ∈ pc.1.set :=
  View.cover_of_tiled [⟨r0_out, p0⟩] S3200x64.size (by rfl) y

/-! ## The body's triple -/

set_option maxHeartbeats 1000000 in
/-- The kernel body on whole staging memrefs, the three inputs' at read contents x0, x1, x2 and the output's at
    anything, runs to the continuation holding the inputs' as they were and the output's at out0_3 of the inputs'.
    The body also loads the output buffer before it stores it: with the buffer owned at some contents the load
    steps, and its value is not used. -/
theorem sound_kernel0 (c : Dev nD) (E : Set ℕ) (i : grid0.Coords)
    (arg1 : Memref sig .tc .vmem S3200x64 .f32) (harg1 : arg1.IsWhole) (arg2 : Memref sig .tc .vmem S3200x4 .f32) (harg2 : arg2.IsWhole)
    (arg3 : Memref sig .tc .vmem S64x256 .f32) (harg3 : arg3.IsWhole) (arg4 : Memref sig .tc .vmem S3200x64 .f32) (harg4 : arg4.IsWhole)
    (x0 : Vec F S3200x64 .f32) (x1 : Vec F S3200x4 .f32) (x2 : Vec F S64x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__msg_kernel i arg1 harg1 arg2 harg2 arg3 harg3 arg4 harg4) K := by
  simp only [cc0__msg_kernel_eq_skeleton]; unfold cc0__msg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as the region finds them (V); after the body at point t each
    input's buffer at its block and the output's at out0_3 of the three input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Frame

end
-- ==== Proof.KReg1Runs.lean ====
import proofs.«400719_j31138512896561_3_alg».proof.Proof.Gen.Kernel.Launch
import proofs.«400719_j31138512896561_3_alg».proof.Proof.Gen.Kernel.Skeleton
import proofs.«400719_j31138512896561_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1 (`cc1__scatter_kernel`): what its three whole-body runs share, and the runs

The kernel runs on a grid of 20 × 500 points, `t = i * 500 + j`. It carries one scratch accumulator between
grid points: at `j = 0` it is reset to zero, at every point the messages of the point's edge block are
scattered into it (a one-hot matrix product added to it), and at `j = 499` the output block is computed
from it and stored. So the body has three control cases over the grid:

* A (`j = 0`): the reset is taken, the final store is not;
* B (`0 < j < 499`): neither;
* C (`j = 499`): the final store is taken, the reset is not.

This module decides the two branch conditions over the grid, says where the output window is idle, names the
staging memrefs and the scratch, restates the region invariant with the scratch as an owned memref, and runs the
body once per case: each run returns the list of pieces (last write first) the body leaves in the scratch (and, in
case C, in the output window's buffer) together with its triple.
-/

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two branch conditions, in closed form over the grid -/

/-- The condition of the body's first `scf.if` (the reset of the accumulator), from the grid coordinates. -/
abbrev cond1_0 (i : grid1.Coords) : Prop := (Scalar.cmpi .ne (Scalar.extui (Scalar.cmpi .eq (BitVec.ofNat 32 (i 1).val) 0#32)) 0#32) = 1#1
/-- The condition of the body's second `scf.if` (the final store into the output block). -/
abbrev cond1_1 (i : grid1.Coords) : Prop := k1_cond2 i = 1#1

/-- The reset is taken exactly at the points with `j = 0`, that is `t ≡ 0 (mod 500)`. -/
theorem hcond1_0 : ∀ t : Fin cfg1.N, cond1_0 (grid1.coords t) ↔ t.val % 500 = 0 :=
  (by decide +kernel : ∀ t : Fin grid1.N, cond1_0 (grid1.coords t) ↔ t.val % 500 = 0)
/-- The final store is taken exactly at the points with `j = 499`, that is `t ≡ 499 (mod 500)`. -/
theorem hcond1_1 : ∀ t : Fin cfg1.N, cond1_1 (grid1.coords t) ↔ t.val % 500 = 499 :=
  (by decide +kernel : ∀ t : Fin grid1.N, cond1_1 (grid1.coords t) ↔ t.val % 500 = 499)

/-! ## Where the windows are idle -/

/-- The six input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl

/-- The output window is idle exactly where the final store is not taken: the configuration's table for it is
    the negation of that store's condition. -/
theorem idle1_6_iff (i : grid1.Coords) : cfg1.idle 6 i = true ↔ ¬cond1_1 i := by
  show (!(k1_cond2 i == 1#1)) = true ↔ ¬(k1_cond2 i = 1#1)
  simp only [Bool.not_eq_true', beq_eq_false_iff_ne, ne_eq]

/-- Where the final store is not taken (cases A and B) the output window is idle, -/
theorem idleAt1_6 (t : Fin cfg1.N) (h1 : ¬cond1_1 (grid1.coords t)) : cfg1.idle 6 (grid1.coords t) = true :=
  (idle1_6_iff _).mpr h1
/-- and its block is not written back there (it is written back at `t ≡ 499 (mod 500)` only); -/
theorem noFlush1_6 (t : Fin cfg1.N) (h1 : ¬cond1_1 (grid1.coords t)) : (cfg1.win 6).flush t = false := by
  cases hf : (cfg1.win 6).flush t with
  | false => rfl
  | true => exact absurd ((hcond1_1 t).mpr ((flush1_6 t).mp hf)) h1
/-- where it is taken (case C) the window is live. -/
theorem liveAt1_6 (t : Fin cfg1.N) (h1 : cond1_1 (grid1.coords t)) : cfg1.idle 6 (grid1.coords t) = false := by
  cases hi : cfg1.idle 6 (grid1.coords t) with
  | false => rfl
  | true => exact absurd h1 ((idle1_6_iff _).mp hi)

/-! ## The staging memrefs and the scratch -/

/-- One staging buffer of the output window, through which its contents are stated (the choice does not matter:
    what is read back after covering writes does not depend on the view). -/
abbrev VO1_6 : View sig .tc .vmem S5000x64 .f32 := (Memref.whole cc1_stg6_0 : Memref sig .tc .vmem S5000x64 .f32).view
/-- Each window's current staging memref at point `t`, spelled as the pipeline passes it to the body, and its wholeness. -/
abbrev ms1_0 (t : Fin cfg1.N) : Memref sig .tc .vmem S3200x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S5000x64 .f32 := win1_6.stage (cfg1.slots t 6)
abbrev hs1_6 (t : Fin cfg1.N) : (ms1_6 t).IsWhole := hstage1_6 ((cfg1.slots t 6).cast nbuf1_6)
/-- The scratch accumulator: a whole scoped buffer of the kernel's own, passed beside the windows. -/
abbrev scM1_0 : Memref sig .tc .vmem S5000x64 .f32 := Memref.whole cc1_scratch0
/-- The same as a view: what the accumulator holds is stated through it. -/
abbrev VS1_0 : View sig .tc .vmem S5000x64 .f32 := scM1_0.view

/-! ## The region invariant with the accumulator as an owned memref -/

/-- The core's scoped buffers that are no staging buffer of this region: the seven staging buffers of the other
    region, each whole at some contents (the body never touches them), and the accumulator in the state `S`. -/
def scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- What the launch hands the region: those buffers with the accumulator at some contents, and the generator
    register at some state. -/
theorem PhiA1_eq (c : Dev nD) :
    (Pipeline.ΦA spec1 c : sProp 𝕄)
      = iprop(scoped1 c iprop(∃ d, owns (c : Thread nD τ) scM1_0 fullShare d) ∗ (∃ r, prngReg c r)) := by
  unfold Pipeline.ΦA scoped1; rw [scopedRest1_eq]; simp only [scM1_0, owns_whole]; try rfl

/-! ## The body's triple, case by case

Each run is stated on ANY whole memrefs for the body's eight operands. It is given the buffers the case reads at
their contents and the buffers it covers at anything, and continues with the read buffers as they were and each
written buffer with the case's pieces laid over it. The pieces are the witness the run finds. -/

-- (the run's proof term is large: the definition's epilogue walks it past the default budget)
set_option maxHeartbeats 1000000 in
/-- CASE A (`j = 0`): the accumulator, at anything, is reset and then updated from the edge block (`arg2`: the
    destinations, `arg3`: the messages); two pieces, the update over the reset. -/
noncomputable def kernelRun1_A (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : cond1_0 i) (hc1 : ¬cond1_1 i)
    (x0 : Vec F S3200x1 .i32) (x1 : Vec F S3200x64 .f32) :
    { LS0 : List (View.Piece (Elt F) S5000x64 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1__scatter_kernel i arg2 harg2 arg3 harg3 arg4 harg4 arg5 harg5 arg6 harg6 arg7 harg7 arg8 harg8 arg9 harg9) K } := by
  refine ⟨?_, fun E K => ?run⟩
  case run =>
    simp only [cc1__scatter_kernel_eq_skeleton]; unfold cc1__scatter_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- CASE B (`0 < j < 499`): the accumulator, at what the point before left (`xs0`), is updated from the edge block;
    one piece. -/
noncomputable def kernelRun1_B (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : ¬cond1_1 i)
    (x0 : Vec F S3200x1 .i32) (x1 : Vec F S3200x64 .f32) (xs0 : Vec F S5000x64 .f32) :
    { LS0 : List (View.Piece (Elt F) S5000x64 .f32) //
      ∀ (E : Set ℕ) (K : PUnit → sProp 𝕄),
        iprop(owns (c : Thread nD τ) arg2 fullShare x0 ∗ owns (c : Thread nD τ) arg3 fullShare x1 ∗ owns (c : Thread nD τ) arg9 fullShare xs0
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1__scatter_kernel i arg2 harg2 arg3 harg3 arg4 harg4 arg5 harg5 arg6 harg6 arg7 harg7 arg8 harg8 arg9 harg9) K } := by
  refine ⟨?_, fun E K => ?run⟩
  case run =>
    simp only [cc1__scatter_kernel_eq_skeleton]; unfold cc1__scatter_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- CASE C (`j = 499`): the accumulator, at what the point before left, is updated from the edge block, and the
    output block (`arg8`, at anything) is stored from the updated accumulator and the node blocks (`arg4`: the
    features, `arg5`: the inverse degrees, `arg6`: the root weights, `arg7`: the bias); one piece each. -/
noncomputable def kernelRun1_C (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : cond1_1 i)
    (x0 : Vec F S3200x1 .i32) (x1 : Vec F S3200x64 .f32) (x2 : Vec F S5000x64 .f32) (x3 : Vec F S5000x1 .f32) (x4 : Vec F S64x64 .f32) (x5 : Vec F S64 .f32) (xs0 : Vec F S5000x64 .f32) :
    Σ' (L6 : List (View.Piece (Elt F) S5000x64 .f32)), { LS0 : List (View.Piece (Elt F) S5000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__scatter_kernel i arg2 harg2 arg3 harg3 arg4 harg4 arg5 harg5 arg6 harg6 arg7 harg7 arg8 harg8 arg9 harg9) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Frame

end
-- ==== Proof.KReg1.lean ====
import proofs.«400719_j31138512896561_3_alg».proof.Proof.Gen.Kernel.Launch
import proofs.«400719_j31138512896561_3_alg».proof.Proof.Gen.Kernel.Skeleton
import proofs.«400719_j31138512896561_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«400719_j31138512896561_3_alg».proof.Proof.KReg1Runs

/-!
# Region 1 (`cc1__scatter_kernel`): the frame half, at the region's entry contents `V`

Over the three whole-body runs: what each case leaves in the accumulator and in the output block, what both hold
point by point along the grid (`outsAt1`), the pipeline's proof data (`dat1`), the body obligation, and the
invariant's two ends (`hin1`, `hout1`). Everything is stated at a parameter `V`, the TensorCore's buffer contents
when the region is entered.
-/

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for ANY proof
    data whose array is `V`'s and whose body leaves the block in place: where the pipeline does not fetch the window
    (the node blocks inside a row of the grid, the weights and the bias after the first point) its block index has
    not moved, so the block already there is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator and in the output block -/

/-- Case A's two pieces for the accumulator (the update over the reset, each the whole `5000 × 64` rectangle) tile it, so they cover it. -/
theorem scover1_A_0 (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : cond1_0 i) (hc1 : ¬cond1_1 i)
    (x0 : Vec F S3200x1 .i32) (x1 : Vec F S3200x64 .f32) (y : S5000x64.Idx) :
    ∃ pc ∈ (kernelRun1_A c i arg2 harg2 arg3 harg3 arg4 harg4 arg5 harg5 arg6 harg6 arg7 harg7 arg8 harg8 arg9 harg9 hc0 hc1 x0 x1).1, y ∈ pc.1.set :=
  View.cover_of_tiledL (kernelRun1_A c i arg2 harg2 arg3 harg3 arg4 harg4 arg5 harg5 arg6 harg6 arg7 harg7 arg8 harg8 arg9 harg9 hc0 hc1 x0 x1).1 S5000x64.size (by sl_kernel_rfl) y

/-- What case A leaves in the accumulator: its pieces read back over junk. -/
def sout1_A_0 (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : cond1_0 i) (hc1 : ¬cond1_1 i)
    (x0 : Vec F S3200x1 .i32) (x1 : Vec F S3200x64 .f32) : Vec F S5000x64 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1).1)

/-- Case B's one piece for the accumulator covers it. -/
theorem scover1_B_0 (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : ¬cond1_1 i)
    (x0 : Vec F S3200x1 .i32) (x1 : Vec F S3200x64 .f32) (xs0 : Vec F S5000x64 .f32) (y : S5000x64.Idx) :
    ∃ pc ∈ (kernelRun1_B c i arg2 harg2 arg3 harg3 arg4 harg4 arg5 harg5 arg6 harg6 arg7 harg7 arg8 harg8 arg9 harg9 hc0 hc1 x0 x1 xs0).1, y ∈ pc.1.set :=
  View.cover_of_tiledL (kernelRun1_B c i arg2 harg2 arg3 harg3 arg4 harg4 arg5 harg5 arg6 harg6 arg7 harg7 arg8 harg8 arg9 harg9 hc0 hc1 x0 x1 xs0).1 S5000x64.size (by sl_kernel_rfl) y

/-- What case B leaves in the accumulator: its piece read back over junk. -/
def sout1_B_0 (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : ¬cond1_1 i)
    (x0 : Vec F S3200x1 .i32) (x1 : Vec F S3200x64 .f32) (xs0 : Vec F S5000x64 .f32) : Vec F S5000x64 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 xs0).1)

/-- Case C's one piece for the output block covers it. -/
theorem cover1_C_6 (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : cond1_1 i)
    (x0 : Vec F S3200x1 .i32) (x1 : Vec F S3200x64 .f32) (x2 : Vec F S5000x64 .f32) (x3 : Vec F S5000x1 .f32) (x4 : Vec F S64x64 .f32) (x5 : Vec F S64 .f32) (xs0 : Vec F S5000x64 .f32) (y : S5000x64.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S5000x64.size (by sl_kernel_rfl) y

/-- What case C leaves in the output window's staging buffer: its piece read back over junk. -/
def out1_C_6 (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : cond1_1 i)
    (x0 : Vec F S3200x1 .i32) (x1 : Vec F S3200x64 .f32) (x2 : Vec F S5000x64 .f32) (x3 : Vec F S5000x1 .f32) (x4 : Vec F S64x64 .f32) (x5 : Vec F S64 .f32) (xs0 : Vec F S5000x64 .f32) : Vec F S5000x64 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- Case C's one piece for the accumulator covers it. -/
theorem scover1_C_0 (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : cond1_1 i)
    (x0 : Vec F S3200x1 .i32) (x1 : Vec F S3200x64 .f32) (x2 : Vec F S5000x64 .f32) (x3 : Vec F S5000x1 .f32) (x4 : Vec F S64x64 .f32) (x5 : Vec F S64 .f32) (xs0 : Vec F S5000x64 .f32) (y : S5000x64.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S5000x64.size (by sl_kernel_rfl) y

/-- What case C leaves in the accumulator: its piece read back over junk. -/
def sout1_C_0 (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : cond1_1 i)
    (x0 : Vec F S3200x1 .i32) (x1 : Vec F S3200x64 .f32) (x2 : Vec F S5000x64 .f32) (x3 : Vec F S5000x1 .f32) (x4 : Vec F S64x64 .f32) (x5 : Vec F S64 .f32) (xs0 : Vec F S5000x64 .f32) : Vec F S5000x64 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-- At a point of case A or B the body stores nothing into the output block: the window is idle there and not
    written back, and nothing consults what its buffer holds. A placeholder for it: junk read back. -/
def idleOut1_6 : Vec F S5000x64 .f32 := VO1_6.read (Elt F) VO1_6.junk

/-! ## What the output block and the accumulator hold after each point -/

/-- THE ACCUMULATION. What the output window's staging buffer and the accumulator hold after the body at position
    `n` (a pair: the output buffer, then the accumulator): the case the closed forms select at `n`, run at the
    point's memrefs and input blocks, the accumulator entering at what position `n - 1` left in it (cases B and C;
    case A resets it). An assignment of the conditions no point meets is no case. -/
def outsAt1 (c : Dev nD) : (n : ℕ) → n < cfg1.N → Vec F S5000x64 .f32 × Vec F S5000x64 .f32
  | 0, hn => (idleOut1_6, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 500 = 0 then
      if h1 : (n + 1) % 500 = 499 then
        False.elim (by omega)
      else
        (idleOut1_6, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 500 = 499 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (idleOut1_6, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A: that case's contents. -/
theorem outsAt1_A (c : Dev nD) (t : Fin cfg1.N) (h0 : t.val % 500 = 0) (h1 : ¬t.val % 500 = 499) :
    outsAt1 V c t.val t.isLt = (idleOut1_6, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 500 = 0) (h1 : ¬t.val % 500 = 499) :
    outsAt1 V c t.val t.isLt = (idleOut1_6, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 500 = 0) (h1 : t.val % 500 = 499) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands the region (the
    accumulator at anything); afterwards the same scoped buffers with the accumulator at what the point before left
    in it (`outsAt1`'s second component), and the generator register at some state. -/
def PhiS1 (c : Dev nD) : (n : ℕ) → n ≤ cfg1.N → sProp 𝕄
  | 0, _ => Pipeline.ΦA spec1 c
  | n + 1, hn => iprop(scoped1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(scoped1 c (owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(scoped1 c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of this region's pipeline on core `c`: the arrays as the region finds them (`V`); after the body
    at point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents (the definition projected, so that `V` is never unfolded). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks; `t mod 500` says which case the point is in. The
    invariant hands the body the accumulator — at anything at the very first point, else at what the point before
    left — and takes it back at this point's contents (the case's pieces cover it). In cases A and B the output
    window is idle and its buffer is handed back as found; in case C it is covered by the final store. The other
    region's staging buffers, the generator register and the core's (empty) debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 10000 := lt_of_lt_of_eq t.isLt (show cfg1.N = 10000 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 500 = 0
  · have h1 : ¬t.val % 500 = 499 := by omega
    rw [Dat.leavesExact_idle (dat1 V c) 6 t (idleAt1_6 t (fun h => h1 ((hcond1_1 t).mp h))) (noFlush1_6 t (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]; unfold scoped1
      iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩, ⟨%d5, H5⟩, H6⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS0]; · iexact HS0
      iintro ⟨H0, H1, ⟨%es0, HS0⟩⟩
      isplitl [HR0 HR1 HR2 HR3 HR4 HR5 HR6 HS0 Hg]
      · isplitl [HR0 HR1 HR2 HR3 HR4 HR5 HR6 HS0]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS0
          ipureintro; exact View.read_writes_of_cover _ _ _ _ _ (scover1_A_0 c _ _ _ _ _ _ _ _ _ _ _ _ _ _ _ _ _ _ _ _ _)
        iexact Hg
      ·
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · rw [PhiS1_castSucc V c t, PhiS1_pos V c _ _ hz]; unfold scoped1
      iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩, ⟨%d5, H5⟩, H6⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS0]; · iexists _; iexact HS0
      iintro ⟨H0, H1, ⟨%es0, HS0⟩⟩
      isplitl [HR0 HR1 HR2 HR3 HR4 HR5 HR6 HS0 Hg]
      · isplitl [HR0 HR1 HR2 HR3 HR4 HR5 HR6 HS0]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS0
          ipureintro; exact View.read_writes_of_cover _ _ _ _ _ (scover1_A_0 c _ _ _ _ _ _ _ _ _ _ _ _ _ _ _ _ _ _ _ _ _)
        iexact Hg
      ·
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
  · have hz : t.val ≠ 0 := fun hz => h0 (by rw [hz])
    by_cases h1 : t.val % 500 = 499
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_6 sout1_C_0; (try dsimp only)
      rw [PhiS1_castSucc V c t, PhiS1_pos V c _ _ hz]; unfold scoped1
      iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HR0 HR1 HR2 HR3 HR4 HR5 HR6 HS0 Hg]
      · isplitl [HR0 HR1 HR2 HR3 HR4 HR5 HR6 HS0]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS0
          ipureintro; exact View.read_writes_of_cover _ _ _ _ _ (scover1_C_0 c _ _ _ _ _ _ _ _ _ _ _ _ _ _ _ _ _ _ _ _ _ _ _ _ _ _)
        iexact Hg
      · isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B_0; (try dsimp only)
      rw [PhiS1_castSucc V c t, PhiS1_pos V c _ _ hz]; unfold scoped1
      iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩, ⟨%d5, H5⟩, H6⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HR0 HR1 HR2 HR3 HR4 HR5 HR6 HS0 Hg]
      · isplitl [HR0 HR1 HR2 HR3 HR4 HR5 HR6 HS0]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS0
          ipureintro; exact View.read_writes_of_cover _ _ _ _ _ (scover1_B_0 c _ _ _ _ _ _ _ _ _ _ _ _ _ _ _ _ _ _ _ _ _ _)
        iexact Hg
      ·
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨HR0, HR1, HR2, HR3, HR4, HR5, HR6, HS0⟩, Hg⟩
  isplitl [HR0 HR1 HR2 HR3 HR4 HR5 HR6 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 10000 := N_1; omega)

end Cert.Kernel.Frame

end
-- ==== Proof.KRun.lean ====
/-
  The whole program as five items — two stretches of host operations, the message kernel, one host operation, the
  gathering kernel — run from the launch to the return: what every buffer holds between the items, each kernel entered
  from the contents the item before it left, and at the end every buffer read back. The arguments end as launched (no
  host operation writes one, the kernels only read them); the result buffer ends at what the gathering kernel's
  write-backs leave.
-/
import proofs.«400719_j31138512896561_3_alg».proof.Proof.Gen.Kernel.Regions
import proofs.«400719_j31138512896561_3_alg».proof.Proof.KReg0
import proofs.«400719_j31138512896561_3_alg».proof.Proof.KReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the TensorCore's buffers hold between the five items of the program

The items, in order: the first stretch of host operations (degrees, mixture weights), the second (the gathered source
rows), the message kernel, one more host operation (the destination words as a column), the gathering kernel. -/

/-- At launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- After the second host stretch: what the message kernel is entered with. -/
abbrev W2 : Dev nD → Valuation τ sig (Elt F) := fun c => StableHlo.after hostOps0_1 (W1 m ρ c)
/-- The same read at the TensorCore's references. -/
abbrev V2 : (c : Dev nD) → (b : Ref sig .tc) → Buf (Elt F) ((c : Thread nD τ).loc b) := fun c b => W2 m ρ c b
/-- After the message kernel: its arrays at what its write-backs leave, every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After the one host operation between the kernels: what the gathering kernel is entered with. -/
abbrev W4 : Dev nD → Valuation τ sig (Elt F) := fun c => StableHlo.after hostOps1 (W3 m ρ c)
abbrev V4 : (c : Dev nD) → (b : Ref sig .tc) → Buf (Elt F) ((c : Thread nD τ).loc b) := fun c b => W4 m ρ c b
/-- After the gathering kernel. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Each kernel's proof data at its own entry contents. -/
def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The kernels as segments -/

set_option backward.isDefEq.respectTransparency.types false in
/-- The message kernel over the thread state: entered from every unscoped buffer at W2, left at W3. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The class invariant makes the gathering kernel's first invariant, and its last invariant gives the class invariant back
    (the accumulator's named contents forgotten). -/
theorem hin1' (c : Dev nD) : Pipeline.ΦA spec1 c ⊢ (pdats m ρ 1 c).Φ 0 := hin1 (V4 m ρ) c
theorem hout1' (c : Dev nD) : (pdats m ρ 1 c).Φ (Fin.last _) ⊢ Pipeline.ΦA spec1 c := hout1 (V4 m ρ) c

set_option backward.isDefEq.respectTransparency.types false in
/-- The gathering kernel over the thread state: entered from every unscoped buffer at W4, left at W5. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1' m ρ c)
    unfold Pipeline.ΦA
    iintro ⟨Hp, -, Hr⟩
    isplitl [Hr]; · iexact Hr
    iexact Hp
  hout c := by
    rw [Pipeline.ownSems0_none]
    refine (hout1' m ρ c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds every unscoped TensorCore buffer at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## Reading the fold back: the arguments end as launched, the result array is the gathering kernel's -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W4_of (c : Dev nD) (r : Ref sig .tc) (h : r ∉ hostOps1_W) : W4 m ρ c (Proc.devRef .tc r) = W3 m ρ c (Proc.devRef .tc r) :=
  StableHlo.after_of_writes_sub hostOps1 _ hostOps1_writes h
/-- An input array of the message kernel leaves it as it entered. -/
theorem W3_in (c : Dev nD) (w : Fin cfg0.W) (hw : (cfg0.win w).isOut = false) :
    W3 m ρ c (Proc.devRef .tc (Pipeline.arrRef spec0 w)) = W2 m ρ c (Proc.devRef .tc (Pipeline.arrRef spec0 w)) :=
  (W3_arr m ρ c w).trans (((dat0 (V2 m ρ) c).arrAt_in w hw _).trans (A_eq0 (V2 m ρ) c w))
/-- An input array of the gathering kernel leaves it as it entered. -/
theorem W5_in (c : Dev nD) (w : Fin cfg1.W) (hw : (cfg1.win w).isOut = false) :
    W5 m ρ c (Proc.devRef .tc (Pipeline.arrRef spec1 w)) = W4 m ρ c (Proc.devRef .tc (Pipeline.arrRef spec1 w)) :=
  (W5_arr m ρ c w).trans (((dat1 (V4 m ρ) c).arrAt_in w hw _).trans (A_eq1 (V4 m ρ) c w))

/-- A buffer that no host operation writes and that is no array of the message kernel holds, when the gathering kernel is
    entered, its launch contents. -/
theorem W4_launch (c : Dev nD) (r : Ref sig .tc) (h0 : r ∉ hostOps0_W) (h1 : r ∉ hostOps0_1_W) (h3 : r ∉ hostOps1_W)
    (hne : ∀ w, Pipeline.arrRef spec0 w ≠ r) : W4 m ρ c (Proc.devRef .tc r) = m ((c : Thread nD τ).loc r) :=
  (W4_of m ρ c r h3).trans ((W3_of_ne m ρ c r hne).trans ((W2_of m ρ c r h1).trans ((W1_of m ρ c r h0).trans rfl)))

theorem W5_main_arg0 (c : Dev nD) : W5 m ρ c (Proc.devRef .tc main_arg0) = m ((c : Thread nD τ).loc main_arg0) :=
  (W5_in m ρ c 2 rfl).trans (W4_launch m ρ c main_arg0 (by decide) (by decide) (by decide) (by decide))
theorem W5_main_arg1 (c : Dev nD) : W5 m ρ c (Proc.devRef .tc main_arg1) = m ((c : Thread nD τ).loc main_arg1) :=
  (W5_of_ne m ρ c main_arg1 (by decide)).trans (W4_launch m ρ c main_arg1 (by decide) (by decide) (by decide) (by decide))
theorem W5_main_arg2 (c : Dev nD) : W5 m ρ c (Proc.devRef .tc main_arg2) = m ((c : Thread nD τ).loc main_arg2) :=
  (W5_of_ne m ρ c main_arg2 (by decide)).trans ((W4_of m ρ c main_arg2 (by decide)).trans ((W3_in m ρ c 2 rfl).trans
    ((W2_of m ρ c main_arg2 (by decide)).trans ((W1_of m ρ c main_arg2 (by decide)).trans rfl))))
theorem W5_main_arg3 (c : Dev nD) : W5 m ρ c (Proc.devRef .tc main_arg3) = m ((c : Thread nD τ).loc main_arg3) :=
  (W5_of_ne m ρ c main_arg3 (by decide)).trans (W4_launch m ρ c main_arg3 (by decide) (by decide) (by decide) (by decide))
theorem W5_main_arg4 (c : Dev nD) : W5 m ρ c (Proc.devRef .tc main_arg4) = m ((c : Thread nD τ).loc main_arg4) :=
  (W5_of_ne m ρ c main_arg4 (by decide)).trans (W4_launch m ρ c main_arg4 (by decide) (by decide) (by decide) (by decide))
theorem W5_main_arg5 (c : Dev nD) : W5 m ρ c (Proc.devRef .tc main_arg5) = m ((c : Thread nD τ).loc main_arg5) :=
  (W5_in m ρ c 4 rfl).trans (W4_launch m ρ c main_arg5 (by decide) (by decide) (by decide) (by decide))
theorem W5_main_arg6 (c : Dev nD) : W5 m ρ c (Proc.devRef .tc main_arg6) = m ((c : Thread nD τ).loc main_arg6) :=
  (W5_in m ρ c 5 rfl).trans (W4_launch m ρ c main_arg6 (by decide) (by decide) (by decide) (by decide))

/-- THE RUN, READ: every execution terminates; the result buffer ends at what the gathering kernel's write-backs leave, and
    every argument ends as launched. -/
theorem run_out : θ_run defs (onTc (τ := τ) (main (F := F))) ⟨m, fun _ => 0, ρ⟩ (fun r => ∀ c : Dev nD,
      r.2.mem ((c.tc : Thread nD τ).loc main_v50) = (dat1 (V4 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v50 (by decide))).trans (W5_arr m ρ c 6),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (run_all m ρ)

/-- The frame: every execution terminates and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_out m ρ)

end Cert.Kernel.Frame

end
-- ==== Proof.KIReg0.lean ====
/- The frame half of REGION 0 of the program: custom_call 0, the kernel function that forms the messages
   (one block of 3200 edges at a grid point), stated at a PARAMETER V — the TensorCore's buffer contents when the
   region is entered. Windows 0, 1, 2 are inputs (the gathered source rows, the 4 gaussian weights of each edge, the
   64x256 matrix, whose block index is constant), window 3 the output (the block of messages). Per point: each
   window's block read off its array, the closed form of what the body leaves in the output buffer from the three
   input blocks, the body's triple, the pipeline's proof data and the body obligation. Generic in the float
   interpretation. -/
import proofs.«400719_j31138512896561_3_alg».proof.Proof.Gen.KernelIdeal.Launch
import proofs.«400719_j31138512896561_3_alg».proof.Proof.Gen.KernelIdeal.Skeleton
import proofs.«400719_j31138512896561_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 3200 rows: the structural look recurses once per coordinate of the long axis
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the source rows): its current staging buffer holds its block at every point, for any proof data
    whose array is V's and whose body leaves the block in place. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the edge weights): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the matrix): its block index is constant, so it is fetched at the first point only; at a later
    point the index has not moved and the buffer still holds the block the body left in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 3200x64 block: the load of the source rows, and the (dead) load and the store of the messages. -/
abbrev r0_out : Rect S3200x64 := Rect.unit (s := S3200x64) ![0, 0] S3200x64.size inb_S3200x64_S3200x64_0_0
/-- The whole 3200x4 block of weights. -/
abbrev r0_gw : Rect S3200x4 := Rect.unit (s := S3200x4) ![0, 0] S3200x4.size inb_S3200x4_S3200x4_0_0
/-- The whole 64x256 matrix. -/
abbrev r0_g : Rect S64x256 := Rect.unit (s := S64x256) ![0, 0] S64x256.size inb_S64x256_S64x256_0_0

/-! ## What the body leaves in the output window's buffer -/

/-- Window 3's staging buffer after the body, from the three input blocks x0 (source rows), x1 (weights), x2 (matrix):
    its one store as a piece, the payload the skeleton's (whose arguments are ordered rows, matrix, weights). -/
def out0_3 (x0 : Vec F S3200x64 .f32) (x1 : Vec F S3200x4 .f32) (x2 : Vec F S64x256 .f32) : Vec F S3200x64 .f32 :=
  View.canon [⟨r0_out, k0_pay1 (View.ld x0 r0_out) (View.ld x2 r0_g) (View.ld x1 r0_gw)⟩]

/-- The store tiles the buffer (checked by evaluation), so it covers it. -/
theorem cover0_3 (p0 : Vec F S3200x64 .f32) (y : S3200x64.Idx) :
    ∃ pc ∈ ([⟨r0_out, p0⟩] : List (View.Piece (Elt F) S3200x64 .f32)), y ∈ pc.1.set :=
  View.cover_of_tiled [⟨r0_out, p0⟩] S3200x64.size (by rfl) y

/-! ## The body's triple -/

set_option maxHeartbeats 1000000 in
/-- The kernel body on whole staging memrefs, the three inputs' at read contents x0, x1, x2 and the output's at
    anything, runs to the continuation holding the inputs' as they were and the output's at out0_3 of the inputs'.
    The body also loads the output buffer before it stores it: with the buffer owned at some contents the load
    steps, and its value is not used. -/
theorem sound_kernel0 (c : Dev nD) (E : Set ℕ) (i : grid0.Coords)
    (arg1 : Memref sig .tc .vmem S3200x64 .f32) (harg1 : arg1.IsWhole) (arg2 : Memref sig .tc .vmem S3200x4 .f32) (harg2 : arg2.IsWhole)
    (arg3 : Memref sig .tc .vmem S64x256 .f32) (harg3 : arg3.IsWhole) (arg4 : Memref sig .tc .vmem S3200x64 .f32) (harg4 : arg4.IsWhole)
    (x0 : Vec F S3200x64 .f32) (x1 : Vec F S3200x4 .f32) (x2 : Vec F S64x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__msg_kernel i arg1 harg1 arg2 harg2 arg3 harg3 arg4 harg4) K := by
  simp only [cc0__msg_kernel_eq_skeleton]; unfold cc0__msg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as the region finds them (V); after the body at point t each
    input's buffer at its block and the output's at out0_3 of the three input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frame

end
-- ==== Proof.KIReg1Runs.lean ====
import proofs.«400719_j31138512896561_3_alg».proof.Proof.Gen.KernelIdeal.Launch
import proofs.«400719_j31138512896561_3_alg».proof.Proof.Gen.KernelIdeal.Skeleton
import proofs.«400719_j31138512896561_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1 (`cc1__scatter_kernel`): what its three whole-body runs share, and the runs

The kernel runs on a grid of 20 × 500 points, `t = i * 500 + j`. It carries one scratch accumulator between
grid points: at `j = 0` it is reset to zero, at every point the messages of the point's edge block are
scattered into it (a one-hot matrix product added to it), and at `j = 499` the output block is computed
from it and stored. So the body has three control cases over the grid:

* A (`j = 0`): the reset is taken, the final store is not;
* B (`0 < j < 499`): neither;
* C (`j = 499`): the final store is taken, the reset is not.

This module decides the two branch conditions over the grid, says where the output window is idle, names the
staging memrefs and the scratch, restates the region invariant with the scratch as an owned memref, and runs the
body once per case: each run returns the list of pieces (last write first) the body leaves in the scratch (and, in
case C, in the output window's buffer) together with its triple.
-/

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two branch conditions, in closed form over the grid -/

/-- The condition of the body's first `scf.if` (the reset of the accumulator), from the grid coordinates. -/
abbrev cond1_0 (i : grid1.Coords) : Prop := (Scalar.cmpi .ne (Scalar.extui (Scalar.cmpi .eq (BitVec.ofNat 32 (i 1).val) 0#32)) 0#32) = 1#1
/-- The condition of the body's second `scf.if` (the final store into the output block). -/
abbrev cond1_1 (i : grid1.Coords) : Prop := k1_cond2 i = 1#1

/-- The reset is taken exactly at the points with `j = 0`, that is `t ≡ 0 (mod 500)`. -/
theorem hcond1_0 : ∀ t : Fin cfg1.N, cond1_0 (grid1.coords t) ↔ t.val % 500 = 0 :=
  (by decide +kernel : ∀ t : Fin grid1.N, cond1_0 (grid1.coords t) ↔ t.val % 500 = 0)
/-- The final store is taken exactly at the points with `j = 499`, that is `t ≡ 499 (mod 500)`. -/
theorem hcond1_1 : ∀ t : Fin cfg1.N, cond1_1 (grid1.coords t) ↔ t.val % 500 = 499 :=
  (by decide +kernel : ∀ t : Fin grid1.N, cond1_1 (grid1.coords t) ↔ t.val % 500 = 499)

/-! ## Where the windows are idle -/

/-- The six input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl

/-- The output window is idle exactly where the final store is not taken: the configuration's table for it is
    the negation of that store's condition. -/
theorem idle1_6_iff (i : grid1.Coords) : cfg1.idle 6 i = true ↔ ¬cond1_1 i := by
  show (!(k1_cond2 i == 1#1)) = true ↔ ¬(k1_cond2 i = 1#1)
  simp only [Bool.not_eq_true', beq_eq_false_iff_ne, ne_eq]

/-- Where the final store is not taken (cases A and B) the output window is idle, -/
theorem idleAt1_6 (t : Fin cfg1.N) (h1 : ¬cond1_1 (grid1.coords t)) : cfg1.idle 6 (grid1.coords t) = true :=
  (idle1_6_iff _).mpr h1
/-- and its block is not written back there (it is written back at `t ≡ 499 (mod 500)` only); -/
theorem noFlush1_6 (t : Fin cfg1.N) (h1 : ¬cond1_1 (grid1.coords t)) : (cfg1.win 6).flush t = false := by
  cases hf : (cfg1.win 6).flush t with
  | false => rfl
  | true => exact absurd ((hcond1_1 t).mpr ((flush1_6 t).mp hf)) h1
/-- where it is taken (case C) the window is live. -/
theorem liveAt1_6 (t : Fin cfg1.N) (h1 : cond1_1 (grid1.coords t)) : cfg1.idle 6 (grid1.coords t) = false := by
  cases hi : cfg1.idle 6 (grid1.coords t) with
  | false => rfl
  | true => exact absurd h1 ((idle1_6_iff _).mp hi)

/-! ## The staging memrefs and the scratch -/

/-- One staging buffer of the output window, through which its contents are stated (the choice does not matter:
    what is read back after covering writes does not depend on the view). -/
abbrev VO1_6 : View sig .tc .vmem S5000x64 .f32 := (Memref.whole cc1_stg6_0 : Memref sig .tc .vmem S5000x64 .f32).view
/-- Each window's current staging memref at point `t`, spelled as the pipeline passes it to the body, and its wholeness. -/
abbrev ms1_0 (t : Fin cfg1.N) : Memref sig .tc .vmem S3200x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S5000x64 .f32 := win1_6.stage (cfg1.slots t 6)
abbrev hs1_6 (t : Fin cfg1.N) : (ms1_6 t).IsWhole := hstage1_6 ((cfg1.slots t 6).cast nbuf1_6)
/-- The scratch accumulator: a whole scoped buffer of the kernel's own, passed beside the windows. -/
abbrev scM1_0 : Memref sig .tc .vmem S5000x64 .f32 := Memref.whole cc1_scratch0
/-- The same as a view: what the accumulator holds is stated through it. -/
abbrev VS1_0 : View sig .tc .vmem S5000x64 .f32 := scM1_0.view

/-! ## The region invariant with the accumulator as an owned memref -/

/-- The core's scoped buffers that are no staging buffer of this region: the seven staging buffers of the other
    region, each whole at some contents (the body never touches them), and the accumulator in the state `S`. -/
def scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- What the launch hands the region: those buffers with the accumulator at some contents, and the generator
    register at some state. -/
theorem PhiA1_eq (c : Dev nD) :
    (Pipeline.ΦA spec1 c : sProp 𝕄)
      = iprop(scoped1 c iprop(∃ d, owns (c : Thread nD τ) scM1_0 fullShare d) ∗ (∃ r, prngReg c r)) := by
  unfold Pipeline.ΦA scoped1; rw [scopedRest1_eq]; simp only [scM1_0, owns_whole]; try rfl

/-! ## The body's triple, case by case

Each run is stated on ANY whole memrefs for the body's eight operands. It is given the buffers the case reads at
their contents and the buffers it covers at anything, and continues with the read buffers as they were and each
written buffer with the case's pieces laid over it. The pieces are the witness the run finds. -/

-- (the run's proof term is large: the definition's epilogue walks it past the default budget)
set_option maxHeartbeats 1000000 in
/-- CASE A (`j = 0`): the accumulator, at anything, is reset and then updated from the edge block (`arg2`: the
    destinations, `arg3`: the messages); two pieces, the update over the reset. -/
noncomputable def kernelRun1_A (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : cond1_0 i) (hc1 : ¬cond1_1 i)
    (x0 : Vec F S3200x1 .i32) (x1 : Vec F S3200x64 .f32) :
    { LS0 : List (View.Piece (Elt F) S5000x64 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1__scatter_kernel i arg2 harg2 arg3 harg3 arg4 harg4 arg5 harg5 arg6 harg6 arg7 harg7 arg8 harg8 arg9 harg9) K } := by
  refine ⟨?_, fun E K => ?run⟩
  case run =>
    simp only [cc1__scatter_kernel_eq_skeleton]; unfold cc1__scatter_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- CASE B (`0 < j < 499`): the accumulator, at what the point before left (`xs0`), is updated from the edge block;
    one piece. -/
noncomputable def kernelRun1_B (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : ¬cond1_1 i)
    (x0 : Vec F S3200x1 .i32) (x1 : Vec F S3200x64 .f32) (xs0 : Vec F S5000x64 .f32) :
    { LS0 : List (View.Piece (Elt F) S5000x64 .f32) //
      ∀ (E : Set ℕ) (K : PUnit → sProp 𝕄),
        iprop(owns (c : Thread nD τ) arg2 fullShare x0 ∗ owns (c : Thread nD τ) arg3 fullShare x1 ∗ owns (c : Thread nD τ) arg9 fullShare xs0
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1__scatter_kernel i arg2 harg2 arg3 harg3 arg4 harg4 arg5 harg5 arg6 harg6 arg7 harg7 arg8 harg8 arg9 harg9) K } := by
  refine ⟨?_, fun E K => ?run⟩
  case run =>
    simp only [cc1__scatter_kernel_eq_skeleton]; unfold cc1__scatter_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- CASE C (`j = 499`): the accumulator, at what the point before left, is updated from the edge block, and the
    output block (`arg8`, at anything) is stored from the updated accumulator and the node blocks (`arg4`: the
    features, `arg5`: the inverse degrees, `arg6`: the root weights, `arg7`: the bias); one piece each. -/
noncomputable def kernelRun1_C (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : cond1_1 i)
    (x0 : Vec F S3200x1 .i32) (x1 : Vec F S3200x64 .f32) (x2 : Vec F S5000x64 .f32) (x3 : Vec F S5000x1 .f32) (x4 : Vec F S64x64 .f32) (x5 : Vec F S64 .f32) (xs0 : Vec F S5000x64 .f32) :
    Σ' (L6 : List (View.Piece (Elt F) S5000x64 .f32)), { LS0 : List (View.Piece (Elt F) S5000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__scatter_kernel i arg2 harg2 arg3 harg3 arg4 harg4 arg5 harg5 arg6 harg6 arg7 harg7 arg8 harg8 arg9 harg9) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Frame

end
-- ==== Proof.KIReg1.lean ====
import proofs.«400719_j31138512896561_3_alg».proof.Proof.Gen.KernelIdeal.Launch
import proofs.«400719_j31138512896561_3_alg».proof.Proof.Gen.KernelIdeal.Skeleton
import proofs.«400719_j31138512896561_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«400719_j31138512896561_3_alg».proof.Proof.KIReg1Runs

/-!
# Region 1 (`cc1__scatter_kernel`): the frame half, at the region's entry contents `V`

Over the three whole-body runs: what each case leaves in the accumulator and in the output block, what both hold
point by point along the grid (`outsAt1`), the pipeline's proof data (`dat1`), the body obligation, and the
invariant's two ends (`hin1`, `hout1`). Everything is stated at a parameter `V`, the TensorCore's buffer contents
when the region is entered.
-/

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for ANY proof
    data whose array is `V`'s and whose body leaves the block in place: where the pipeline does not fetch the window
    (the node blocks inside a row of the grid, the weights and the bias after the first point) its block index has
    not moved, so the block already there is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator and in the output block -/

/-- Case A's two pieces for the accumulator (the update over the reset, each the whole `5000 × 64` rectangle) tile it, so they cover it. -/
theorem scover1_A_0 (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : cond1_0 i) (hc1 : ¬cond1_1 i)
    (x0 : Vec F S3200x1 .i32) (x1 : Vec F S3200x64 .f32) (y : S5000x64.Idx) :
    ∃ pc ∈ (kernelRun1_A c i arg2 harg2 arg3 harg3 arg4 harg4 arg5 harg5 arg6 harg6 arg7 harg7 arg8 harg8 arg9 harg9 hc0 hc1 x0 x1).1, y ∈ pc.1.set :=
  View.cover_of_tiledL (kernelRun1_A c i arg2 harg2 arg3 harg3 arg4 harg4 arg5 harg5 arg6 harg6 arg7 harg7 arg8 harg8 arg9 harg9 hc0 hc1 x0 x1).1 S5000x64.size (by sl_kernel_rfl) y

/-- What case A leaves in the accumulator: its pieces read back over junk. -/
def sout1_A_0 (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : cond1_0 i) (hc1 : ¬cond1_1 i)
    (x0 : Vec F S3200x1 .i32) (x1 : Vec F S3200x64 .f32) : Vec F S5000x64 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1).1)

/-- Case B's one piece for the accumulator covers it. -/
theorem scover1_B_0 (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : ¬cond1_1 i)
    (x0 : Vec F S3200x1 .i32) (x1 : Vec F S3200x64 .f32) (xs0 : Vec F S5000x64 .f32) (y : S5000x64.Idx) :
    ∃ pc ∈ (kernelRun1_B c i arg2 harg2 arg3 harg3 arg4 harg4 arg5 harg5 arg6 harg6 arg7 harg7 arg8 harg8 arg9 harg9 hc0 hc1 x0 x1 xs0).1, y ∈ pc.1.set :=
  View.cover_of_tiledL (kernelRun1_B c i arg2 harg2 arg3 harg3 arg4 harg4 arg5 harg5 arg6 harg6 arg7 harg7 arg8 harg8 arg9 harg9 hc0 hc1 x0 x1 xs0).1 S5000x64.size (by sl_kernel_rfl) y

/-- What case B leaves in the accumulator: its piece read back over junk. -/
def sout1_B_0 (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : ¬cond1_1 i)
    (x0 : Vec F S3200x1 .i32) (x1 : Vec F S3200x64 .f32) (xs0 : Vec F S5000x64 .f32) : Vec F S5000x64 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 xs0).1)

/-- Case C's one piece for the output block covers it. -/
theorem cover1_C_6 (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : cond1_1 i)
    (x0 : Vec F S3200x1 .i32) (x1 : Vec F S3200x64 .f32) (x2 : Vec F S5000x64 .f32) (x3 : Vec F S5000x1 .f32) (x4 : Vec F S64x64 .f32) (x5 : Vec F S64 .f32) (xs0 : Vec F S5000x64 .f32) (y : S5000x64.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S5000x64.size (by sl_kernel_rfl) y

/-- What case C leaves in the output window's staging buffer: its piece read back over junk. -/
def out1_C_6 (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : cond1_1 i)
    (x0 : Vec F S3200x1 .i32) (x1 : Vec F S3200x64 .f32) (x2 : Vec F S5000x64 .f32) (x3 : Vec F S5000x1 .f32) (x4 : Vec F S64x64 .f32) (x5 : Vec F S64 .f32) (xs0 : Vec F S5000x64 .f32) : Vec F S5000x64 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- Case C's one piece for the accumulator covers it. -/
theorem scover1_C_0 (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : cond1_1 i)
    (x0 : Vec F S3200x1 .i32) (x1 : Vec F S3200x64 .f32) (x2 : Vec F S5000x64 .f32) (x3 : Vec F S5000x1 .f32) (x4 : Vec F S64x64 .f32) (x5 : Vec F S64 .f32) (xs0 : Vec F S5000x64 .f32) (y : S5000x64.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S5000x64.size (by sl_kernel_rfl) y

/-- What case C leaves in the accumulator: its piece read back over junk. -/
def sout1_C_0 (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : cond1_1 i)
    (x0 : Vec F S3200x1 .i32) (x1 : Vec F S3200x64 .f32) (x2 : Vec F S5000x64 .f32) (x3 : Vec F S5000x1 .f32) (x4 : Vec F S64x64 .f32) (x5 : Vec F S64 .f32) (xs0 : Vec F S5000x64 .f32) : Vec F S5000x64 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-- At a point of case A or B the body stores nothing into the output block: the window is idle there and not
    written back, and nothing consults what its buffer holds. A placeholder for it: junk read back. -/
def idleOut1_6 : Vec F S5000x64 .f32 := VO1_6.read (Elt F) VO1_6.junk

/-! ## What the output block and the accumulator hold after each point -/

/-- THE ACCUMULATION. What the output window's staging buffer and the accumulator hold after the body at position
    `n` (a pair: the output buffer, then the accumulator): the case the closed forms select at `n`, run at the
    point's memrefs and input blocks, the accumulator entering at what position `n - 1` left in it (cases B and C;
    case A resets it). An assignment of the conditions no point meets is no case. -/
def outsAt1 (c : Dev nD) : (n : ℕ) → n < cfg1.N → Vec F S5000x64 .f32 × Vec F S5000x64 .f32
  | 0, hn => (idleOut1_6, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 500 = 0 then
      if h1 : (n + 1) % 500 = 499 then
        False.elim (by omega)
      else
        (idleOut1_6, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 500 = 499 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (idleOut1_6, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A: that case's contents. -/
theorem outsAt1_A (c : Dev nD) (t : Fin cfg1.N) (h0 : t.val % 500 = 0) (h1 : ¬t.val % 500 = 499) :
    outsAt1 V c t.val t.isLt = (idleOut1_6, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 500 = 0) (h1 : ¬t.val % 500 = 499) :
    outsAt1 V c t.val t.isLt = (idleOut1_6, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 500 = 0) (h1 : t.val % 500 = 499) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands the region (the
    accumulator at anything); afterwards the same scoped buffers with the accumulator at what the point before left
    in it (`outsAt1`'s second component), and the generator register at some state. -/
def PhiS1 (c : Dev nD) : (n : ℕ) → n ≤ cfg1.N → sProp 𝕄
  | 0, _ => Pipeline.ΦA spec1 c
  | n + 1, hn => iprop(scoped1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(scoped1 c (owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(scoped1 c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of this region's pipeline on core `c`: the arrays as the region finds them (`V`); after the body
    at point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents (the definition projected, so that `V` is never unfolded). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks; `t mod 500` says which case the point is in. The
    invariant hands the body the accumulator — at anything at the very first point, else at what the point before
    left — and takes it back at this point's contents (the case's pieces cover it). In cases A and B the output
    window is idle and its buffer is handed back as found; in case C it is covered by the final store. The other
    region's staging buffers, the generator register and the core's (empty) debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 10000 := lt_of_lt_of_eq t.isLt (show cfg1.N = 10000 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 500 = 0
  · have h1 : ¬t.val % 500 = 499 := by omega
    rw [Dat.leavesExact_idle (dat1 V c) 6 t (idleAt1_6 t (fun h => h1 ((hcond1_1 t).mp h))) (noFlush1_6 t (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]; unfold scoped1
      iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩, ⟨%d5, H5⟩, H6⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS0]; · iexact HS0
      iintro ⟨H0, H1, ⟨%es0, HS0⟩⟩
      isplitl [HR0 HR1 HR2 HR3 HR4 HR5 HR6 HS0 Hg]
      · isplitl [HR0 HR1 HR2 HR3 HR4 HR5 HR6 HS0]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS0
          ipureintro; exact View.read_writes_of_cover _ _ _ _ _ (scover1_A_0 c _ _ _ _ _ _ _ _ _ _ _ _ _ _ _ _ _ _ _ _ _)
        iexact Hg
      ·
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · rw [PhiS1_castSucc V c t, PhiS1_pos V c _ _ hz]; unfold scoped1
      iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩, ⟨%d5, H5⟩, H6⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS0]; · iexists _; iexact HS0
      iintro ⟨H0, H1, ⟨%es0, HS0⟩⟩
      isplitl [HR0 HR1 HR2 HR3 HR4 HR5 HR6 HS0 Hg]
      · isplitl [HR0 HR1 HR2 HR3 HR4 HR5 HR6 HS0]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS0
          ipureintro; exact View.read_writes_of_cover _ _ _ _ _ (scover1_A_0 c _ _ _ _ _ _ _ _ _ _ _ _ _ _ _ _ _ _ _ _ _)
        iexact Hg
      ·
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
  · have hz : t.val ≠ 0 := fun hz => h0 (by rw [hz])
    by_cases h1 : t.val % 500 = 499
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_6 sout1_C_0; (try dsimp only)
      rw [PhiS1_castSucc V c t, PhiS1_pos V c _ _ hz]; unfold scoped1
      iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HR0 HR1 HR2 HR3 HR4 HR5 HR6 HS0 Hg]
      · isplitl [HR0 HR1 HR2 HR3 HR4 HR5 HR6 HS0]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS0
          ipureintro; exact View.read_writes_of_cover _ _ _ _ _ (scover1_C_0 c _ _ _ _ _ _ _ _ _ _ _ _ _ _ _ _ _ _ _ _ _ _ _ _ _ _)
        iexact Hg
      · isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B_0; (try dsimp only)
      rw [PhiS1_castSucc V c t, PhiS1_pos V c _ _ hz]; unfold scoped1
      iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩, ⟨%d5, H5⟩, H6⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HR0 HR1 HR2 HR3 HR4 HR5 HR6 HS0 Hg]
      · isplitl [HR0 HR1 HR2 HR3 HR4 HR5 HR6 HS0]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS0
          ipureintro; exact View.read_writes_of_cover _ _ _ _ _ (scover1_B_0 c _ _ _ _ _ _ _ _ _ _ _ _ _ _ _ _ _ _ _ _ _ _)
        iexact Hg
      ·
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨HR0, HR1, HR2, HR3, HR4, HR5, HR6, HS0⟩, Hg⟩
  isplitl [HR0 HR1 HR2 HR3 HR4 HR5 HR6 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 10000 := N_1; omega)

end Cert.KernelIdeal.Frame

end
-- ==== Proof.KIRun.lean ====
/-
  The whole program as five items — two stretches of host operations, the message kernel, one host operation, the
  gathering kernel — run from the launch to the return: what every buffer holds between the items, each kernel entered
  from the contents the item before it left, and at the end every buffer read back. The arguments end as launched (no
  host operation writes one, the kernels only read them); the result buffer ends at what the gathering kernel's
  write-backs leave.
-/
import proofs.«400719_j31138512896561_3_alg».proof.Proof.Gen.KernelIdeal.Regions
import proofs.«400719_j31138512896561_3_alg».proof.Proof.KIReg0
import proofs.«400719_j31138512896561_3_alg».proof.Proof.KIReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the TensorCore's buffers hold between the five items of the program

The items, in order: the first stretch of host operations (degrees, mixture weights), the second (the gathered source
rows), the message kernel, one more host operation (the destination words as a column), the gathering kernel. -/

/-- At launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- After the second host stretch: what the message kernel is entered with. -/
abbrev W2 : Dev nD → Valuation τ sig (Elt F) := fun c => StableHlo.after hostOps0_1 (W1 m ρ c)
/-- The same read at the TensorCore's references. -/
abbrev V2 : (c : Dev nD) → (b : Ref sig .tc) → Buf (Elt F) ((c : Thread nD τ).loc b) := fun c b => W2 m ρ c b
/-- After the message kernel: its arrays at what its write-backs leave, every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After the one host operation between the kernels: what the gathering kernel is entered with. -/
abbrev W4 : Dev nD → Valuation τ sig (Elt F) := fun c => StableHlo.after hostOps1 (W3 m ρ c)
abbrev V4 : (c : Dev nD) → (b : Ref sig .tc) → Buf (Elt F) ((c : Thread nD τ).loc b) := fun c b => W4 m ρ c b
/-- After the gathering kernel. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Each kernel's proof data at its own entry contents. -/
def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The kernels as segments -/

set_option backward.isDefEq.respectTransparency.types false in
/-- The message kernel over the thread state: entered from every unscoped buffer at W2, left at W3. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The class invariant makes the gathering kernel's first invariant, and its last invariant gives the class invariant back
    (the accumulator's named contents forgotten). -/
theorem hin1' (c : Dev nD) : Pipeline.ΦA spec1 c ⊢ (pdats m ρ 1 c).Φ 0 := hin1 (V4 m ρ) c
theorem hout1' (c : Dev nD) : (pdats m ρ 1 c).Φ (Fin.last _) ⊢ Pipeline.ΦA spec1 c := hout1 (V4 m ρ) c

set_option backward.isDefEq.respectTransparency.types false in
/-- The gathering kernel over the thread state: entered from every unscoped buffer at W4, left at W5. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1' m ρ c)
    unfold Pipeline.ΦA
    iintro ⟨Hp, -, Hr⟩
    isplitl [Hr]; · iexact Hr
    iexact Hp
  hout c := by
    rw [Pipeline.ownSems0_none]
    refine (hout1' m ρ c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds every unscoped TensorCore buffer at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## Reading the fold back: the arguments end as launched, the result array is the gathering kernel's -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W4_of (c : Dev nD) (r : Ref sig .tc) (h : r ∉ hostOps1_W) : W4 m ρ c (Proc.devRef .tc r) = W3 m ρ c (Proc.devRef .tc r) :=
  StableHlo.after_of_writes_sub hostOps1 _ hostOps1_writes h
/-- An input array of the message kernel leaves it as it entered. -/
theorem W3_in (c : Dev nD) (w : Fin cfg0.W) (hw : (cfg0.win w).isOut = false) :
    W3 m ρ c (Proc.devRef .tc (Pipeline.arrRef spec0 w)) = W2 m ρ c (Proc.devRef .tc (Pipeline.arrRef spec0 w)) :=
  (W3_arr m ρ c w).trans (((dat0 (V2 m ρ) c).arrAt_in w hw _).trans (A_eq0 (V2 m ρ) c w))
/-- An input array of the gathering kernel leaves it as it entered. -/
theorem W5_in (c : Dev nD) (w : Fin cfg1.W) (hw : (cfg1.win w).isOut = false) :
    W5 m ρ c (Proc.devRef .tc (Pipeline.arrRef spec1 w)) = W4 m ρ c (Proc.devRef .tc (Pipeline.arrRef spec1 w)) :=
  (W5_arr m ρ c w).trans (((dat1 (V4 m ρ) c).arrAt_in w hw _).trans (A_eq1 (V4 m ρ) c w))

/-- A buffer that no host operation writes and that is no array of the message kernel holds, when the gathering kernel is
    entered, its launch contents. -/
theorem W4_launch (c : Dev nD) (r : Ref sig .tc) (h0 : r ∉ hostOps0_W) (h1 : r ∉ hostOps0_1_W) (h3 : r ∉ hostOps1_W)
    (hne : ∀ w, Pipeline.arrRef spec0 w ≠ r) : W4 m ρ c (Proc.devRef .tc r) = m ((c : Thread nD τ).loc r) :=
  (W4_of m ρ c r h3).trans ((W3_of_ne m ρ c r hne).trans ((W2_of m ρ c r h1).trans ((W1_of m ρ c r h0).trans rfl)))

theorem W5_main_arg0 (c : Dev nD) : W5 m ρ c (Proc.devRef .tc main_arg0) = m ((c : Thread nD τ).loc main_arg0) :=
  (W5_in m ρ c 2 rfl).trans (W4_launch m ρ c main_arg0 (by decide) (by decide) (by decide) (by decide))
theorem W5_main_arg1 (c : Dev nD) : W5 m ρ c (Proc.devRef .tc main_arg1) = m ((c : Thread nD τ).loc main_arg1) :=
  (W5_of_ne m ρ c main_arg1 (by decide)).trans (W4_launch m ρ c main_arg1 (by decide) (by decide) (by decide) (by decide))
theorem W5_main_arg2 (c : Dev nD) : W5 m ρ c (Proc.devRef .tc main_arg2) = m ((c : Thread nD τ).loc main_arg2) :=
  (W5_of_ne m ρ c main_arg2 (by decide)).trans ((W4_of m ρ c main_arg2 (by decide)).trans ((W3_in m ρ c 2 rfl).trans
    ((W2_of m ρ c main_arg2 (by decide)).trans ((W1_of m ρ c main_arg2 (by decide)).trans rfl))))
theorem W5_main_arg3 (c : Dev nD) : W5 m ρ c (Proc.devRef .tc main_arg3) = m ((c : Thread nD τ).loc main_arg3) :=
  (W5_of_ne m ρ c main_arg3 (by decide)).trans (W4_launch m ρ c main_arg3 (by decide) (by decide) (by decide) (by decide))
theorem W5_main_arg4 (c : Dev nD) : W5 m ρ c (Proc.devRef .tc main_arg4) = m ((c : Thread nD τ).loc main_arg4) :=
  (W5_of_ne m ρ c main_arg4 (by decide)).trans (W4_launch m ρ c main_arg4 (by decide) (by decide) (by decide) (by decide))
theorem W5_main_arg5 (c : Dev nD) : W5 m ρ c (Proc.devRef .tc main_arg5) = m ((c : Thread nD τ).loc main_arg5) :=
  (W5_in m ρ c 4 rfl).trans (W4_launch m ρ c main_arg5 (by decide) (by decide) (by decide) (by decide))
theorem W5_main_arg6 (c : Dev nD) : W5 m ρ c (Proc.devRef .tc main_arg6) = m ((c : Thread nD τ).loc main_arg6) :=
  (W5_in m ρ c 5 rfl).trans (W4_launch m ρ c main_arg6 (by decide) (by decide) (by decide) (by decide))

/-- THE RUN, READ: every execution terminates; the result buffer ends at what the gathering kernel's write-backs leave, and
    every argument ends as launched. -/
theorem run_out : θ_run defs (onTc (τ := τ) (main (F := F))) ⟨m, fun _ => 0, ρ⟩ (fun r => ∀ c : Dev nD,
      r.2.mem ((c.tc : Thread nD τ).loc main_v50) = (dat1 (V4 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v50 (by decide))).trans (W5_arr m ρ c 6),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (run_all m ρ)

/-- The frame: every execution terminates and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_out m ρ)

end Cert.KernelIdeal.Frame

end
-- ==== Proof.Spec.lean ====
/-
  The mathematics of the layer, over the extended reals, with no program in sight.

  An edge e carries a message: the source row, multiplied by the weight matrix (64 by 4·64, four blocks of
  64 columns), each block scaled by that edge's mixture weight for the block, the four blocks added:
      msg(e, q) = Σ_k gw(e, k) · Σ_j xs(e, j) · g(j, 64·k + q).
  A node n gathers the messages of the edges that point at it. Written with an indicator
  (1 where the edge's destination word is the node's number, 0 elsewhere) the gathering is a plain sum over all edges:
      agg(n, q) = Σ_e [dst(e) = n] · msg(e, q).
  The layer's result at node n scales the gathered sum by the node's reciprocal degree, adds the node's own row through the
  root matrix and the bias, clips below at zero, and adds the row back:
      out(n, q) = x(n, q) + max((agg(n, q) · invdeg(n) + Σ_j x(n, j) · root(j, q)) + bias(q), 0).
-/
import Idealize.ShloMosaic.PureOps.Ideal
import Idealize.ShloMosaic.Lib.ValueIdx

noncomputable section

open scoped BigOperators

namespace Cert.Spec

open Idealize.ShloMosaic Idealize.ShloMosaic.ValueIdx

/-- Column 64·k + q of the weight matrix: block k, column q inside the block. -/
abbrev col (k : Fin 4) (q : Fin 64) : Fin 256 := ⟨64 * k.val + q.val, by omega⟩

/-- One edge's message at feature q, from that edge's source row, its four mixture weights and the weight matrix. -/
def msgAt {E : Nat} (xs : (⟨2, ![E, 64]⟩ : Shape).Idx → EReal) (gw : (⟨2, ![E, 4]⟩ : Shape).Idx → EReal)
    (g : (⟨2, ![64, 256]⟩ : Shape).Idx → EReal) (e : Fin E) (q : Fin 64) : EReal :=
  ∑ k : Fin 4, gw (ix2 e k) * ∑ j : Fin 64, xs (ix2 e j) * g (ix2 j (col k q))

/-- The indicator of "edge e points at node number n": the destination word is the 32-bit numeral of n. -/
def hit {E : Nat} (dst : (⟨2, ![E, 1]⟩ : Shape).Idx → BitVec 32) (n : Nat) (e : Fin E) : EReal :=
  if BitVec.ofNat 32 n = dst (ix2 e 0) then 1 else 0

/-- What node number n gathers at feature q from E edges. -/
def aggAt {E : Nat} (dst : (⟨2, ![E, 1]⟩ : Shape).Idx → BitVec 32) (msg : (⟨2, ![E, 64]⟩ : Shape).Idx → EReal)
    (n : Nat) (q : Fin 64) : EReal :=
  ∑ e : Fin E, hit dst n e * msg (ix2 e q)

/-- The layer's last step at one node row: mean, root transform, bias, clip, residual. -/
def finishAt {N : Nat} (acc : EReal) (x : (⟨2, ![N, 64]⟩ : Shape).Idx → EReal) (invdeg : (⟨2, ![N, 1]⟩ : Shape).Idx → EReal)
    (root : (⟨2, ![64, 64]⟩ : Shape).Idx → EReal) (bias : (⟨1, ![64]⟩ : Shape).Idx → EReal) (n : Fin N) (q : Fin 64) : EReal :=
  x (ix2 n q) + max ((acc * invdeg (ix2 n 0) + ∑ j : Fin 64, x (ix2 n j) * root (ix2 j q)) + bias (ix1 q)) 0

/-- The whole message table. -/
def msgArr (xs : (⟨2, ![1600000, 64]⟩ : Shape).Idx → EReal) (gw : (⟨2, ![1600000, 4]⟩ : Shape).Idx → EReal)
    (g : (⟨2, ![64, 256]⟩ : Shape).Idx → EReal) : (⟨2, ![1600000, 64]⟩ : Shape).Idx → EReal :=
  fun i => msgAt xs gw g (i 0) (i 1)

/-- The whole result. -/
def outArr (dst : (⟨2, ![1600000, 1]⟩ : Shape).Idx → BitVec 32) (msg : (⟨2, ![1600000, 64]⟩ : Shape).Idx → EReal)
    (x : (⟨2, ![100000, 64]⟩ : Shape).Idx → EReal) (invdeg : (⟨2, ![100000, 1]⟩ : Shape).Idx → EReal)
    (root : (⟨2, ![64, 64]⟩ : Shape).Idx → EReal) (bias : (⟨1, ![64]⟩ : Shape).Idx → EReal) :
    (⟨2, ![100000, 64]⟩ : Shape).Idx → EReal :=
  fun i => finishAt (aggAt dst msg (i 0).val (i 1)) x invdeg root bias (i 0) (i 1)

end Cert.Spec

end
-- ==== Proof.LibPlainDot.lean ====
/-
  The plain matrix product read at an index.

  For the contraction pattern "rows × inner" by "inner × columns" (left axis 1 against right axis 0, no batch
  axis), the product into a zero accumulator, and the host's product of the same operands, are at output
  index (p, q) the sum over the inner coordinate k of l(p, k) · r(k, q). The contraction's own index type
  has one axis of extent K; the sum is re-indexed through the bijection of that type with `Fin K`.
  Nothing here depends on a program: the three extents are variables.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The plain pattern contracts exactly one axis. -/
theorem contr_rank : (DotDims.plain M K N).contr.rank = 1 := rfl

/-- That axis has the inner extent. -/
theorem contr_size : (DotDims.plain M K N).contr.size ⟨0, by rw [contr_rank]; exact Nat.one_pos⟩ = K := rfl

/-- The bijection of the contraction's index type with the inner coordinate. -/
abbrev inner : (DotDims.plain M K N).contr.Idx ≃ Fin K :=
  contrEquiv1 (DotDims.plain M K N) K contr_rank contr_size

/-- At output index j and inner coordinate k the left operand is read at (j₀, k). -/
theorem lhsIdx_inner (j : (⟨2, ![M, N]⟩ : Shape).Idx) (k : Fin K) :
    (DotDims.plain M K N).lhsIdx j (inner.symm k) = ix2 (j 0) k := by
  funext a
  match a with
  | ⟨0, _⟩ => rfl
  | ⟨1, _⟩ =>
    apply Fin.ext
    exact ((DotDims.plain M K N).lhsIdx_val_of_single (cl := 1) rfl j (inner.symm k)).trans
      (contrEquiv1_symm_val (DotDims.plain M K N) K contr_rank contr_size k)

/-- At output index j and inner coordinate k the right operand is read at (k, j₁). -/
theorem rhsIdx_inner (j : (⟨2, ![M, N]⟩ : Shape).Idx) (k : Fin K) :
    (DotDims.plain M K N).rhsIdx j (inner.symm k) = ix2 k (j 1) := by
  funext a
  match a with
  | ⟨0, _⟩ =>
    apply Fin.ext
    exact ((DotDims.plain M K N).rhsIdx_val_of_single (cr := 0) rfl j (inner.symm k)).trans
      (contrEquiv1_symm_val (DotDims.plain M K N) K contr_rank contr_size k)
  | ⟨1, _⟩ => rfl

/-- The contraction's sum, over the inner coordinate. -/
theorem sum_inner (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (inner (M := M) (K := K) (N := N)).symm]
  exact Finset.sum_congr rfl fun k _ =>
    congrArg₂ (· * ·) (congrArg l (lhsIdx_inner j k)) (congrArg r (rhsIdx_inner j k))

/-- A kernel's product into the zero accumulator, at an index. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_inner l r j)

/-- The host's product, at an index: the same sum. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_inner l r j)

end Cert.LibPlainDot

end
-- ==== Proof.KIPayloads.lean ====
/-
  The arithmetic of the two kernel bodies over the extended reals, read at an index.

  Four facts about pure terms. The message body: the product of the source rows with the weight matrix, cut into four
  blocks of 64 columns, each block scaled by the row's mixture weight for it, the four blocks added. The scatter body:
  its accumulator starts at zero; one step adds, to the carried value at node row p, the sum over the block's edges of
  the indicator "this edge points at node number (block index)·5000 + p" times the edge's message; the last step
  scales by the reciprocal degree, adds the node's own row through the root matrix and the bias, clips below at zero
  and adds the row back.
-/
import proofs.«400719_j31138512896561_3_alg».proof.Proof.Gen.KernelIdeal.Skeleton
import proofs.«400719_j31138512896561_3_alg».proof.Proof.Spec
import proofs.«400719_j31138512896561_3_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## The three contraction patterns are the plain one -/

/-- Source rows (3200×64) by the weight matrix (64×256). -/
theorem dot_msg_eq : dot_S3200x64_S64x256_S3200x256_1_0_0_1_n_n = DotDims.plain 3200 64 256 := rfl
/-- The indicator matrix (5000×3200) by the messages (3200×64). -/
theorem dot_agg_eq : dot_S5000x3200_S3200x64_S5000x64_1_0_0_1_n_n = DotDims.plain 5000 3200 64 := rfl
/-- Node rows (5000×64) by the root matrix (64×64). -/
theorem dot_root_eq : dot_S5000x64_S64x64_S5000x64_1_0_0_1_n_n = DotDims.plain 5000 64 64 := rfl

/-- The first product into the zero accumulator, at (p, c). -/
theorem msg_dot_apply (l : FVec Ideal S3200x64 .bf16) (r : FVec Ideal S64x256 .bf16) (p : Fin 3200) (c : Fin 256) :
    matmul dot_S3200x64_S64x256_S3200x256_1_0_0_1_n_n none l r (constant (F := Ideal) S3200x256 .f32 0x00000000#32) (ix2 p c)
      = ∑ j : Fin 64, l (ix2 p j) * r (ix2 j c) := by
  rw [dot_msg_eq]
  exact Cert.LibPlainDot.matmul_zero_apply none l r (ix2 p c)

/-- The gathering product into the zero accumulator, at (p, q). -/
theorem agg_dot_apply (l : FVec Ideal S5000x3200 .bf16) (r : FVec Ideal S3200x64 .bf16) (p : Fin 5000) (q : Fin 64) :
    matmul dot_S5000x3200_S3200x64_S5000x64_1_0_0_1_n_n none l r (constant (F := Ideal) S5000x64 .f32 0x00000000#32) (ix2 p q)
      = ∑ e : Fin 3200, l (ix2 p e) * r (ix2 e q) := by
  rw [dot_agg_eq]
  exact Cert.LibPlainDot.matmul_zero_apply none l r (ix2 p q)

/-- The root product into the zero accumulator, at (p, q). -/
theorem root_dot_apply (l : FVec Ideal S5000x64 .f32) (r : FVec Ideal S64x64 .f32) (p : Fin 5000) (q : Fin 64) :
    matmul dot_S5000x64_S64x64_S5000x64_1_0_0_1_n_n none l r (constant (F := Ideal) S5000x64 .f32 0x00000000#32) (ix2 p q)
      = ∑ j : Fin 64, l (ix2 p j) * r (ix2 j q) := by
  rw [dot_root_eq]
  exact Cert.LibPlainDot.matmul_zero_apply none l r (ix2 p q)

/-! ## Layout operations at an index -/

section Layout
variable {α : Type}

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to a vector [a] reads, at i, the operand at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column [a, 1] broadcast to [a, b] reads, at (i, c), the operand at (i, 0). -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A 3200×256 array viewed 3200×4×64 reads, at (p, k, q), column 64·k + q of row p. -/
theorem blocks_apply (x : S3200x256.Idx → α) (p : Fin 3200) (k : Fin 4) (q : Fin 64) :
    shapeCast S3200x4x64 x shapeCasts_S3200x256_S3200x4x64 (ix3 p k q) = x (ix2 p (Cert.Spec.col k q)) :=
  shapeCast_apply x _ _ _ (by
    rw [Shape.rowMajor_val_two, Shape.rowMajor_val_three]
    show p.val * 256 + (64 * k.val + q.val) = (p.val * 4 + k.val) * 64 + q.val
    omega)

/-- The mixture weights, given a unit last axis and broadcast along it, read at (p, k, q) the weight (p, k). -/
theorem gate_apply (w : S3200x4.Idx → α) (p : Fin 3200) (k : Fin 4) (q : Fin 64) :
    broadcastTo S3200x4x64 (shapeCast S3200x4x1 (shapeCast S3200x4 w shapeCasts_S3200x4_S3200x4) shapeCasts_S3200x4_S3200x4x1)
      broadcasts_S3200x4x1_S3200x4x64 (ix3 p k q) = w (ix2 p k) := by
  refine (broadcastTo_apply _ _ (ix3 p k q) (ix3 p k (0 : Fin 1)) fun a => ?_).trans ?_
  · match a with
    | ⟨0, _⟩ => rfl
    | ⟨1, _⟩ => rfl
    | ⟨2, _⟩ => rfl
  · refine (shapeCast_apply _ _ (ix3 p k (0 : Fin 1)) (ix2 p k) ?_).trans ?_
    · rw [Shape.rowMajor_val_two, Shape.rowMajor_val_three]
      show p.val * 4 + k.val = (p.val * 4 + k.val) * 1 + 0
      omega
    · rw [shapeCast_self]

end Layout

/-! ## The message body -/

/-- The lane sum over the middle axis, at (p, q): the four blocks added. -/
theorem lane_sum (src : FVec Ideal S3200x4x64 .f32) (p : Fin 3200) (q : Fin 64) :
    multiReduction (F := Ideal) .add [1] S3200x64 src 0x00000000#32 reduces_S3200x4x64_S3200x64 (.inl rfl) rfl (ix2 p q)
      = ∑ k : Fin 4, src (ix3 p k q) := by
  refine (Ideal.multiReduction_add_single src 0x00000000#32 reduces_S3200x4x64_S3200x64 (.inl rfl) rfl (ix2 p q)).trans ?_
  refine Finset.sum_congr rfl fun k _ => congrArg src ?_
  funext a
  match a with
  | ⟨0, _⟩ => rfl
  | ⟨1, _⟩ => rfl
  | ⟨2, _⟩ => rfl

theorem msg_pay (v0 : Vec Ideal S3200x64 .f32) (v3 : Vec Ideal S64x256 .f32) (v7 : Vec Ideal S3200x4 .f32) (p : Fin 3200) (q : Fin 64) :
    k0_pay1 (F := Ideal) v0 v3 v7 (ix2 p q) = Cert.Spec.msgAt v0 v7 v3 p q := by
  unfold k0_pay1 Cert.Spec.msgAt
  refine (lane_sum _ p q).trans (Finset.sum_congr rfl fun k _ => ?_)
  refine (mulf_apply _ _ _).trans ?_
  refine congrArg₂ (· * ·) (gate_apply v7 p k q) ?_
  refine (blocks_apply _ p k q).trans ?_
  refine (msg_dot_apply _ _ p (Cert.Spec.col k q)).trans ?_
  rw [shapeCast_self]
  rfl

/-! ## The scatter body: the start of the accumulator -/

theorem zero_pay (p : Fin 5000) (q : Fin 64) : k1_pay1 (F := Ideal) (ix2 p q) = 0 := by
  unfold k1_pay1
  rw [shapeCast_self]
  exact Ideal.ofBits_zero_f32

/-! ## The scatter body: one step of the gathering -/

/-- The block's base plus the row's offset, as 32-bit words, is the word of the node number. -/
theorem node_word (c n : ℕ) : BitVec.ofNat 32 c * 5000#32 + BitVec.ofNat 32 n = BitVec.ofNat 32 (c * 5000 + n) := by
  rw [BitVec.ofNat_add, BitVec.ofNat_mul]

/-- The node-number operand of the comparison, at (p, e): the base word plus the word of p. -/
theorem node_operand_apply (c : BitVec 32) (p : Fin 5000) (e : Fin 3200) :
    broadcastTo S5000x3200
        (shapeCast S5000x1
          (addi (broadcast S5000 c) (shapeCast S5000 (iota .tc S1x5000 32 [1] iota_S1x5000_d1_w32) shapeCasts_S1x5000_S5000))
          shapeCasts_S5000_S5000x1)
        broadcasts_S5000x1_S5000x3200 (ix2 p e)
      = c + BitVec.ofNat 32 p.val := by
  refine (broadcastTo_a1_ab_apply _ _ p e).trans ?_
  refine (shapeCast_a_a1_apply _ _ p 0).trans ?_
  refine congrArg (c + ·) ?_
  refine (shapeCast_1a_a_apply _ _ p).trans ?_
  exact iota_single_apply .tc S1x5000 32 1 iota_S1x5000_d1_w32 (ix2 (0 : Fin 1) p)

/-- The destination operand of the comparison, at (p, e): edge e's destination word. -/
theorem dst_operand_apply (d : S3200x1.Idx → BitVec 32) (p : Fin 5000) (e : Fin 3200) :
    broadcastTo S5000x3200
        (shapeCast S1x3200 (shapeCast S3200 (shapeCast S3200x1 d shapeCasts_S3200x1_S3200x1) shapeCasts_S3200x1_S3200)
          shapeCasts_S3200_S1x3200)
        broadcasts_S1x3200_S5000x3200 (ix2 p e)
      = d (ix2 e (0 : Fin 1)) := by
  refine (broadcastTo_1b_ab_apply _ _ p e).trans ?_
  refine (shapeCast_a_1a_apply _ _ 0 e).trans ?_
  refine (shapeCast_a1_a_apply _ _ e).trans ?_
  rw [shapeCast_self]

/-- The comparison bit, widened and converted: one where the words agree, zero elsewhere. -/
theorem indicator_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · have e : IntOp.cmpi .eq a b = 1#1 := by unfold IntOp.cmpi; simp [h]
    have t : ((1#1 : BitVec 1).setWidth 32).toInt = 1 := by decide
    rw [if_pos h, e, t]
    simp
  · have e : IntOp.cmpi .eq a b = 0#1 := by
      show BitVec.ofBool (a == b) = 0#1
      rw [beq_eq_false_iff_ne.mpr h]
      rfl
    have t : ((0#1 : BitVec 1).setWidth 32).toInt = 0 := by decide
    rw [if_neg h, e, t]
    simp

theorem acc_pay (i : grid1.Coords) (v9 : Vec Ideal S3200x1 .i32) (v19 : Vec Ideal S5000x64 .f32) (v20 : Vec Ideal S3200x64 .f32) (p : Fin 5000) (q : Fin 64) :
    k1_pay2 (F := Ideal) i v9 v19 v20 (ix2 p q) = v19 (ix2 p q) + Cert.Spec.aggAt v9 v20 ((i 0).val * 5000 + p.val) q := by
  unfold k1_pay2 Cert.Spec.aggAt
  refine (congrFun (shapeCast_self _ _) (ix2 p q)).trans ?_
  refine (addf_apply _ _ _).trans (congrArg (v19 (ix2 p q) + ·) ?_)
  refine (agg_dot_apply _ _ p q).trans (Finset.sum_congr rfl fun e _ => ?_)
  refine congrArg₂ (· * ·) ?_ ?_
  · refine (congrArg₂ (fun a b : BitVec 32 => (FloatOps.sitofp (F := Ideal) .f32 ((IntOp.cmpi .eq a b).setWidth 32) : EReal))
      (node_operand_apply _ p e) (dst_operand_apply v9 p e)).trans ?_
    refine (indicator_word _ _).trans ?_
    unfold Cert.Spec.hit
    rw [← node_word]
    rfl
  · rw [shapeCast_self]
    rfl

/-! ## The scatter body: the last step -/

theorem fin_pay (v31 : Vec Ideal S5000x64 .f32) (v32 : Vec Ideal S5000x1 .f32) (v36 : Vec Ideal S5000x64 .f32) (v37 : Vec Ideal S64x64 .f32) (v40 : Vec Ideal S64 .f32) (v44 : Vec Ideal S5000x64 .f32) (p : Fin 5000) (q : Fin 64) :
    k1_pay3 (F := Ideal) v31 v32 v36 v37 v40 v44 (ix2 p q) = v44 (ix2 p q) + max ((v31 (ix2 p q) * v32 (ix2 p 0) + ∑ j : Fin 64, v36 (ix2 p j) * v37 (ix2 j q)) + v40 (ix1 q)) 0 := by
  have hcol : broadcastTo S5000x64 (shapeCast S5000x1 v32 shapeCasts_S5000x1_S5000x1) broadcasts_S5000x1_S5000x64 (ix2 p q)
      = v32 (ix2 p 0) := by
    refine (broadcastTo_a1_ab_apply _ _ p q).trans ?_
    rw [shapeCast_self]
  have hrow : broadcastTo S5000x64 (shapeCast S1x64 v40 shapeCasts_S64_S1x64) broadcasts_S1x64_S5000x64 (ix2 p q)
      = v40 (ix1 q) :=
    (broadcastTo_1b_ab_apply _ _ p q).trans (shapeCast_a_1a_apply v40 _ 0 q)
  unfold k1_pay3
  refine (addf_apply _ _ _).trans (congrArg (v44 (ix2 p q) + ·) ?_)
  refine (maximumf_apply _ _ _).trans (congrArg₂ max ?_ Ideal.ofBits_zero_f32)
  refine (addf_apply _ _ _).trans (congrArg₂ (· + ·) ?_ hrow)
  refine (addf_apply _ _ _).trans (congrArg₂ (· + ·) ?_ (root_dot_apply v36 v37 p q))
  exact (mulf_apply _ _ _).trans (congrArg (v31 (ix2 p q) * ·) hcol)

end Cert.KernelIdeal.Pay

end
-- ==== Proof.KIMsgValue.lean ====
/-
  The message table as one function of the tables the region reads, over the extended reals.

  The region walks 500 points. Point t takes rows 3200·t … 3200·t + 3199 of the table of gathered source rows and of the
  table of mixture weights, and the whole 64 by 256 weight matrix, and writes back rows 3200·t … 3200·t + 3199 of the
  message table. Row p of a point's blocks is row 3200·t + p of the tables; the body's result at (p, q) is that edge's
  message at feature q; so what point t writes is its block of the function  i ↦ msg(i 0, i 1)  of the three tables.
  Row r of the table lies in the block of point r / 3200 and every point writes its block, so the blocks cover the
  table and the table ends holding that function.
-/
import proofs.«400719_j31138512896561_3_alg».proof.Proof.KIReg0
import proofs.«400719_j31138512896561_3_alg».proof.Proof.KIPayloads
import proofs.«400719_j31138512896561_3_alg».proof.Proof.Spec
import Idealize.ShloMosaic.Lib.Pipeline.Value
import Idealize.ShloMosaic.Lib.ValueIdx

set_option maxRecDepth 16384

noncomputable section

open Cert.KernelIdeal Cert.KernelIdeal.Gen Cert.KernelIdeal.Frame Idealize.ShloMosaic Idealize.ShloMosaic.TcCoe Idealize.ShloMosaic.ValueIdx

namespace Cert.KernelIdeal.MsgValue

section Blocks
variable (V : (c : Dev nD) → (b : Ref sig .tc) → Buf (Elt Ideal) ((c : Thread nD τ).loc b))

/-! ## The block indices over the grid -/

theorem zero_offsets : (![0, 0] : Fin 2 → Nat) = fun _ => 0 := funext fun a => by fin_cases a <;> rfl

/-- At point t the source rows, the weights and the messages are at block (t, 0); the matrix stays at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 500 := lt_of_lt_of_eq t.isLt N_0

/-! ## The input blocks, entry by entry -/

/-- Row p of the point's block of source rows is row 3200·t + p of the table of gathered rows. -/
theorem rows_entry (c : Dev nD) (t : Fin cfg0.N) (p : Fin 3200) (j : Fin 64) (r : Fin 1600000) (hr : r.val = 3200 * t.val + p.val) :
    (iblk0 V c 0 t : Vec Ideal S3200x64 .f32) (ix2 p j) = (V c main_v47 : S1600000x64.Idx → EReal) (ix2 r j) := by
  obtain ⟨e0, e1, -⟩ := block_indices t
  show V c main_v47 (((cfg0.win 0).blk t).view.emb (ix2 p j)) = V c main_v47 (ix2 r j)
  refine congrArg _ ?_
  funext a
  apply Fin.ext
  match a with
  | ⟨0, _⟩ => show win0_0.index t (0 : Fin 2) * 3200 + 1 * p.val = r.val; omega
  | ⟨1, _⟩ => show win0_0.index t (1 : Fin 2) * 64 + 1 * j.val = j.val; omega

/-- Row p of the point's block of mixture weights is row 3200·t + p of the table of weights. -/
theorem weights_entry (c : Dev nD) (t : Fin cfg0.N) (p : Fin 3200) (k : Fin 4) (r : Fin 1600000) (hr : r.val = 3200 * t.val + p.val) :
    (iblk0 V c 1 t : Vec Ideal S3200x4 .f32) (ix2 p k) = (V c main_v46 : S1600000x4.Idx → EReal) (ix2 r k) := by
  obtain ⟨-, -, e0, e1, -⟩ := block_indices t
  show V c main_v46 (((cfg0.win 1).blk t).view.emb (ix2 p k)) = V c main_v46 (ix2 r k)
  refine congrArg _ ?_
  funext a
  apply Fin.ext
  match a with
  | ⟨0, _⟩ => show win0_1.index t (0 : Fin 2) * 3200 + 1 * p.val = r.val; omega
  | ⟨1, _⟩ => show win0_1.index t (1 : Fin 2) * 4 + 1 * k.val = k.val; omega

/-- The matrix's block is the whole matrix at every point. -/
theorem matrix_entry (c : Dev nD) (t : Fin cfg0.N) (j : Fin 64) (l : Fin 256) :
    (iblk0 V c 2 t : Vec Ideal S64x256 .f32) (ix2 j l) = (V c main_arg2 : S64x256.Idx → EReal) (ix2 j l) := by
  obtain ⟨-, -, -, -, e0, e1, -⟩ := block_indices t
  show V c main_arg2 (((cfg0.win 2).blk t).view.emb (ix2 j l)) = V c main_arg2 (ix2 j l)
  refine congrArg _ ?_
  funext a
  apply Fin.ext
  match a with
  | ⟨0, _⟩ => show win0_2.index t (0 : Fin 2) * 64 + 1 * j.val = j.val; omega
  | ⟨1, _⟩ => show win0_2.index t (1 : Fin 2) * 256 + 1 * l.val = l.val; omega

/-! ## One entry of what a point writes -/

/-- The body's payload at (p, q), over blocks whose row p is row r of the tables and whose matrix is the whole matrix,
    is edge r's message at feature q. -/
theorem pay_entry (xs : S1600000x64.Idx → EReal) (gw : S1600000x4.Idx → EReal) (g : S64x256.Idx → EReal)
    (x0 : Vec Ideal S3200x64 .f32) (x1 : Vec Ideal S3200x4 .f32) (x2 : Vec Ideal S64x256 .f32)
    (p : Fin 3200) (q : Fin 64) (r : Fin 1600000)
    (h0 : ∀ j : Fin 64, x0 (ix2 p j) = xs (ix2 r j))
    (h1 : ∀ k : Fin 4, x1 (ix2 p k) = gw (ix2 r k))
    (h2 : ∀ (j : Fin 64) (l : Fin 256), x2 (ix2 j l) = g (ix2 j l)) :
    k0_pay1 (F := Ideal) x0 x2 x1 (ix2 p q) = Cert.Spec.msgAt xs gw g r q := by
  rw [Cert.KernelIdeal.Pay.msg_pay]
  unfold Cert.Spec.msgAt
  refine Finset.sum_congr rfl fun k _ => ?_
  rw [h1 k]
  refine congrArg _ (Finset.sum_congr rfl fun j _ => ?_)
  rw [h0 j, h2]

/-! ## What a point writes back is its block of the message table -/

theorem flushed_eq (c : Dev nD) (t : Fin cfg0.N) :
    (dat0 (F := Ideal) V c).flushed 3 t
      = ((cfg0.win 3).blk t).view.read (Elt Ideal) (Cert.Spec.msgArr (V c main_v47) (V c main_v46) (V c main_arg2)) := by
  show (cfg0.win 3).cut (grid0.coords t) ((dat0 (F := Ideal) V c).after 3 t) = _
  rw [after0_3]
  unfold out0_3
  rw [View.canon_unit_zero zero_offsets]
  simp only [View.ld_unit_zero (S := S3200x64) zero_offsets, View.ld_unit_zero (S := S64x256) zero_offsets,
    View.ld_unit_zero (S := S3200x4) zero_offsets]
  funext y
  obtain ⟨p, q, rfl⟩ : ∃ (p : Fin 3200) (q : Fin 64), y = ix2 p q := ⟨y 0, y 1, eq_ix2 y⟩
  obtain ⟨-, -, -, -, -, -, e0, e1⟩ := block_indices t
  have ht : t.val < 500 := point_lt t
  have hr : 3200 * t.val + p.val < 1600000 := by omega
  have hemb : ((cfg0.win 3).blk t).view.emb (ix2 p q) = (ix2 (⟨3200 * t.val + p.val, hr⟩ : Fin 1600000) q : S1600000x64.Idx) := by
    funext a
    apply Fin.ext
    match a with
    | ⟨0, _⟩ => show win0_3.index t (0 : Fin 2) * 3200 + 1 * p.val = 3200 * t.val + p.val; omega
    | ⟨1, _⟩ => show win0_3.index t (1 : Fin 2) * 64 + 1 * q.val = q.val; omega
  show k0_pay1 (F := Ideal) (iblk0 V c 0 t) (iblk0 V c 2 t) (iblk0 V c 1 t) (ix2 p q)
    = Cert.Spec.msgArr (V c main_v47) (V c main_v46) (V c main_arg2) (((cfg0.win 3).blk t).view.emb (ix2 p q))
  refine Eq.trans ?_ (congrArg (Cert.Spec.msgArr (V c main_v47) (V c main_v46) (V c main_arg2)) hemb).symm
  exact pay_entry (V c main_v47) (V c main_v46) (V c main_arg2) _ _ _ p q ⟨3200 * t.val + p.val, hr⟩
    (fun j => rows_entry V c t p j _ rfl) (fun k => weights_entry V c t p k _ rfl) (fun j l => matrix_entry V c t j l)

/-! ## The blocks cover the table -/

/-- An index of the table is in point t's block iff each coordinate is in the block's range on its axis. -/
theorem mem_block (t : Fin cfg0.N) (i : S1600000x64.Idx) :
    i ∈ ((cfg0.win 3).blk t).view.set
      ↔ ∀ a : Fin 2, win0_3.index t a * S3200x64.size a ≤ (i a).val ∧ (i a).val < win0_3.index t a * S3200x64.size a + S3200x64.size a := by
  show i ∈ ((View.whole main_v48).slice (win0_3.rect t)).set ↔ _
  rw [View.set_slice_whole, Rect.mem_set_unit]
  exact Iff.rfl

/-- Row r of the table is in the block of point r / 3200, and every point writes its block back. -/
theorem cover (i : S1600000x64.Idx) :
    ∃ t : Fin cfg0.N, (cfg0.win 3).flush t = true ∧ i ∈ ((cfg0.win 3).blk t).view.set := by
  have hi0 : (i 0).val < 1600000 := idx2_lt0 i
  have hi1 : (i 1).val < 64 := idx2_lt1 i
  obtain ⟨t, ht⟩ : ∃ t : Fin cfg0.N, t.val = (i 0).val / 3200 :=
    ⟨⟨(i 0).val / 3200, by rw [show cfg0.N = 500 from N_0]; omega⟩, rfl⟩
  obtain ⟨-, -, -, -, -, -, e0, e1⟩ := block_indices t
  refine ⟨t, flush0_3 t, ?_⟩
  rw [mem_block]
  intro a
  match a with
  | ⟨0, _⟩ =>
    show win0_3.index t (0 : Fin 2) * 3200 ≤ (i 0).val ∧ (i 0).val < win0_3.index t (0 : Fin 2) * 3200 + 3200
    omega
  | ⟨1, _⟩ =>
    show win0_3.index t (1 : Fin 2) * 64 ≤ (i 1).val ∧ (i 1).val < win0_3.index t (1 : Fin 2) * 64 + 64
    omega

end Blocks

/-! ## The message table after the region -/

theorem msg_array (V : (c : Dev nD) → (b : Ref sig .tc) → Buf (Elt Ideal) ((c : Thread nD τ).loc b)) (c : Dev nD) :
    (Cert.KernelIdeal.Frame.dat0 (F := Ideal) V c).arrAt 3 cfg0.N = Cert.Spec.msgArr (V c main_v47) (V c main_v46) (V c main_arg2) :=
  (dat0 (F := Ideal) V c).arrAt_eq_of_cover 3 (Cert.Spec.msgArr (V c main_v47) (V c main_v46) (V c main_arg2))
    (fun t _ => flushed_eq V c t) cover

end Cert.KernelIdeal.MsgValue

end
-- ==== Proof.KIReg1Read.lean ====
import proofs.«400719_j31138512896561_3_alg».proof.Proof.Gen.KernelIdeal.Launch
import proofs.«400719_j31138512896561_3_alg».proof.Proof.Gen.KernelIdeal.Skeleton
import proofs.«400719_j31138512896561_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«400719_j31138512896561_3_alg».proof.Proof.KIReg1

/-!
# Region 1 (`cc1__scatter_kernel`): the read-back equations

What the pieces the three runs found ARE, as the skeleton's payloads of the blocks, and from them the three
equations of `outsAt1` along the grid: the accumulator at the first point of a row, at every other point, and the
output block at the last point of a row.
-/

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the found pieces are, as payloads

Every load and store of the body goes through the whole-buffer rectangle at zero offsets, so a load reads the
buffer's contents and the last store's payload is what the buffer holds. Read back, each case's pieces are the
skeleton's payloads of the blocks. -/

theorem zeros2 : (![0, 0] : Fin 2 → Nat) = fun _ => 0 := funext fun a => by fin_cases a <;> rfl
theorem zeros1 : (![0] : Fin 1 → Nat) = fun _ => 0 := funext fun a => by fin_cases a <;> rfl

/-- Case A leaves in the accumulator the update of the ZERO block by the point's edge block: the reset's store is
    read back by the update's load. -/
theorem sout1_A_0_eq (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : cond1_0 i) (hc1 : ¬cond1_1 i)
    (x0 : Vec F S3200x1 .i32) (x1 : Vec F S3200x64 .f32) :
    sout1_A_0 c i arg2 harg2 arg3 harg3 arg4 harg4 arg5 harg5 arg6 harg6 arg7 harg7 arg8 harg8 arg9 harg9 hc0 hc1 x0 x1 = k1_pay2 i x0 (k1_pay1 (F := F)) x1 := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1)]
  unfold kernelRun1_A
  dsimp only
  sl_unfold_words
  rw [View.canon_cons_unit_zero (S := S5000x64) zeros2, View.readCov_unit_zero (S := S5000x64) _ zeros2]
  simp only [View.readAt_eq_ld, harg2.read_unread, harg3.read_unread, View.ld_unit_zero (S := S3200x1) zeros2, View.ld_unit_zero (S := S3200x64) zeros2]

/-- Case B leaves in the accumulator the update of what it held by the point's edge block. -/
theorem sout1_B_0_eq (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : ¬cond1_1 i)
    (x0 : Vec F S3200x1 .i32) (x1 : Vec F S3200x64 .f32) (xs0 : Vec F S5000x64 .f32) :
    sout1_B_0 c i arg2 harg2 arg3 harg3 arg4 harg4 arg5 harg5 arg6 harg6 arg7 harg7 arg8 harg8 arg9 harg9 hc0 hc1 x0 x1 xs0 = k1_pay2 i x0 xs0 x1 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 xs0)]
  unfold kernelRun1_B
  dsimp only
  sl_unfold_words
  rw [View.canon_unit_zero (S := S5000x64) zeros2]
  simp only [View.readAt_eq_ld, harg2.read_unread, harg3.read_unread, harg9.read_unread, View.ld_unit_zero (S := S3200x1) zeros2, View.ld_unit_zero (S := S3200x64) zeros2, View.ld_unit_zero (S := S5000x64) zeros2]

/-- Case C leaves the same in the accumulator, -/
theorem sout1_C_0_eq (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : cond1_1 i)
    (x0 : Vec F S3200x1 .i32) (x1 : Vec F S3200x64 .f32) (x2 : Vec F S5000x64 .f32) (x3 : Vec F S5000x1 .f32) (x4 : Vec F S64x64 .f32) (x5 : Vec F S64 .f32) (xs0 : Vec F S5000x64 .f32) :
    sout1_C_0 c i arg2 harg2 arg3 harg3 arg4 harg4 arg5 harg5 arg6 harg6 arg7 harg7 arg8 harg8 arg9 harg9 hc0 hc1 x0 x1 x2 x3 x4 x5 xs0 = k1_pay2 i x0 xs0 x1 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero (S := S5000x64) zeros2]
  simp only [View.readAt_eq_ld, harg2.read_unread, harg3.read_unread, harg9.read_unread, View.ld_unit_zero (S := S3200x1) zeros2, View.ld_unit_zero (S := S3200x64) zeros2, View.ld_unit_zero (S := S5000x64) zeros2]

/-- and in the output block the final payload of the UPDATED accumulator (the final store's first load reads back
    the update's store) and the node blocks. -/
theorem out1_C_6_eq (c : Dev nD) (i : grid1.Coords) (arg2 : Memref sig .tc .vmem S3200x1 .i32) (harg2 : arg2.IsWhole) (arg3 : Memref sig .tc .vmem S3200x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (hc0 : ¬cond1_0 i) (hc1 : cond1_1 i)
    (x0 : Vec F S3200x1 .i32) (x1 : Vec F S3200x64 .f32) (x2 : Vec F S5000x64 .f32) (x3 : Vec F S5000x1 .f32) (x4 : Vec F S64x64 .f32) (x5 : Vec F S64 .f32) (xs0 : Vec F S5000x64 .f32) :
    out1_C_6 c i arg2 harg2 arg3 harg3 arg4 harg4 arg5 harg5 arg6 harg6 arg7 harg7 arg8 harg8 arg9 harg9 hc0 hc1 x0 x1 x2 x3 x4 x5 xs0 = k1_pay3 (k1_pay2 i x0 xs0 x1) x3 x2 x4 x5 x2 := by
  unfold out1_C_6
  rw [View.read_writes_eq_canon _ _ _ (cover1_C_6 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero (S := S5000x64) zeros2]
  simp only [View.readAt_eq_ld, View.readCov_unit_zero (S := S5000x64) _ zeros2, harg2.read_unread, harg3.read_unread, harg4.read_unread, harg5.read_unread, harg6.read_unread, harg7.read_unread, harg9.read_unread, View.ld_unit_zero (S := S3200x1) zeros2, View.ld_unit_zero (S := S3200x64) zeros2, View.ld_unit_zero (S := S5000x64) zeros2, View.ld_unit_zero (S := S5000x1) zeros2, View.ld_unit_zero (S := S64x64) zeros2, View.ld_unit_zero (S := S64) zeros1]

/-- At the first point of a row of the grid (`j = 0`) the accumulator ends at the update of the zero block. -/
theorem scratch_first (c : Dev nD) (t : Fin cfg1.N) (h : t.val % 500 = 0) :
    (outsAt1 V c t.val t.isLt).2 = k1_pay2 (grid1.coords t) (iblk1 V c 0 t) (k1_pay1 (F := F)) (iblk1 V c 1 t) := by
  rw [outsAt1_A V c t h (by omega)]
  dsimp only
  exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h) (fun h' => (by omega : ¬t.val % 500 = 499) ((hcond1_1 t).mp h')) (iblk1 V c 0 t) (iblk1 V c 1 t)

/-- At every other point it ends at the update of what the point before left. -/
theorem scratch_next (c : Dev nD) (t : Fin cfg1.N) (h : ¬ t.val % 500 = 0) :
    (outsAt1 V c t.val t.isLt).2 = k1_pay2 (grid1.coords t) (iblk1 V c 0 t) (outsAt1 V c (t.val - 1) (Nat.lt_of_le_of_lt (Nat.sub_le _ _) t.isLt)).2 (iblk1 V c 1 t) := by
  by_cases h1 : t.val % 500 = 499
  · rw [outsAt1_C V c t h h1]
    dsimp only
    exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h' => h ((hcond1_0 t).mp h')) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2
  · rw [outsAt1_B V c t h h1]
    dsimp only
    exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h' => h ((hcond1_0 t).mp h')) (fun h' => h1 ((hcond1_1 t).mp h')) (iblk1 V c 0 t) (iblk1 V c 1 t) (outsAt1 V c (t.val - 1) (Nat.lt_of_le_of_lt (Nat.sub_le _ _) t.isLt)).2

/-- At the last point of a row (`j = 499`) the output block is the final payload of the accumulator as that point
    leaves it and of the row's node blocks. -/
theorem out_last (c : Dev nD) (t : Fin cfg1.N) (h : t.val % 500 = 499) :
    (outsAt1 V c t.val t.isLt).1 = k1_pay3 (outsAt1 V c t.val t.isLt).2 (iblk1 V c 3 t) (iblk1 V c 2 t) (iblk1 V c 4 t) (iblk1 V c 5 t) (iblk1 V c 2 t) := by
  have h0 : ¬t.val % 500 = 0 := by omega
  rw [outsAt1_C V c t h0 h]
  dsimp only
  exact (out1_C_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h' => h0 ((hcond1_0 t).mp h')) ((hcond1_1 t).mpr h) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).trans
    (congrArg (fun s : Vec F S5000x64 .f32 => k1_pay3 s (iblk1 V c 3 t) (iblk1 V c 2 t) (iblk1 V c 4 t) (iblk1 V c 5 t) (iblk1 V c 2 t))
      (sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h' => h0 ((hcond1_0 t).mp h')) ((hcond1_1 t).mpr h) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).symm)

end Cert.KernelIdeal.Frame

end
-- ==== Proof.LibBlockSum.lean ====
/-
  A sum over J·B consecutive terms, taken block by block.

  Cut the positions 0 … J·B − 1 into J consecutive blocks of B positions each, block s holding the positions
  B·s … B·s + B − 1. Adding each block first and then the J block sums gives the sum over all positions:
      Σ_{s < J} Σ_{e' < B} h(B·s + e') = Σ_{e < J·B} h(e).
  Only commutativity and associativity of the addition are used, so the terms may live in any additive commutative
  monoid (the extended reals among them). Nothing here depends on a program: the two extents are variables.
-/
import Mathlib.Algebra.BigOperators.Fin

open scoped BigOperators

namespace Cert.LibBlockSum

variable {M : Type*} [AddCommMonoid M]

/-- Over the naturals: the J block sums of B consecutive terms add up to the sum of the first J·B terms. -/
theorem sum_range_blocks (h : ℕ → M) (J B : ℕ) :
    ∑ s ∈ Finset.range J, ∑ e' ∈ Finset.range B, h (B * s + e') = ∑ e ∈ Finset.range (J * B), h e := by
  induction J with
  | zero => rw [Finset.sum_range_zero, Nat.zero_mul, Finset.sum_range_zero]
  | succ J ih =>
    rw [Finset.sum_range_succ, ih, Nat.add_mul, Nat.one_mul, Finset.sum_range_add, Nat.mul_comm B J]

/-- Position e' of block s is a position of the whole: B·s + e' < J·B when s < J and e' < B. -/
theorem block_pos_lt {J B s e' : ℕ} (hs : s < J) (he : e' < B) : B * s + e' < J * B :=
  calc B * s + e' < B * s + B := Nat.add_lt_add_left he _
    _ = B * (s + 1) := (Nat.mul_succ B s).symm
    _ ≤ B * J := Nat.mul_le_mul_left B hs
    _ = J * B := Nat.mul_comm B J

/-- A function on E positions continued by zero to every natural, so that its sum is a sum over a range. -/
def extend {E : ℕ} (g : Fin E → M) (n : ℕ) : M := if hn : n < E then g ⟨n, hn⟩ else 0

theorem extend_of_lt {E : ℕ} (g : Fin E → M) {n : ℕ} (hn : n < E) : extend g n = g ⟨n, hn⟩ := dif_pos hn

theorem sum_extend {E : ℕ} (g : Fin E → M) : ∑ e ∈ Finset.range E, extend g e = ∑ e : Fin E, g e := by
  rw [← Fin.sum_univ_eq_sum_range]
  exact Finset.sum_congr rfl fun e _ => extend_of_lt g e.isLt

/-- Over a finite index type of E = J·B positions, the blocks given as their own functions: when entry e' of block
    s (for s < J) is term B·s + e' of g, the J block sums add up to the sum of g. -/
theorem sum_fin_blocks {J B E : ℕ} (hE : J * B = E) (g : Fin E → M) (b : ℕ → Fin B → M)
    (hb : ∀ (s : ℕ) (e' : Fin B) (hse : B * s + e'.val < E), s < J → b s e' = g ⟨B * s + e'.val, hse⟩) :
    ∑ s ∈ Finset.range J, ∑ e' : Fin B, b s e' = ∑ e : Fin E, g e := by
  subst hE
  rw [← sum_extend g, ← sum_range_blocks (extend g) J B]
  refine Finset.sum_congr rfl fun s hs => ?_
  have hs' : s < J := Finset.mem_range.mp hs
  rw [← Fin.sum_univ_eq_sum_range (fun e' => extend g (B * s + e')) B]
  refine Finset.sum_congr rfl fun e' _ => ?_
  have hlt : B * s + e'.val < J * B := block_pos_lt hs' e'.isLt
  rw [hb s e' hlt hs']
  exact (extend_of_lt g hlt).symm

end Cert.LibBlockSum
-- ==== Proof.KIOutValue.lean ====
/-
  The gathering kernel's result array as one function of the arrays it reads, over the extended reals.

  The kernel runs on a grid of 20 × 500 points, point t = 500·i + j. Row block i of the 100000 nodes (5000 rows) is
  worked on by the 500 consecutive points of run i; point j of the run brings block j of the 1600000 edges (3200 rows of
  destination words and of messages). An accumulator of 5000 × 64 sums is carried through the run: it starts at zero, and
  each point adds, at (p, q), the sum over its 3200 edges of [the edge points at node 5000·i + p] · message(edge, q). After
  the last point of the run the accumulator therefore holds, at (p, q), the sum over ALL edges (a sum of 500 · 3200 terms
  taken block by block), which is what node 5000·i + p gathers; the last point then scales by the reciprocal degree, adds the node's row
  through the root matrix and the bias, clips below at zero, adds the row back, and the block is written back to rows
  5000·i … 5000·i + 4999 of the result. The 20 blocks written back cover the result, so the result is the layer's
  out(n, q) at every (n, q).

  The steps: the grid's coordinates and every window's block index at point t in closed form; each block's entry as the
  array's entry (block index × block size + inner coordinate); the accumulator as the fold of its run, unrolled at an
  index to a sum over the run's points; that sum re-indexed to the sum over all edges; the block written back at the
  last point of a run, entry by entry; the cover.
-/
import proofs.«400719_j31138512896561_3_alg».proof.Proof.KIReg1
import proofs.«400719_j31138512896561_3_alg».proof.Proof.KIReg1Read
import proofs.«400719_j31138512896561_3_alg».proof.Proof.KIPayloads
import proofs.«400719_j31138512896561_3_alg».proof.Proof.Spec
import proofs.«400719_j31138512896561_3_alg».proof.Proof.LibBlockSum
import Idealize.ShloMosaic.Lib.Pipeline.Value
import Idealize.ShloMosaic.Lib.ValueIdx

set_option maxRecDepth 16384

noncomputable section

open scoped BigOperators

namespace Cert.KernelIdeal.OutValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frame

variable (V : (c : Dev nD) → (b : Ref sig .tc) → Buf (Elt Ideal) ((c : Thread nD τ).loc b))

/-! ## The grid: point t = 500·i + j has coordinates (t / 500, t mod 500) -/

/-- Consecutive points share the first coordinate 500 at a time, -/
theorem stride0 : grid1.stride 0 = 500 := by decide
/-- and the second coordinate changes at every point. -/
theorem stride1 : grid1.stride 1 = 1 := by decide

/-- The grid has 20 · 500 points. -/
theorem lt_N (t : Fin cfg1.N) : t.val < 10000 := lt_of_lt_of_eq t.isLt (show cfg1.N = 10000 from N_1)

/-- The coordinates of point t. -/
theorem coords_facts (t : Fin cfg1.N) : ((grid1.coords t) 0).val = t.val / 500 ∧ ((grid1.coords t) 1).val = t.val % 500 := by
  have hN := lt_N t
  constructor
  · show t.val / grid1.stride 0 % 20 = _
    rw [stride0]; omega
  · show t.val / grid1.stride 1 % 500 = _
    rw [stride1]; omega

/-- A small number survives the passage through a 32-bit word. -/
theorem word_toNat (n : ℕ) (h : n < 4294967296) : (BitVec.ofNat 32 n).toNat = n := by
  rw [BitVec.toNat_ofNat]; exact Nat.mod_eq_of_lt h

/-- The block index of every window at point t: the edge windows move with t mod 500, the node windows and the
    result with t / 500, the root matrix and the bias stay. -/
theorem idx_facts (t : Fin cfg1.N) :
    win1_0.index t (0 : Fin 2) = t.val % 500 ∧ win1_0.index t (1 : Fin 2) = 0
    ∧ win1_1.index t (0 : Fin 2) = t.val % 500 ∧ win1_1.index t (1 : Fin 2) = 0
    ∧ win1_2.index t (0 : Fin 2) = t.val / 500 ∧ win1_2.index t (1 : Fin 2) = 0
    ∧ win1_3.index t (0 : Fin 2) = t.val / 500 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val / 500 ∧ win1_6.index t (1 : Fin 2) = 0 := by
  have hN := lt_N t
  obtain ⟨c0, c1⟩ := coords_facts t
  have w0 : (BitVec.ofNat 32 ((grid1.coords t) 0).val).toNat = t.val / 500 := by rw [word_toNat _ (by omega), c0]
  have w1 : (BitVec.ofNat 32 ((grid1.coords t) 1).val).toNat = t.val % 500 := by rw [word_toNat _ (by omega), c1]
  exact ⟨w1, rfl, w1, rfl, w0, rfl, w0, rfl, rfl, rfl, rfl, w0, rfl⟩

/-! ## The blocks and the arrays, at their literal types -/

/-- The point's block of destination words, -/
abbrev dstBlk (c : Dev nD) (t : Fin cfg1.N) : Vec Ideal S3200x1 .i32 := iblk1 V c 0 t
/-- of messages, -/
abbrev msgBlk (c : Dev nD) (t : Fin cfg1.N) : Vec Ideal S3200x64 .f32 := iblk1 V c 1 t
/-- of node rows, -/
abbrev xBlk (c : Dev nD) (t : Fin cfg1.N) : Vec Ideal S5000x64 .f32 := iblk1 V c 2 t
/-- of reciprocal degrees, -/
abbrev degBlk (c : Dev nD) (t : Fin cfg1.N) : Vec Ideal S5000x1 .f32 := iblk1 V c 3 t
/-- the root matrix -/
abbrev rootBlk (c : Dev nD) (t : Fin cfg1.N) : Vec Ideal S64x64 .f32 := iblk1 V c 4 t
/-- and the bias as the point sees them. -/
abbrev biasBlk (c : Dev nD) (t : Fin cfg1.N) : Vec Ideal S64 .f32 := iblk1 V c 5 t

/-- The six arrays the region reads. -/
abbrev dstArr (c : Dev nD) : Vec Ideal S1600000x1 .i32 := V c main_v49
abbrev msgArr (c : Dev nD) : Vec Ideal S1600000x64 .f32 := V c main_v48
abbrev xArr (c : Dev nD) : Vec Ideal S100000x64 .f32 := V c main_arg0
abbrev degArr (c : Dev nD) : Vec Ideal S100000x1 .f32 := V c main_v13
abbrev rootArr (c : Dev nD) : Vec Ideal S64x64 .f32 := V c main_arg5
abbrev biasArr (c : Dev nD) : Vec Ideal S64 .f32 := V c main_arg6

/-! ## From blocks to the arrays: a block's entry is the array's entry at block index × size + inner coordinate -/

/-- Row e' of the point's destination block is row 3200·(t mod 500) + e' of the table. -/
theorem dstBlk_apply (c : Dev nD) (t : Fin cfg1.N) (e' : Fin 3200) (u : Fin 1) (r : Fin 1600000)
    (hr : r.val = 3200 * (t.val % 500) + e'.val) :
    dstBlk V c t (ix2 e' u) = dstArr V c (ix2 r u) := by
  obtain ⟨i0, i1, -⟩ := idx_facts t
  unfold dstBlk dstArr iblk1
  rw [View.read_apply]
  show V c main_v49 (((cfg1.win 0).blk t).view.emb (ix2 e' u)) = V c main_v49 (ix2 r u)
  refine congrArg (V c main_v49) (funext fun a => Fin.ext ?_)
  match a with
  | ⟨0, _⟩ => show win1_0.index t (0 : Fin 2) * 3200 + 1 * e'.val = r.val; rw [i0, hr]; omega
  | ⟨1, _⟩ => show win1_0.index t (1 : Fin 2) * 1 + 1 * u.val = u.val; rw [i1]; omega

/-- Row e' of the point's message block is row 3200·(t mod 500) + e' of the message table. -/
theorem msgBlk_apply (c : Dev nD) (t : Fin cfg1.N) (e' : Fin 3200) (q : Fin 64) (r : Fin 1600000)
    (hr : r.val = 3200 * (t.val % 500) + e'.val) :
    msgBlk V c t (ix2 e' q) = msgArr V c (ix2 r q) := by
  obtain ⟨-, -, i0, i1, -⟩ := idx_facts t
  unfold msgBlk msgArr iblk1
  rw [View.read_apply]
  show V c main_v48 (((cfg1.win 1).blk t).view.emb (ix2 e' q)) = V c main_v48 (ix2 r q)
  refine congrArg (V c main_v48) (funext fun a => Fin.ext ?_)
  match a with
  | ⟨0, _⟩ => show win1_1.index t (0 : Fin 2) * 3200 + 1 * e'.val = r.val; rw [i0, hr]; omega
  | ⟨1, _⟩ => show win1_1.index t (1 : Fin 2) * 64 + 1 * q.val = q.val; rw [i1]; omega

/-- Row p of the point's node block is row 5000·(t / 500) + p of the node table. -/
theorem xBlk_apply (c : Dev nD) (t : Fin cfg1.N) (p : Fin 5000) (q : Fin 64) (r : Fin 100000)
    (hr : r.val = 5000 * (t.val / 500) + p.val) :
    xBlk V c t (ix2 p q) = xArr V c (ix2 r q) := by
  obtain ⟨-, -, -, -, i0, i1, -⟩ := idx_facts t
  unfold xBlk xArr iblk1
  rw [View.read_apply]
  show V c main_arg0 (((cfg1.win 2).blk t).view.emb (ix2 p q)) = V c main_arg0 (ix2 r q)
  refine congrArg (V c main_arg0) (funext fun a => Fin.ext ?_)
  match a with
  | ⟨0, _⟩ => show win1_2.index t (0 : Fin 2) * 5000 + 1 * p.val = r.val; rw [i0, hr]; omega
  | ⟨1, _⟩ => show win1_2.index t (1 : Fin 2) * 64 + 1 * q.val = q.val; rw [i1]; omega

/-- Row p of the point's block of reciprocal degrees is row 5000·(t / 500) + p of that column. -/
theorem degBlk_apply (c : Dev nD) (t : Fin cfg1.N) (p : Fin 5000) (u : Fin 1) (r : Fin 100000)
    (hr : r.val = 5000 * (t.val / 500) + p.val) :
    degBlk V c t (ix2 p u) = degArr V c (ix2 r u) := by
  obtain ⟨-, -, -, -, -, -, i0, i1, -⟩ := idx_facts t
  unfold degBlk degArr iblk1
  rw [View.read_apply]
  show V c main_v13 (((cfg1.win 3).blk t).view.emb (ix2 p u)) = V c main_v13 (ix2 r u)
  refine congrArg (V c main_v13) (funext fun a => Fin.ext ?_)
  match a with
  | ⟨0, _⟩ => show win1_3.index t (0 : Fin 2) * 5000 + 1 * p.val = r.val; rw [i0, hr]; omega
  | ⟨1, _⟩ => show win1_3.index t (1 : Fin 2) * 1 + 1 * u.val = u.val; rw [i1]; omega

/-- The root matrix is one block: every point sees all of it. -/
theorem rootBlk_apply (c : Dev nD) (t : Fin cfg1.N) (j : Fin 64) (q : Fin 64) :
    rootBlk V c t (ix2 j q) = rootArr V c (ix2 j q) := by
  obtain ⟨-, -, -, -, -, -, -, -, i0, i1, -⟩ := idx_facts t
  unfold rootBlk rootArr iblk1
  rw [View.read_apply]
  show V c main_arg5 (((cfg1.win 4).blk t).view.emb (ix2 j q)) = V c main_arg5 (ix2 j q)
  refine congrArg (V c main_arg5) (funext fun a => Fin.ext ?_)
  match a with
  | ⟨0, _⟩ => show win1_4.index t (0 : Fin 2) * 64 + 1 * j.val = j.val; rw [i0]; omega
  | ⟨1, _⟩ => show win1_4.index t (1 : Fin 2) * 64 + 1 * q.val = q.val; rw [i1]; omega

/-- So is the bias. -/
theorem biasBlk_apply (c : Dev nD) (t : Fin cfg1.N) (q : Fin 64) :
    biasBlk V c t (ix1 q) = biasArr V c (ix1 q) := by
  obtain ⟨-, -, -, -, -, -, -, -, -, -, i0, -⟩ := idx_facts t
  unfold biasBlk biasArr iblk1
  rw [View.read_apply]
  show V c main_arg6 (((cfg1.win 5).blk t).view.emb (ix1 q)) = V c main_arg6 (ix1 q)
  refine congrArg (V c main_arg6) (funext fun a => Fin.ext ?_)
  match a with
  | ⟨0, _⟩ => show win1_5.index t (0 : Fin 1) * 64 + 1 * q.val = q.val; rw [i0]; omega

/-! ## The accumulator is the fold of its run -/

/-- What the accumulator holds after the body at position n. -/
abbrev accOf (c : Dev nD) (n : ℕ) (h : n < cfg1.N) : S5000x64.Idx → EReal := (outsAt1 V c n h).2

/-- At the first point of a run the accumulator is the zero array with the point's block gathered into it; -/
abbrev resetOf (c : Dev nD) (n : ℕ) (h : n < cfg1.N) : S5000x64.Idx → EReal :=
  k1_pay2 (F := Ideal) (grid1.coords ⟨n, h⟩) (dstBlk V c ⟨n, h⟩) (k1_pay1 (F := Ideal)) (msgBlk V c ⟨n, h⟩)

/-- at every later point, what the point before left with the point's block gathered into it. -/
abbrev stepOf (c : Dev nD) (n : ℕ) (h : n < cfg1.N) (acc : S5000x64.Idx → EReal) : S5000x64.Idx → EReal :=
  k1_pay2 (F := Ideal) (grid1.coords ⟨n, h⟩) (dstBlk V c ⟨n, h⟩) acc (msgBlk V c ⟨n, h⟩)

/-- So at point t it is the fold over the points 500·(t / 500) … t of its run. -/
theorem acc_fold (c : Dev nD) (t : Fin cfg1.N) (h' : 500 * (t.val / 500) + t.val % 500 < cfg1.N) :
    accOf V c t.val t.isLt = Pipeline.accAt (resetOf V c) (stepOf V c) (500 * (t.val / 500)) (t.val % 500) h' :=
  Pipeline.eq_accAt_of_mod (accOf V c) 500 (resetOf V c) (stepOf V c)
    (fun n h hm => scratch_first V c ⟨n, h⟩ hm)
    (fun n h hne => scratch_next V c ⟨n + 1, h⟩ hne)
    (by decide) t.val t.isLt h'

/-- What point n adds to the accumulator at (p, q): the gathering, over the point's 3200 edges, for the node numbered
    5000·(n / 500) + p. (Past the grid nothing is added; those values are never used.) -/
def addend (c : Dev nD) (n : ℕ) (i : S5000x64.Idx) : EReal :=
  if h : n < cfg1.N then
    Cert.Spec.aggAt (dstBlk V c ⟨n, h⟩) (msgBlk V c ⟨n, h⟩) (((grid1.coords ⟨n, h⟩) 0).val * 5000 + (i 0).val) (i 1)
  else 0

theorem addend_of_lt (c : Dev nD) (n : ℕ) (h : n < cfg1.N) (p : Fin 5000) (q : Fin 64) :
    addend V c n (ix2 p q)
      = Cert.Spec.aggAt (dstBlk V c ⟨n, h⟩) (msgBlk V c ⟨n, h⟩) (((grid1.coords ⟨n, h⟩) 0).val * 5000 + p.val) q :=
  dif_pos h

/-- The fold, at an index: zero plus the addends of the run's points so far. -/
theorem acc_unrolled (c : Dev nD) (b j : ℕ) (h : b + j < cfg1.N) (i : S5000x64.Idx) :
    Pipeline.accAt (resetOf V c) (stepOf V c) b j h i = 0 + ∑ s ∈ Finset.range (j + 1), addend V c (b + s) i :=
  Pipeline.accAt_add_apply (resetOf V c) (stepOf V c) (fun _ => (0 : EReal)) (addend V c) b j
    (fun hb i => by
      obtain ⟨p, q, rfl⟩ : ∃ p q, i = ix2 p q := ⟨i 0, i 1, eq_ix2 i⟩
      refine (Pay.acc_pay (grid1.coords ⟨b, hb⟩) (dstBlk V c ⟨b, hb⟩) (k1_pay1 (F := Ideal)) (msgBlk V c ⟨b, hb⟩) p q).trans ?_
      rw [Pay.zero_pay p q, addend_of_lt V c b hb p q])
    (fun n hn acc i _ _ => by
      obtain ⟨p, q, rfl⟩ : ∃ p q, i = ix2 p q := ⟨i 0, i 1, eq_ix2 i⟩
      refine (Pay.acc_pay (grid1.coords ⟨n, hn⟩) (dstBlk V c ⟨n, hn⟩) acc (msgBlk V c ⟨n, hn⟩) p q).trans ?_
      rw [addend_of_lt V c n hn p q])
    j (le_refl j) h i

/-! ## The addends of one run are the whole gathering -/

/-- Run k (the points 500·k … 500·k + 499) goes through all 1600000 edges, 3200 at a point: its addends at (p, q) add up
    to what node number 5000·k + p gathers from all the edges. -/
theorem run_sum (c : Dev nD) (k : ℕ) (hk : k < 20) (p : Fin 5000) (q : Fin 64) :
    ∑ s ∈ Finset.range 500, addend V c (500 * k + s) (ix2 p q)
      = Cert.Spec.aggAt (dstArr V c) (msgArr V c) (k * 5000 + p.val) q := by
  have hN : cfg1.N = 10000 := N_1
  unfold Cert.Spec.aggAt
  refine Eq.trans ?_ (Cert.LibBlockSum.sum_fin_blocks (J := 500) (B := 3200) (E := 1600000) rfl
    (fun e : Fin 1600000 => Cert.Spec.hit (dstArr V c) (k * 5000 + p.val) e * msgArr V c (ix2 e q))
    (fun s (e' : Fin 3200) => if h : 500 * k + s < cfg1.N then
        Cert.Spec.hit (dstBlk V c ⟨500 * k + s, h⟩) (k * 5000 + p.val) e' * msgBlk V c ⟨500 * k + s, h⟩ (ix2 e' q) else 0)
    (fun s e' hse hs => ?_))
  · refine Finset.sum_congr rfl fun s hs => ?_
    have hs' : s < 500 := Finset.mem_range.mp hs
    have h : 500 * k + s < cfg1.N := by rw [hN]; omega
    have hc : ((grid1.coords ⟨500 * k + s, h⟩) 0).val = k := by
      rw [(coords_facts ⟨500 * k + s, h⟩).1]; show (500 * k + s) / 500 = k; omega
    rw [addend_of_lt V c _ h p q, hc]
    unfold Cert.Spec.aggAt
    exact Finset.sum_congr rfl fun e' _ => by rw [dif_pos h]
  · have h : 500 * k + s < cfg1.N := by rw [hN]; omega
    have hm : (500 * k + s) % 500 = s := by omega
    rw [dif_pos h]
    unfold Cert.Spec.hit
    rw [dstBlk_apply V c ⟨500 * k + s, h⟩ e' 0 ⟨3200 * s + e'.val, hse⟩ (by show 3200 * s + e'.val = 3200 * ((500 * k + s) % 500) + e'.val; rw [hm]),
      msgBlk_apply V c ⟨500 * k + s, h⟩ e' q ⟨3200 * s + e'.val, hse⟩ (by show 3200 * s + e'.val = 3200 * ((500 * k + s) % 500) + e'.val; rw [hm])]

/-- At the last point of a run the accumulator holds, at (p, q), what node number 5000·(t / 500) + p gathers from all
    the edges. -/
theorem acc_last (c : Dev nD) (t : Fin cfg1.N) (hf : t.val % 500 = 499) (p : Fin 5000) (q : Fin 64) :
    accOf V c t.val t.isLt (ix2 p q) = Cert.Spec.aggAt (dstArr V c) (msgArr V c) (t.val / 500 * 5000 + p.val) q := by
  have hN := lt_N t
  have h' : 500 * (t.val / 500) + t.val % 500 < cfg1.N := by rw [Nat.div_add_mod]; exact t.isLt
  refine (congrFun (acc_fold V c t h') (ix2 p q)).trans ?_
  refine (acc_unrolled V c (500 * (t.val / 500)) (t.val % 500) h' (ix2 p q)).trans ?_
  rw [hf, zero_add]
  exact run_sum V c (t.val / 500) (by omega) p q

/-! ## What the last point of a run writes back -/

/-- The output block at the last point of run t / 500, entry (p, q), is the layer's result at node 5000·(t / 500) + p. -/
theorem out_block_apply (c : Dev nD) (t : Fin cfg1.N) (hf : t.val % 500 = 499) (p : Fin 5000) (q : Fin 64) (r : Fin 100000)
    (hr : r.val = 5000 * (t.val / 500) + p.val) :
    (outsAt1 V c t.val t.isLt).1 (ix2 p q)
      = Cert.Spec.outArr (dstArr V c) (msgArr V c) (xArr V c) (degArr V c) (rootArr V c) (biasArr V c) (ix2 r q) := by
  have hacc : accOf V c t.val t.isLt (ix2 p q) = Cert.Spec.aggAt (dstArr V c) (msgArr V c) r.val q := by
    rw [acc_last V c t hf p q]
    exact congrArg (fun n => Cert.Spec.aggAt (dstArr V c) (msgArr V c) n q) (by rw [hr]; omega)
  refine (congrFun (out_last V c t hf) (ix2 p q)).trans ?_
  refine (Pay.fin_pay (accOf V c t.val t.isLt) (degBlk V c t) (xBlk V c t) (rootBlk V c t) (biasBlk V c t) (xBlk V c t) p q).trans ?_
  show _ = Cert.Spec.finishAt (Cert.Spec.aggAt (dstArr V c) (msgArr V c) r.val q) (xArr V c) (degArr V c) (rootArr V c) (biasArr V c) r q
  unfold Cert.Spec.finishAt
  refine congrArg₂ (· + ·) (xBlk_apply V c t p q r hr) (congrArg₂ max (congrArg₂ (· + ·) (congrArg₂ (· + ·)
    (congrArg₂ (· * ·) hacc (degBlk_apply V c t p 0 r hr))
    (Finset.sum_congr rfl fun j _ => congrArg₂ (· * ·) (xBlk_apply V c t p j r hr) (rootBlk_apply V c t j q)))
    (biasBlk_apply V c t q)) rfl)

/-- The same at any index y of the block and any index i of the result that sits 5000·(t / 500) rows below it. -/
theorem out_block_at (c : Dev nD) (t : Fin cfg1.N) (hf : t.val % 500 = 499) (y : S5000x64.Idx) (i : S100000x64.Idx)
    (h0 : (i 0).val = 5000 * (t.val / 500) + (y 0).val) (h1 : (i 1).val = (y 1).val) :
    (outsAt1 V c t.val t.isLt).1 y
      = Cert.Spec.outArr (dstArr V c) (msgArr V c) (xArr V c) (degArr V c) (rootArr V c) (biasArr V c) i := by
  obtain ⟨p, q, rfl⟩ : ∃ p q, y = ix2 p q := ⟨y 0, y 1, eq_ix2 y⟩
  obtain ⟨r, q', rfl⟩ : ∃ r q', i = ix2 r q' := ⟨i 0, i 1, eq_ix2 i⟩
  obtain rfl : q' = q := Fin.ext h1
  exact out_block_apply V c t hf p q' r h0

/-- WHAT A FLUSHING POINT WRITES BACK is its block of the layer's result. -/
theorem flushed_eq (c : Dev nD) (t : Fin cfg1.N) (hf : (cfg1.win 6).flush t = true) :
    (dat1 (F := Ideal) V c).flushed 6 t
      = ((cfg1.win 6).blk t).view.read (Elt Ideal)
          (Cert.Spec.outArr (dstArr V c) (msgArr V c) (xArr V c) (degArr V c) (rootArr V c) (biasArr V c)) := by
  have hm : t.val % 500 = 499 := (flush1_6 t).mp hf
  obtain ⟨-, -, -, -, -, -, -, -, -, -, -, i0, i1⟩ := idx_facts t
  show (cfg1.win 6).cut (grid1.coords t) ((dat1 (F := Ideal) V c).after 6 t) = _
  rw [after1_6]
  funext y
  rw [View.read_apply]
  show (outsAt1 V c t.val t.isLt).1 y
    = Cert.Spec.outArr (dstArr V c) (msgArr V c) (xArr V c) (degArr V c) (rootArr V c) (biasArr V c) (((cfg1.win 6).blk t).view.emb y)
  refine out_block_at V c t hm y (((cfg1.win 6).blk t).view.emb y) ?_ ?_
  · show win1_6.index t (0 : Fin 2) * 5000 + 1 * (y 0).val = 5000 * (t.val / 500) + (y 0).val; rw [i0]; omega
  · show win1_6.index t (1 : Fin 2) * 64 + 1 * (y 1).val = (y 1).val; rw [i1]; omega

/-! ## The flushing points' blocks cover the result -/

/-- An index of the result is in point t's block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v50).slice (win1_6.rect t)).set ↔ _
  rw [View.set_slice_whole, Rect.mem_set_unit]
  exact Iff.rfl

/-- Row r of the result is written back by the last point of run r / 5000. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 10000 := N_1
  let t : Fin cfg1.N := ⟨500 * ((i 0).val / 5000) + 499, by rw [hN]; omega⟩
  have htv : t.val = 500 * ((i 0).val / 5000) + 499 := rfl
  obtain ⟨-, -, -, -, -, -, -, -, -, -, -, i0, i1⟩ := idx_facts t
  refine ⟨t, (flush1_6 t).mpr (by rw [htv]; omega), ?_⟩
  rw [mem_blk]
  intro a
  match a with
  | ⟨0, _⟩ => show win1_6.index t (0 : Fin 2) * 5000 ≤ (i 0).val ∧ (i 0).val < win1_6.index t (0 : Fin 2) * 5000 + 5000; rw [i0, htv]; omega
  | ⟨1, _⟩ => show win1_6.index t (1 : Fin 2) * 64 ≤ (i 1).val ∧ (i 1).val < win1_6.index t (1 : Fin 2) * 64 + 64; rw [i1]; omega

/-! ## The result array -/

/-- THE GATHERING KERNEL'S RESULT ARRAY after the region is the layer's result, as one function of the six arrays
    the region reads. -/
theorem out_array (V : (c : Dev nD) → (b : Ref sig .tc) → Buf (Elt Ideal) ((c : Thread nD τ).loc b)) (c : Dev nD) :
    (Cert.KernelIdeal.Frame.dat1 (F := Ideal) V c).arrAt 6 cfg1.N = Cert.Spec.outArr (V c main_v49) (V c main_v48) (V c main_arg0) (V c main_v13) (V c main_arg5) (V c main_arg6) :=
  (dat1 (F := Ideal) V c).arrAt_eq_of_cover 6
    (Cert.Spec.outArr (dstArr V c) (msgArr V c) (xArr V c) (degArr V c) (rootArr V c) (biasArr V c))
    (fun t hf => flushed_eq V c t hf) cover

end Cert.KernelIdeal.OutValue

end
-- ==== Proof.LibGatherRows.lean ====
/-
  Row gathers read at an index.

  A gather that picks whole rows out of a table: every start index names a row (read as a signed integer and clamped
  into the table), the trailing axis is copied through. Two shapes of it: a table of rows (rank 2, one index word
  per result row) and a table of cells of rows (rank 3, two index words per result row). Nothing here depends on a
  program: the extents are variables.
-/
import Idealize.ShloMosaic.PureOps
import Idealize.ShloMosaic.Lib.ValueIdx

noncomputable section

namespace Cert.LibGatherRows

open Idealize.ShloMosaic Idealize.ShloMosaic.ValueIdx

/-- The row a start word names in an axis of extent N: the word read signed, clamped into the axis. -/
def rowOf (N : Nat) (hN : 0 < N) {w : Nat} (b : BitVec w) : Fin N := ⟨min b.toInt.toNat (N - 1), by omega⟩

/-- Dimension numbers of a gather of rows: table [N, C], one start word per result row, result [E, C]. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result row e, column q, is the table's row named by start word e, at column q. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowsDims N E C wf) x idx (ix2 e q) = x (ix2 (rowOf N hN (idx (ix2 e 0))) q) := by
  unfold Host.gather
  congr 1
  funext a
  refine Fin.ext ?_
  match a with
  | ⟨0, _⟩ =>
    show (rowsDims N E C wf).start (ix2 e q) idx 0 + (rowsDims N E C wf).batchCoord (ix2 e q) 0
      + (rowsDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e q) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C wf).start (ix2 e q) idx 1 + (rowsDims N E C wf).batchCoord (ix2 e q) 1
      + (rowsDims N E C wf).offCoord (ix2 e q) 1 = _
    have hm : (1 : Fin 2) ∉ ([0] : List (Fin 2)) := by decide
    have hk : (1 : Fin 2) ∈ (rowsDims N E C wf).sKept := (GatherDims.mem_sKept _ _).mpr ⟨hm, List.not_mem_nil⟩
    rw [GatherDims.batchCoord_eq_zero _ _ _ List.not_mem_nil]
    unfold GatherDims.start GatherDims.offCoord
    rw [dif_neg hm, dif_pos hk, Nat.add_zero, Nat.zero_add]
    rfl

/-- Dimension numbers of a gather of rows out of a table of cells: table [N, K, C], two start words per result row
    (the cell's two coordinates), result [E, C]. -/
abbrev cellDims (N K E C : Nat)
    (wf : GatherDims.WF ⟨3, ![N, K, C]⟩ ⟨2, ![E, 2]⟩ ⟨2, ![E, C]⟩ [1] [0, 1] [] [0, 1] [] 1 ![1, 1, C]) :
    GatherDims ⟨3, ![N, K, C]⟩ ⟨2, ![E, 2]⟩ ⟨2, ![E, C]⟩ where
  offsetDims := [1]
  collapsedSliceDims := [0, 1]
  operandBatchingDims := []
  startIndicesBatchingDims := []
  startIndexMap := [0, 1]
  indexVectorDim := 1
  sliceSizes := ![1, 1, C]
  wf := wf

/-- Result row e, column q, is the table's cell named by start words (e, 0) and (e, 1), at column q. -/
theorem gather_cell_apply {α : Type} {N K E C w : Nat} (hN : 0 < N) (hK : 0 < K)
    (wf : GatherDims.WF ⟨3, ![N, K, C]⟩ ⟨2, ![E, 2]⟩ ⟨2, ![E, C]⟩ [1] [0, 1] [] [0, 1] [] 1 ![1, 1, C])
    (x : (⟨3, ![N, K, C]⟩ : Shape).Idx → α) (idx : IVec ⟨2, ![E, 2]⟩ w) (e : Fin E) (q : Fin C) :
    Host.gather (cellDims N K E C wf) x idx (ix2 e q)
      = x (ix3 (rowOf N hN (idx (ix2 e 0))) (rowOf K hK (idx (ix2 e 1))) q) := by
  unfold Host.gather
  congr 1
  funext a
  refine Fin.ext ?_
  have h0 : (0 : Fin 3) ∈ ([0, 1] : List (Fin 3)) := by decide
  have h1 : (1 : Fin 3) ∈ ([0, 1] : List (Fin 3)) := by decide
  have h2 : (2 : Fin 3) ∉ ([0, 1] : List (Fin 3)) := by decide
  match a with
  | ⟨0, _⟩ =>
    show (cellDims N K E C wf).start (ix2 e q) idx 0 + (cellDims N K E C wf).batchCoord (ix2 e q) 0
      + (cellDims N K E C wf).offCoord (ix2 e q) 0 = _
    rw [GatherDims.batchCoord_eq_zero _ _ _ List.not_mem_nil,
      GatherDims.offCoord_eq_zero _ _ _ (fun h => ((GatherDims.mem_sKept _ _).mp h).1 h0)]
    simp only [Nat.add_zero]
    unfold GatherDims.start
    rw [dif_pos (show (0 : Fin 3) ∈ (cellDims N K E C wf).startIndexMap from h0)]
    have hsi : (cellDims N K E C wf).siIdx (ix2 e q) ⟨List.idxOf (0 : Fin 3) (cellDims N K E C wf).startIndexMap,
        List.idxOf_lt_length_iff.2 h0⟩ = ix2 e 0 := by
      funext b; refine Fin.ext ?_
      match b with
      | ⟨0, _⟩ => rfl
      | ⟨1, _⟩ => rfl
    rw [hsi]
    rfl
  | ⟨1, _⟩ =>
    show (cellDims N K E C wf).start (ix2 e q) idx 1 + (cellDims N K E C wf).batchCoord (ix2 e q) 1
      + (cellDims N K E C wf).offCoord (ix2 e q) 1 = _
    rw [GatherDims.batchCoord_eq_zero _ _ _ List.not_mem_nil,
      GatherDims.offCoord_eq_zero _ _ _ (fun h => ((GatherDims.mem_sKept _ _).mp h).1 h1)]
    simp only [Nat.add_zero]
    unfold GatherDims.start
    rw [dif_pos (show (1 : Fin 3) ∈ (cellDims N K E C wf).startIndexMap from h1)]
    have hsi : (cellDims N K E C wf).siIdx (ix2 e q) ⟨List.idxOf (1 : Fin 3) (cellDims N K E C wf).startIndexMap,
        List.idxOf_lt_length_iff.2 h1⟩ = ix2 e 1 := by
      funext b; refine Fin.ext ?_
      match b with
      | ⟨0, _⟩ => rfl
      | ⟨1, _⟩ => rfl
    rw [hsi]
    rfl
  | ⟨2, _⟩ =>
    show (cellDims N K E C wf).start (ix2 e q) idx 2 + (cellDims N K E C wf).batchCoord (ix2 e q) 2
      + (cellDims N K E C wf).offCoord (ix2 e q) 2 = _
    have hk : (2 : Fin 3) ∈ (cellDims N K E C wf).sKept := (GatherDims.mem_sKept _ _).mpr ⟨h2, List.not_mem_nil⟩
    rw [GatherDims.batchCoord_eq_zero _ _ _ List.not_mem_nil]
    unfold GatherDims.start GatherDims.offCoord
    rw [dif_neg h2, dif_pos hk, Nat.add_zero, Nat.zero_add]
    rfl

end Cert.LibGatherRows

end
-- ==== Proof.KIHost.lean ====
/-
  What the host operations of the kernel program compute, at the ideal instance.

  Between its two kernel regions the program runs three stretches of whole-array operations. For ANY contents W of
  the TensorCore's buffers before a stretch, this module reads what the stretch leaves in the buffers the kernels
  use: the source and destination words of the edges, the mixture weights, the reciprocal of the clamped degree, the
  gathered source rows (for an edge whose source word is a row of the node table) and the destination words as a
  column. The first three are the reference program's own stages of the same arguments.
-/
import proofs.«400719_j31138512896561_3_alg».proof.Proof.Gen.KernelIdeal.Regions
import proofs.«400719_j31138512896561_3_alg».proof.Proof.Gen.ReferenceIdeal.Read
import proofs.«400719_j31138512896561_3_alg».proof.Proof.LibGatherRows
import Idealize.ShloMosaic.Lib.StableHlo.Run
import Idealize.ShloMosaic.Lib.StableHlo.Predicate
import Idealize.ShloMosaic.Lib.ValueIdx
import Idealize.ShloMosaic.Lib.Pipeline.Value

noncomputable section

namespace Cert.KernelIdeal.HostVals

open Cert.KernelIdeal Cert.KernelIdeal.Gen Idealize.ShloMosaic Idealize.ShloMosaic.ValueIdx
open Idealize.SL.Sem

variable {F : FTy → Type} [FloatOps F]

/-- A stretch read after its first k operations, then the rest. -/
theorem after_split (k : Nat) (ops : List (HloOp τ sig (Elt F))) (X : Valuation τ sig (Elt F)) :
    StableHlo.after ops X = StableHlo.after (ops.drop k) (StableHlo.after (ops.take k) X) := by
  rw [← StableHlo.after_append, List.take_append_drop]

/-! ## The first stretch: the edges' words, the degree, the mixture weights -/

/-- The source words of the edges: row 0 of the edge list, as the reference reads it. -/
theorem src_eq (W : Valuation τ sig (Elt Ideal)) :
    StableHlo.after hostOps0 W (Proc.devRef .tc main_v1)
      = Cert.ReferenceIdeal.Read.val_main_v1 (F := Ideal) (W (Proc.devRef .tc main_arg1)) := by
  show StableHlo.after hostOps0 W (Proc.devRef .tc main_v1) = _
  after_results
  rfl

/-- The destination words of the edges: row 1 of the edge list, as the reference reads it. -/
theorem dst_eq (W : Valuation τ sig (Elt Ideal)) :
    StableHlo.after hostOps0 W (Proc.devRef .tc main_v3)
      = Cert.ReferenceIdeal.Read.val_main_v3 (F := Ideal) (W (Proc.devRef .tc main_arg1)) := by
  show StableHlo.after hostOps0 W (Proc.devRef .tc main_v3) = _
  after_results
  rfl

/-- A quotient of two arrays, read at an index. -/
theorem hostDivf_apply {s : Shape} (a b : FVec Ideal s .f32) (i : s.Idx) : Host.divf a b i = Ideal.div (a i) (b i) := rfl

/-- The word 0x3F800000 read as a real is one. -/
theorem ofBits_one : Ideal.ofBits .f32 0x3F800000#32 = 1 := by
  simp [Ideal.ofBits, Ideal.ieee, -EReal.coe_mul]; norm_num

set_option maxHeartbeats 400000 in
/-- The reciprocal of the clamped degree, as a column: entry (n, 0) is one over the reference's degree of node n. -/
theorem invdeg_apply (W : Valuation τ sig (Elt Ideal)) (n : Fin 100000) :
    (StableHlo.after hostOps0 W (Proc.devRef .tc main_v13) : FVec Ideal S100000x1 .f32) (ix2 n 0)
      = Ideal.div 1 (Cert.ReferenceIdeal.Read.val_main_v9 (F := Ideal) (W (Proc.devRef .tc main_arg1)) (ix1 n)) := by
  have h : (StableHlo.after hostOps0 W (Proc.devRef .tc main_v13) : FVec Ideal S100000x1 .f32)
      = shapeCast S100000x1
          (Host.divf (broadcastInDim S100000 ![] bcast_S_S100000 (constant (F := Ideal) S_ .f32 0x3F800000#32))
            (Cert.ReferenceIdeal.Read.val_main_v9 (F := Ideal) (W (Proc.devRef .tc main_arg1))))
          shapeCasts_S100000_S100000x1 := by
    show StableHlo.after hostOps0 W (Proc.devRef .tc main_v13) = _
    after_results
    rfl
  rw [h]
  refine (shapeCast_apply _ _ _ (ix1 n) ?_).trans ?_
  · rw [Shape.rowMajor_val_two, Shape.rowMajor_val_one]
    show n.val = n.val * 1 + 0
    omega
  · rw [hostDivf_apply, StableHlo.Predicate.bcast_scalar bcast_S_S100000 h_S_, constant_apply, ofBits_one]

/-! The mixture weights come last in the stretch, and the square of the coordinate differences enters them twice; the
    stretch is read in three pieces (operations 1 to 36, 37 to 44, 45 to 58), each from ANY contents, so that every
    earlier stage enters the next piece as one name. -/

set_option maxHeartbeats 1000000 in
/-- After operations 1 to 36: the inverse root degree gathered at the source words. -/
theorem upto36_v20 (X : Valuation τ sig (Elt Ideal)) :
    StableHlo.after (hostOps0.take 36) X (Proc.devRef .tc main_v20)
      = Cert.ReferenceIdeal.Read.val_main_v17 (F := Ideal) (X (Proc.devRef .tc main_arg1)) := by
  show StableHlo.after (hostOps0.take 36) X (Proc.devRef .tc main_v20) = _
  simp only [hostOps0, List.take_succ_cons, List.drop_succ_cons, List.take_zero, List.drop_zero]
  after_results
  rfl

set_option maxHeartbeats 1000000 in
/-- After operations 1 to 36: the inverse root degree gathered at the destination words. -/
theorem upto36_v27 (X : Valuation τ sig (Elt Ideal)) :
    StableHlo.after (hostOps0.take 36) X (Proc.devRef .tc main_v27)
      = Cert.ReferenceIdeal.Read.val_main_v24 (F := Ideal) (X (Proc.devRef .tc main_arg1)) := by
  show StableHlo.after (hostOps0.take 36) X (Proc.devRef .tc main_v27) = _
  simp only [hostOps0, List.take_succ_cons, List.drop_succ_cons, List.take_zero, List.drop_zero]
  after_results
  rfl

set_option maxHeartbeats 1000000 in
/-- Operations 1 to 36 leave the means and the widths as they were. -/
theorem upto36_arg3 (X : Valuation τ sig (Elt Ideal)) :
    StableHlo.after (hostOps0.take 36) X (Proc.devRef .tc main_arg3) = X (Proc.devRef .tc main_arg3) := by
  simp only [hostOps0, List.take_succ_cons, List.drop_succ_cons, List.take_zero, List.drop_zero]
  after_results

set_option maxHeartbeats 1000000 in
theorem upto36_arg4 (X : Valuation τ sig (Elt Ideal)) :
    StableHlo.after (hostOps0.take 36) X (Proc.devRef .tc main_arg4) = X (Proc.devRef .tc main_arg4) := by
  simp only [hostOps0, List.take_succ_cons, List.drop_succ_cons, List.take_zero, List.drop_zero]
  after_results

set_option maxHeartbeats 1000000 in
/-- Operations 37 to 44: the pseudo-coordinates minus the means, from the two gathered arrays. -/
theorem from37_v35 (X : Valuation τ sig (Elt Ideal)) (x1 : (⟨S2x1600000, .i32⟩ : BufTy).Contents (Elt Ideal))
    (h20 : X (Proc.devRef .tc main_v20) = Cert.ReferenceIdeal.Read.val_main_v17 (F := Ideal) x1)
    (h27 : X (Proc.devRef .tc main_v27) = Cert.ReferenceIdeal.Read.val_main_v24 (F := Ideal) x1) :
    StableHlo.after ((hostOps0.drop 36).take 8) X (Proc.devRef .tc main_v35)
      = Cert.ReferenceIdeal.Read.val_main_v32 (F := Ideal) x1 (X (Proc.devRef .tc main_arg3)) := by
  show StableHlo.after ((hostOps0.drop 36).take 8) X (Proc.devRef .tc main_v35) = _
  simp only [hostOps0, List.take_succ_cons, List.drop_succ_cons, List.take_zero, List.drop_zero]
  after_results
  rw [h20, h27]
  rfl

theorem from37_arg4 (X : Valuation τ sig (Elt Ideal)) :
    StableHlo.after ((hostOps0.drop 36).take 8) X (Proc.devRef .tc main_arg4) = X (Proc.devRef .tc main_arg4) := by
  simp only [hostOps0, List.take_succ_cons, List.drop_succ_cons, List.take_zero, List.drop_zero]
  after_results

set_option maxHeartbeats 1000000 in
/-- Operations 45 to 58: the weights from the differences and the widths. -/
theorem from45_v46 (X : Valuation τ sig (Elt Ideal)) (x1 : (⟨S2x1600000, .i32⟩ : BufTy).Contents (Elt Ideal))
    (x3 : (⟨S4x2, .f32⟩ : BufTy).Contents (Elt Ideal))
    (h35 : X (Proc.devRef .tc main_v35) = Cert.ReferenceIdeal.Read.val_main_v32 (F := Ideal) x1 x3) :
    StableHlo.after ((hostOps0.drop 36).drop 8) X (Proc.devRef .tc main_v46)
      = Cert.ReferenceIdeal.Read.val_main_v43 (F := Ideal) x1 x3 (X (Proc.devRef .tc main_arg4)) := by
  show StableHlo.after ((hostOps0.drop 36).drop 8) X (Proc.devRef .tc main_v46) = _
  simp only [hostOps0, List.take_succ_cons, List.drop_succ_cons, List.take_zero, List.drop_zero]
  after_results
  rw [h35]
  rfl

/-- The mixture weights of the edges are the reference's, computed from the same three arguments. -/
theorem gw_eq (W : Valuation τ sig (Elt Ideal)) :
    StableHlo.after hostOps0 W (Proc.devRef .tc main_v46)
      = Cert.ReferenceIdeal.Read.val_main_v43 (F := Ideal) (W (Proc.devRef .tc main_arg1))
          (W (Proc.devRef .tc main_arg3)) (W (Proc.devRef .tc main_arg4)) := by
  rw [after_split 36 hostOps0 W, after_split 8 (hostOps0.drop 36)]
  have h35 := from37_v35 (StableHlo.after (hostOps0.take 36) W) _ (upto36_v20 W) (upto36_v27 W)
  rw [upto36_arg3] at h35
  refine (from45_v46 _ _ _ h35).trans ?_
  rw [from37_arg4, upto36_arg4]

/-! ## The third stretch: the destination words as a column -/

/-- Entry (e, 0) of the column is the destination word of edge e. -/
theorem dst2_apply (W : Valuation τ sig (Elt Ideal)) (e : Fin 1600000) :
    (StableHlo.after hostOps1 W (Proc.devRef .tc main_v49) : IVec S1600000x1 32) (ix2 e 0)
      = (W (Proc.devRef .tc main_v3) : IVec S1600000 32) (ix1 e) := by
  have h : (StableHlo.after hostOps1 W (Proc.devRef .tc main_v49) : IVec S1600000x1 32)
      = shapeCast S1600000x1 (W (Proc.devRef .tc main_v3) : IVec S1600000 32) shapeCasts_S1600000_S1600000x1 := by
    show StableHlo.after hostOps1 W (Proc.devRef .tc main_v49) = _
    after_results
    rfl
  rw [h]
  refine shapeCast_apply _ _ _ (ix1 e) ?_
  rw [Shape.rowMajor_val_two, Shape.rowMajor_val_one]
  show e.val = e.val * 1 + 0
  omega

/-! ## What a stretch does not write, it keeps -/

theorem kept0 (W : Valuation τ sig (Elt F)) (r : Ref sig .tc) (h : r ∉ hostOps0_W) :
    StableHlo.after hostOps0 W (Proc.devRef .tc r) = W (Proc.devRef .tc r) :=
  StableHlo.after_of_writes_sub hostOps0 W hostOps0_writes h

theorem kept0_1 (W : Valuation τ sig (Elt F)) (r : Ref sig .tc) (h : r ∉ hostOps0_1_W) :
    StableHlo.after hostOps0_1 W (Proc.devRef .tc r) = W (Proc.devRef .tc r) :=
  StableHlo.after_of_writes_sub hostOps0_1 W hostOps0_1_writes h

theorem kept1 (W : Valuation τ sig (Elt F)) (r : Ref sig .tc) (h : r ∉ hostOps1_W) :
    StableHlo.after hostOps1 W (Proc.devRef .tc r) = W (Proc.devRef .tc r) :=
  StableHlo.after_of_writes_sub hostOps1 W hostOps1_writes h

/-! ## The second stretch: the source rows of the edges

    The rows of the node table are taken at the source words: a negative word steps up by the number of nodes, the
    table's row is gathered at the result, and an edge whose stepped word is no row of the table gets a fill value. -/

/-- A source word stepped: a negative word steps up by the number of nodes. -/
def wrapped (x : IVec S1600000 32) : IVec S1600000 32 :=
  select (cmpi .slt x (broadcastInDim S1600000 ![] bcast_S_S1600000 (constantI S_ 32 0#32)))
    (addi x (broadcastInDim S1600000 ![] bcast_S_S1600000 (constantI S_ 32 100000#32))) x

/-- The stepped words as a column of start indices. -/
def startCol (x : IVec S1600000 32) : IVec S1600000x1 32 :=
  broadcastInDim S1600000x1 ![0] bcast_S1600000_S1600000x1_0 (wrapped x)

/-- Which start indices are rows of the table: 0 ≤ word ≤ 99999. -/
def inRangeCol (s : IVec S1600000x1 32) : IVec S1600000 1 :=
  Host.reduce IntOp.andi
    (andi (cmpi .sge s (broadcastInDim S1600000x1 ![] bcast_S_S1600000x1 (constantI S_ 32 0#32)))
      (cmpi .sle s (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows taken: the table's row at each edge whose start index is in range (mask m), a fill value elsewhere. -/
def takenOf (t : FVec Ideal S100000x64 .f32) (s : IVec S1600000x1 32) (m : IVec S1600000 1) : FVec Ideal S1600000x64 .f32 :=
  select (broadcastInDim S1600000x64 ![0] bcast_S1600000_S1600000x64_0 m)
    (Host.gather gather_S100000x64_S1600000x1_S1600000x64_1_0_n_n_0_1_164 t s)
    (broadcastInDim S1600000x64 ![] bcast_S_S1600000x64 (constant (F := Ideal) S_ .f32 0x7FC00000#32))

/-! The stretch in three pieces (operations 1 to 8, 9 to 18, 19 to 23), each from any contents. -/

set_option maxHeartbeats 1000000 in
theorem take_piece1_v5 (X : Valuation τ sig (Elt Ideal)) :
    (StableHlo.after (hostOps0_1.take 8) X (Proc.devRef .tc main_call0_v5) : IVec S1600000x1 32)
      = startCol (X (Proc.devRef .tc main_v1)) := by
  show StableHlo.after (hostOps0_1.take 8) X (Proc.devRef .tc main_call0_v5) = _
  simp only [hostOps0_1, List.take_succ_cons, List.drop_succ_cons, List.take_zero, List.drop_zero]
  after_results
  rfl

set_option maxHeartbeats 1000000 in
theorem take_piece1_arg0 (X : Valuation τ sig (Elt Ideal)) :
    StableHlo.after (hostOps0_1.take 8) X (Proc.devRef .tc main_arg0) = X (Proc.devRef .tc main_arg0) := by
  simp only [hostOps0_1, List.take_succ_cons, List.drop_succ_cons, List.take_zero, List.drop_zero]
  after_results

set_option maxRecDepth 8192 in
set_option maxHeartbeats 1000000 in
theorem take_piece2_v12 (X : Valuation τ sig (Elt Ideal)) :
    (StableHlo.after ((hostOps0_1.drop 8).take 10) X (Proc.devRef .tc main_call0_v12) : IVec S1600000 1)
      = inRangeCol (X (Proc.devRef .tc main_call0_v5)) := by
  show StableHlo.after ((hostOps0_1.drop 8).take 10) X (Proc.devRef .tc main_call0_v12) = _
  simp only [hostOps0_1, List.take_succ_cons, List.drop_succ_cons, List.take_zero, List.drop_zero]
  after_results
  simp only [StableHlo.TRef.ofBuf, StableHlo.TRef.toBuf, cast_eq]
  rfl

set_option maxHeartbeats 1000000 in
theorem take_piece2_v5 (X : Valuation τ sig (Elt Ideal)) :
    StableHlo.after ((hostOps0_1.drop 8).take 10) X (Proc.devRef .tc main_call0_v5) = X (Proc.devRef .tc main_call0_v5) := by
  simp only [hostOps0_1, List.take_succ_cons, List.drop_succ_cons, List.take_zero, List.drop_zero]
  after_results

set_option maxHeartbeats 1000000 in
theorem take_piece2_arg0 (X : Valuation τ sig (Elt Ideal)) :
    StableHlo.after ((hostOps0_1.drop 8).take 10) X (Proc.devRef .tc main_arg0) = X (Proc.devRef .tc main_arg0) := by
  simp only [hostOps0_1, List.take_succ_cons, List.drop_succ_cons, List.take_zero, List.drop_zero]
  after_results

set_option maxHeartbeats 1000000 in
theorem take_piece3_v47 (X : Valuation τ sig (Elt Ideal)) :
    (StableHlo.after ((hostOps0_1.drop 8).drop 10) X (Proc.devRef .tc main_v47) : FVec Ideal S1600000x64 .f32)
      = takenOf (X (Proc.devRef .tc main_arg0)) (X (Proc.devRef .tc main_call0_v5)) (X (Proc.devRef .tc main_call0_v12)) := by
  show StableHlo.after ((hostOps0_1.drop 8).drop 10) X (Proc.devRef .tc main_v47) = _
  simp only [hostOps0_1, List.take_succ_cons, List.drop_succ_cons, List.take_zero, List.drop_zero]
  after_results
  rfl

/-- The second stretch leaves the rows taken at the stepped source words it finds. -/
theorem take_eq (X : Valuation τ sig (Elt Ideal)) :
    (StableHlo.after hostOps0_1 X (Proc.devRef .tc main_v47) : FVec Ideal S1600000x64 .f32)
      = takenOf (X (Proc.devRef .tc main_arg0)) (startCol (X (Proc.devRef .tc main_v1))) (inRangeCol (startCol (X (Proc.devRef .tc main_v1)))) := by
  rw [after_split 8 hostOps0_1 X, after_split 10 (hostOps0_1.drop 8)]
  rw [take_piece3_v47, take_piece2_v12, take_piece2_v5, take_piece2_arg0, take_piece1_v5, take_piece1_arg0]

/-! ### The rows taken, read at an edge whose source word is a row of the table -/

/-- An `and`-fold from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- An `and`-reduction from 1 is 1 at a result index all of whose operand entries are 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_one x _ fun i hi => hx i ?_
  simpa using (List.mem_filter.1 hi).2

/-- A word that is not negative is not stepped. -/
theorem wrapped_apply (x : IVec S1600000 32) (e : Fin 1600000) (h0 : 0 ≤ (x (ix1 e)).toInt) :
    wrapped x (ix1 e) = x (ix1 e) := by
  have hlt : IntOp.cmpi .slt (x (ix1 e)) 0#32 = 0#1 :=
    eq_zero_of_ne_one fun h => by
      rw [IntOp.cmpi_slt, show (0#32 : BitVec 32).toInt = 0 from by decide] at h
      omega
  show Scalar.select (IntOp.cmpi .slt (x (ix1 e)) 0#32) _ (x (ix1 e)) = _
  rw [hlt, select_zero]

/-- The column of start indices at (e, 0) is the stepped word of edge e. -/
theorem startCol_apply (x : IVec S1600000 32) (e : Fin 1600000) : startCol x (ix2 e 0) = wrapped x (ix1 e) := by
  unfold startCol
  refine broadcastInDim_apply _ _ _ _ (ix1 e) fun a => ?_
  match a with
  | ⟨0, _⟩ => exact (if_neg (show ¬ (1600000 : Nat) = 1 by decide)).symm

/-- A start index between 0 and 99999 is in range. -/
theorem inRangeCol_apply (s : IVec S1600000x1 32) (e : Fin 1600000) (h0 : 0 ≤ (s (ix2 e 0)).toInt)
    (h1 : (s (ix2 e 0)).toInt < 100000) : inRangeCol s (ix1 e) = 1#1 := by
  unfold inRangeCol
  refine reduce_andi_one _ _ _ _ _ rfl fun i hi => ?_
  have hi0 : (i 0).val = e.val :=
    (Shape.ReducesTo.drop_apply_val_of_eq reducesTo_S1600000x1_S1600000_d1 i 0 0).symm.trans
      (congrArg Fin.val (congrFun hi 0))
  have hi1 : (i 1).val = 0 := by
    have := idx2_lt1 i
    omega
  obtain rfl : i = ix2 e 0 := by
    funext a
    match a with
    | ⟨0, _⟩ => exact Fin.ext hi0
    | ⟨1, _⟩ => exact Fin.ext hi1
  have ha : IntOp.cmpi .sge (s (ix2 e 0)) 0#32 = 1#1 :=
    IntOp.cmpi_sge.2 (by rw [show (0#32 : BitVec 32).toInt = 0 from by decide]; exact h0)
  have hb : IntOp.cmpi .sle (s (ix2 e 0)) 99999#32 = 1#1 :=
    IntOp.cmpi_sle.2 (by rw [show (99999#32 : BitVec 32).toInt = 99999 from by decide]; omega)
  show IntOp.andi (IntOp.cmpi .sge (s (ix2 e 0)) 0#32) (IntOp.cmpi .sle (s (ix2 e 0)) 99999#32) = 1#1
  rw [ha, hb]
  decide

/-- The gather's dimension numbers are those of a gather of rows: 100000 rows of 64 columns, 1600000 start words. -/
theorem gatherDims_eq : gather_S100000x64_S1600000x1_S1600000x64_1_0_n_n_0_1_164
    = Cert.LibGatherRows.rowsDims 100000 1600000 64 gather_S100000x64_S1600000x1_S1600000x64_1_0_n_n_0_1_164.wf := rfl

/-- Where the mask is 1 the rows taken are the table's row the start index names. -/
theorem takenOf_apply (t : FVec Ideal S100000x64 .f32) (s : IVec S1600000x1 32) (m : IVec S1600000 1)
    (e : Fin 1600000) (j : Fin 64) (hm : m (ix1 e) = 1#1) :
    takenOf t s m (ix2 e j) = t (ix2 (Cert.LibGatherRows.rowOf 100000 (by decide) (s (ix2 e 0))) j) := by
  have hb : broadcastInDim S1600000x64 ![0] bcast_S1600000_S1600000x64_0 m (ix2 e j) = 1#1 := by
    rw [broadcastInDim_apply _ _ _ (ix2 e j) (ix1 e) (fun a => match a with | ⟨0, _⟩ => (if_neg (show ¬ (1600000 : Nat) = 1 by decide)).symm)]
    exact hm
  show Scalar.select (broadcastInDim S1600000x64 ![0] bcast_S1600000_S1600000x64_0 m (ix2 e j))
      (Host.gather gather_S100000x64_S1600000x1_S1600000x64_1_0_n_n_0_1_164 t s (ix2 e j)) _ = _
  rw [hb, select_one, gatherDims_eq]
  exact Cert.LibGatherRows.gather_rows_apply (by decide) _ t s e j

/-- The gathered source rows: at an edge whose source word is a row of the node table, that row. -/
theorem xsrc_apply (W : Valuation τ sig (Elt Ideal)) (e : Fin 1600000) (j : Fin 64)
    (h0 : 0 ≤ ((W (Proc.devRef .tc main_v1) : IVec S1600000 32) (ix1 e)).toInt)
    (h1 : ((W (Proc.devRef .tc main_v1) : IVec S1600000 32) (ix1 e)).toInt < 100000) :
    (StableHlo.after hostOps0_1 W (Proc.devRef .tc main_v47) : FVec Ideal S1600000x64 .f32) (ix2 e j)
      = (W (Proc.devRef .tc main_arg0) : FVec Ideal S100000x64 .f32)
          (ix2 (Cert.LibGatherRows.rowOf 100000 (by decide) ((W (Proc.devRef .tc main_v1) : IVec S1600000 32) (ix1 e))) j) := by
  have hs : startCol (W (Proc.devRef .tc main_v1)) (ix2 e 0) = (W (Proc.devRef .tc main_v1) : IVec S1600000 32) (ix1 e) := by
    rw [startCol_apply, wrapped_apply _ e h0]
  rw [take_eq, takenOf_apply _ _ _ e j (inRangeCol_apply _ e (by rw [hs]; exact h0) (by rw [hs]; exact h1)), hs]

end Cert.KernelIdeal.HostVals

end
-- ==== Proof.PreRange.lean ====
/-
  DECODING THE PRECONDITION. The precondition is a printed pure function of the seven argument arrays whose result
  is one bit: the conjunction of six "every entry is finite" tests and of one test on the edge table,
      every source word s (row 0 of the [2 × 1600000] edge table) satisfies 0 ≤ s and s < 100000, both read signed.
  The last test is printed as an and-reduction, over all 1600000 positions, of (s ≥ 0) ∧ (s < 100000), where s is the
  slice [0:1, 0:1600000] of the table reshaped to a vector. From "the result is 1" this file reads back the range of
  each source word:
    * a conjunction of bits that is 1 has both bits 1, so the last conjunct (the and-reduction) is 1;
    * an and-reduction into a single result that is 1 met a 1 at every position;
    * a signed comparison bit that is 1 is the inequality of the two words read as integers;
    * position e of the sliced and reshaped row is entry (0, e) of the table.
  Two corollaries read the same row through the reference's stages: its stage 1 at position e is entry (0, e), and its
  stage 54 (a negative word wrapped by adding the table height) is that word unchanged when the word is nonnegative.
-/
import proofs.«400719_j31138512896561_3_alg».proof.Defs
import proofs.«400719_j31138512896561_3_alg».proof.Proof.Gen.Pre_finite_inputs
import proofs.«400719_j31138512896561_3_alg».proof.Proof.Gen.ReferenceIdeal.Read
import Idealize.ShloMosaic.Lib.ReduceAll
import Idealize.ShloMosaic.Lib.StableHlo.Predicate
import Idealize.ShloMosaic.Lib.ValueIdx
import Idealize.ShloMosaic.Lib.Pipeline.Value

noncomputable section

namespace Cert.PreRange

open Idealize.ShloMosaic Idealize.ShloMosaic.ValueIdx Idealize.ShloMosaic.StableHlo
open Cert.Pre_finite_inputs

/-- The scalar shape has one index. -/
instance : Subsingleton S_.Idx := ⟨fun a b => funext fun d => d.elim0⟩

/-- Row 0 of the edge table, sliced out as a [1 × 1600000] rectangle and reshaped to a vector, reads at position e
    entry (0, e) of the table: the reshape keeps the row-major position (0 · 1600000 + e = e) and the slice starts
    at offset (0, 0). -/
theorem row0_read [Facts] (a1 : IVec S2x1600000 32) (e : Fin 1600000) :
    shapeCast S1600000 (extractStridedSlice S1x1600000 ![0, 0] a1 Facts.slices_S2x1600000_S1x1600000_0_0)
      Facts.shapeCasts_S1x1600000_S1600000 (ix1 e) = a1 (ix2 (0 : Fin 2) e) := by
  refine (shapeCast_apply _ Facts.shapeCasts_S1x1600000_S1600000 (ix1 e) (ix2 (0 : Fin 1) e) ?_).trans ?_
  · rewrite [Shape.rowMajor_val_two, Shape.rowMajor_val_one]
    show 0 * 1600000 + e.val = e.val
    omega
  · refine extractStridedSlice_apply ![0, 0] a1 Facts.slices_S2x1600000_S1x1600000_0_0 (ix2 (0 : Fin 1) e) (ix2 (0 : Fin 2) e) ?_
    intro a
    match a with
    | ⟨0, _⟩ => rfl
    | ⟨1, _⟩ => show e.val = 0 + e.val; omega

/-- The tail of the predicate, over any values of the names live at its head: if its result bit is 1 then at every
    position i the lower-bound bit v32 i is 1 and the word v34 i, read signed, is below 100000. The result is
    v28 ∧ (and-reduction of v32 ∧ (v34 < 100000)): the second conjunct is 1, so every reduced element is 1, and each
    element is itself a conjunction whose second bit is the signed comparison with the constant 100000. -/
theorem part2_decode [Facts] (v28 : IVec S_ 1) (v32 : IVec S1600000 1) (v34 : IVec S1600000 32)
    (h : fn_part2 (F := Ideal) v28 v32 v34 ix0 = 1#1) (i : S1600000.Idx) :
    v32 i = 1#1 ∧ (v34 i).toInt < 100000 := by
  dsimp only [fn_part2] at h
  have h38 := (IntOp.andi_eq_one.1 h).2
  have h37 := Host.reduce_andi_all _ _ _ _ _ h38 i
  obtain ⟨h32, h36⟩ := IntOp.andi_eq_one.1 h37
  refine ⟨h32, ?_⟩
  have hlt := IntOp.cmpi_slt.1 h36
  have hc : (100000#32 : BitVec 32).toInt = 100000 := by decide
  exact hc ▸ hlt

/-- THE RANGE OF EVERY SOURCE WORD. If the precondition's bit is 1 then each entry (0, e) of the edge table, read
    signed, lies in [0, 100000). Only the last conjunct is opened: the lower-bound bit is the signed comparison
    s ≥ 0 of the sliced row with the constant 0, the upper bound comes from the tail of the predicate. -/
theorem src_range [Facts] (a0 : FVec Ideal S100000x64 .f32) (a1 : IVec S2x1600000 32) (a2 : FVec Ideal S64x256 .f32)
    (a3 a4 : FVec Ideal S4x2 .f32) (a5 : FVec Ideal S64x64 .f32) (a6 : FVec Ideal S64 .f32)
    (h : Cert.Pre_finite_inputs.fn (F := Ideal) a0 a1 a2 a3 a4 a5 a6 = fun _ => 1#1) (e : Fin 1600000) :
    0 ≤ (a1 (ix2 (0 : Fin 2) e)).toInt ∧ (a1 (ix2 (0 : Fin 2) e)).toInt < 100000 := by
  have h0 := congrFun h ix0
  dsimp only [Cert.Pre_finite_inputs.fn, fn_part1] at h0
  obtain ⟨hge, hlt⟩ := part2_decode _ _ _ h0 (ix1 e)
  have hge' := IntOp.cmpi_sge.1 hge
  have hz : (0#32 : BitVec 32).toInt = 0 := by decide
  rw [row0_read a1 e] at hlt
  refine ⟨?_, hlt⟩
  rw [row0_read a1 e] at hge'
  have hb : (0#32 : BitVec 32).toInt ≤ (a1 (ix2 (0 : Fin 2) e)).toInt := hge'
  rw [hz] at hb
  exact hb

/-- The reference's stage 1 (row 0 sliced and reshaped to a vector) at position e is entry (0, e) of the table. -/
theorem src_word (x1 : IVec Cert.ReferenceIdeal.S2x1600000 32) (e : Fin 1600000) :
    Cert.ReferenceIdeal.Read.val_main_v1 (F := Ideal) x1 (ix1 e) = x1 (ix2 (0 : Fin 2) e) := by
  rw [Cert.ReferenceIdeal.Read.val_main_v1_apply, Cert.ReferenceIdeal.Read.val_main_v0_apply]
  refine congrArg x1 (funext fun a => ?_)
  match a with
  | ⟨0, _⟩ => rfl
  | ⟨1, _⟩ => exact Fin.ext (Nat.mod_eq_of_lt e.isLt)

/-- The reference's wrap of a negative index (select (s < 0) (s + 100000) s) leaves a nonnegative source word as
    it is: the comparison bit s < 0, read signed against the constant 0, is not 1. -/
theorem wrap_id (x1 : IVec Cert.ReferenceIdeal.S2x1600000 32) (e : Fin 1600000)
    (h0 : 0 ≤ (x1 (ix2 (0 : Fin 2) e)).toInt) :
    Cert.ReferenceIdeal.Read.val_main_v54 (F := Ideal) x1 (ix1 e) = Cert.ReferenceIdeal.Read.val_main_v1 (F := Ideal) x1 (ix1 e) := by
  rw [Cert.ReferenceIdeal.Read.val_main_v54_apply]
  have hn : ¬ Cert.ReferenceIdeal.Read.val_main_v51 (F := Ideal) x1 (ix1 e) = 1#1 := by
    rw [Cert.ReferenceIdeal.Read.val_main_v51_apply, IntOp.cmpi_slt, src_word x1 e,
      Cert.ReferenceIdeal.Read.val_main_v50_apply, Cert.ReferenceIdeal.Read.val_main_c_9_apply]
    have hz : (0#32 : BitVec 32).toInt = 0 := by decide
    rw [hz]
    omega
  unfold Scalar.select
  exact if_neg hn

end Cert.PreRange

end
-- ==== Proof.DegPos.lean ====
/-
  The degree the layer divides by is never zero: it is the larger of an edge count and one.
-/
import proofs.«400719_j31138512896561_3_alg».proof.Proof.Gen.ReferenceIdeal.Read
import Idealize.ShloMosaic.Lib.IdealHost
import Idealize.ShloMosaic.Lib.ValueIdx

noncomputable section

namespace Cert.DegPos

open Cert.ReferenceIdeal Cert.ReferenceIdeal.Read Idealize.ShloMosaic Idealize.ShloMosaic.ValueIdx

/-- The clipped degree of node n is at least one. -/
theorem one_le_deg (x1 : IVec S2x1600000 32) (n : Fin 100000) : (1 : EReal) ≤ val_main_v9 (F := Ideal) x1 (ix1 n) := by
  rw [val_main_v9_apply, val_main_v8_apply, val_main_cst_1_apply]
  show (1 : EReal) ≤ max _ (Ideal.ofBits .f32 0x3F800000#32)
  rw [Ideal.ofBits_one_f32]
  exact le_max_right _ _

/-- So it is not zero. -/
theorem deg_ne_zero (x1 : IVec S2x1600000 32) (n : Fin 100000) : val_main_v9 (F := Ideal) x1 (ix1 n) ≠ 0 := by
  intro h
  have h1 := one_le_deg x1 n
  rw [h] at h1
  exact absurd h1 (by norm_num)

end Cert.DegPos

end
-- ==== Proof.RefSpec.lean ====
/-
  The reference's arrangement of the same layer, over the extended reals, with no program in sight.

  The reference transforms every node row first and gathers afterwards, one mixture block at a time: for block k it
  adds, into node n, the rows of the edges whose destination word is n, each row being that edge's weight for the
  block times the transformed source row's block:
      seg_k(n, q) = Σ_{e : dst(e) = n} gw(e, k) · Σ_j x(row(src(e)), j) · g(j, 64·k + q),
  where row(w) is the table row a start word names (read signed, clamped into the table). The four blocks are added one
  after the other onto a zero table, each block's gathering itself starting from a zero table; the total is divided by
  the node's degree; the root transform, the bias, the clip at zero and the residual follow.
-/
import proofs.«400719_j31138512896561_3_alg».proof.Proof.Spec
import proofs.«400719_j31138512896561_3_alg».proof.Proof.LibGatherRows

noncomputable section

open scoped BigOperators

namespace Cert.Spec

open Idealize.ShloMosaic Idealize.ShloMosaic.ValueIdx Cert.LibGatherRows

/-- What mixture block k contributes to node n at feature q. -/
def refSeg (src dst : (⟨1, ![1600000]⟩ : Shape).Idx → BitVec 32) (gw : (⟨2, ![1600000, 4]⟩ : Shape).Idx → EReal)
    (x : (⟨2, ![100000, 64]⟩ : Shape).Idx → EReal) (g : (⟨2, ![64, 256]⟩ : Shape).Idx → EReal)
    (k : Fin 4) (n : Fin 100000) (q : Fin 64) : EReal :=
  ∑ e ∈ Finset.univ.filter (fun e : Fin 1600000 => (dst (ix1 e)).toInt = (n.val : Int)),
    gw (ix2 e k) * ∑ j : Fin 64, x (ix2 (rowOf 100000 (by decide) (src (ix1 e))) j) * g (ix2 j (col k q))

/-- The reference's result at node n, feature q. -/
def refAt (src dst : (⟨1, ![1600000]⟩ : Shape).Idx → BitVec 32) (gw : (⟨2, ![1600000, 4]⟩ : Shape).Idx → EReal)
    (deg : (⟨1, ![100000]⟩ : Shape).Idx → EReal)
    (x : (⟨2, ![100000, 64]⟩ : Shape).Idx → EReal) (g : (⟨2, ![64, 256]⟩ : Shape).Idx → EReal)
    (root : (⟨2, ![64, 64]⟩ : Shape).Idx → EReal) (bias : (⟨1, ![64]⟩ : Shape).Idx → EReal)
    (n : Fin 100000) (q : Fin 64) : EReal :=
  x (ix2 n q) + max ((Ideal.div
      ((((0 + (0 + refSeg src dst gw x g 0 n q)) + (0 + refSeg src dst gw x g 1 n q)) + (0 + refSeg src dst gw x g 2 n q))
        + (0 + refSeg src dst gw x g 3 n q))
      (deg (ix1 n)) + ∑ j : Fin 64, x (ix2 n j) * root (ix2 j q)) + bias (ix1 q)) 0

end Cert.Spec

end
-- ==== Proof.Bridge.lean ====
/-
  The two arrangements of the layer agree, over the extended reals, with no program in sight.

  One side weighs every edge's message by an indicator and sums over all edges; the other sums, mixture block by mixture
  block, over the edges that point at the node. An indicator times a value is the value or zero (no distributive law is
  asked of the extended reals: 1 · a = a and 0 · a = 0 hold for every a, the infinities included), so the indicator sum
  is the sum over the edges that point at the node; the message is itself a sum over the four blocks, and the two sums
  commute; zeros added on the left vanish. One side multiplies by the reciprocal degree 1 / d, the other divides by d:
  for d ≠ 0 both are the product with d⁻¹.
-/
import proofs.«400719_j31138512896561_3_alg».proof.Proof.Spec
import proofs.«400719_j31138512896561_3_alg».proof.Proof.RefSpec
import Idealize.ShloMosaic.PureOps.Ideal

noncomputable section

open scoped BigOperators

namespace Cert.Bridge

open Idealize.ShloMosaic Idealize.ShloMosaic.ValueIdx Cert.Spec Cert.LibGatherRows

/-- A 32-bit word is the numeral of a node number below 2³¹ exactly when it reads, signed, as that number. -/
theorem word_eq_iff (n : Nat) (hn : n < 2147483648) (w : BitVec 32) : BitVec.ofNat 32 n = w ↔ w.toInt = (n : Int) := by
  have hmod : n % 2 ^ 32 = n := Nat.mod_eq_of_lt (by omega)
  constructor
  · rintro rfl
    rw [BitVec.toInt_eq_toNat_cond, BitVec.toNat_ofNat, hmod]
    split <;> omega
  · intro h
    apply BitVec.eq_of_toInt_eq
    rw [h, BitVec.toInt_eq_toNat_cond, BitVec.toNat_ofNat, hmod]
    split <;> omega

/-- The indicator sum is the sum over the edges whose destination word reads as the node's number. -/
theorem agg_filter {E : Nat} (dstcol : (⟨2, ![E, 1]⟩ : Shape).Idx → BitVec 32) (dst : (⟨1, ![E]⟩ : Shape).Idx → BitVec 32)
    (hdst : ∀ e : Fin E, dstcol (ix2 e 0) = dst (ix1 e)) (f : Fin E → EReal) (n : Nat) (hn : n < 2147483648) :
    ∑ e : Fin E, hit dstcol n e * f e = ∑ e ∈ Finset.univ.filter (fun e : Fin E => (dst (ix1 e)).toInt = (n : Int)), f e := by
  rw [Finset.sum_filter]
  refine Finset.sum_congr rfl fun e _ => ?_
  unfold hit
  rw [hdst e]
  by_cases h : (dst (ix1 e)).toInt = (n : Int)
  · rw [if_pos ((word_eq_iff n hn _).2 h), if_pos h, one_mul]
  · rw [if_neg (fun h' => h ((word_eq_iff n hn _).1 h')), if_neg h, zero_mul]

/-- Multiplying by the reciprocal 1 / d is dividing by d, for d ≠ 0. -/
theorem mul_recip (a d : EReal) (hd : d ≠ 0) : a * Ideal.div 1 d = Ideal.div a d := by
  unfold Ideal.div
  rw [if_neg hd, if_neg hd, one_mul]

/-- THE BRIDGE: the kernel's arrangement at node n, feature q — indicator sum of the messages, times the reciprocal degree,
    finished — is the reference's. -/
theorem layer_eq (src dst : (⟨1, ![1600000]⟩ : Shape).Idx → BitVec 32)
    (dstcol : (⟨2, ![1600000, 1]⟩ : Shape).Idx → BitVec 32)
    (gw : (⟨2, ![1600000, 4]⟩ : Shape).Idx → EReal) (deg : (⟨1, ![100000]⟩ : Shape).Idx → EReal)
    (x : (⟨2, ![100000, 64]⟩ : Shape).Idx → EReal) (g : (⟨2, ![64, 256]⟩ : Shape).Idx → EReal)
    (root : (⟨2, ![64, 64]⟩ : Shape).Idx → EReal) (bias : (⟨1, ![64]⟩ : Shape).Idx → EReal)
    (xs : (⟨2, ![1600000, 64]⟩ : Shape).Idx → EReal) (inv : (⟨2, ![100000, 1]⟩ : Shape).Idx → EReal)
    (hdst : ∀ e : Fin 1600000, dstcol (ix2 e 0) = dst (ix1 e))
    (hxs : ∀ (e : Fin 1600000) (j : Fin 64), xs (ix2 e j) = x (ix2 (rowOf 100000 (by decide) (src (ix1 e))) j))
    (hinv : ∀ n : Fin 100000, inv (ix2 n 0) = Ideal.div 1 (deg (ix1 n)))
    (hdeg : ∀ n : Fin 100000, deg (ix1 n) ≠ 0)
    (n : Fin 100000) (q : Fin 64) :
    finishAt (aggAt dstcol (msgArr xs gw g) n.val q) x inv root bias n q = refAt src dst gw deg x g root bias n q := by
  have hagg : aggAt dstcol (msgArr xs gw g) n.val q
      = (((0 + (0 + refSeg src dst gw x g 0 n q)) + (0 + refSeg src dst gw x g 1 n q)) + (0 + refSeg src dst gw x g 2 n q))
        + (0 + refSeg src dst gw x g 3 n q) := by
    unfold aggAt
    rw [agg_filter dstcol dst hdst (fun e => msgArr xs gw g (ix2 e q)) n.val (by have := n.isLt; omega)]
    simp only [zero_add]
    have hmsg : ∀ e : Fin 1600000, msgArr xs gw g (ix2 e q)
        = ∑ k : Fin 4, gw (ix2 e k) * ∑ j : Fin 64, x (ix2 (rowOf 100000 (by decide) (src (ix1 e))) j) * g (ix2 j (col k q)) := by
      intro e
      show msgAt xs gw g e q = _
      unfold msgAt
      exact Finset.sum_congr rfl fun k _ => congrArg (gw (ix2 e k) * ·) (Finset.sum_congr rfl fun j _ => by rw [hxs e j])
    rw [Finset.sum_congr rfl fun e _ => hmsg e, Finset.sum_comm, Fin.sum_univ_four]
    rfl
  unfold finishAt refAt
  rw [hagg, hinv n, mul_recip _ _ (hdeg n)]

end Cert.Bridge

end
-- ==== Proof.KIValue.lean ====
/-
  The kernel program's result, entry by entry, is the reference's closed form of the same arguments.

  The gathering kernel's result array is the finishing step applied to the indicator sum of the message table; the
  message table is the message kernel's array of the gathered source rows and the mixture weights; those, the reciprocal
  degrees and the destination words are what the host operations before the kernels compute from the arguments — the
  mixture weights, the degree and the destination words by the very operations the reference uses, the gathered rows, with
  every source word inside the node table (the precondition), the table's rows at the source words. With these in place the
  two arrangements agree by the bridge between them.
-/
import proofs.«400719_j31138512896561_3_alg».proof.Proof.KIRun
import proofs.«400719_j31138512896561_3_alg».proof.Proof.KIMsgValue
import proofs.«400719_j31138512896561_3_alg».proof.Proof.KIOutValue
import proofs.«400719_j31138512896561_3_alg».proof.Proof.KIHost
import proofs.«400719_j31138512896561_3_alg».proof.Proof.PreRange
import proofs.«400719_j31138512896561_3_alg».proof.Proof.DegPos
import proofs.«400719_j31138512896561_3_alg».proof.Proof.Bridge
import proofs.«400719_j31138512896561_3_alg».proof.Proof.RefSpec
import proofs.«400719_j31138512896561_3_alg».proof.Defs

set_option maxRecDepth 16384

noncomputable section

namespace Cert.KernelIdeal.Value

open Cert.KernelIdeal Cert.KernelIdeal.Gen Cert.KernelIdeal.Frame Cert.KernelIdeal.HostVals
open Idealize.ShloMosaic Idealize.ShloMosaic.TcCoe Idealize.ShloMosaic.ValueIdx Idealize.SL.Sem

variable (m : (ℓ : Loc nD τ sig) → Buf (Elt Ideal) ℓ) (ρ : Dev nD → PrngReg)

/-- The seven argument arrays on core c. -/
abbrev a0 (c : Dev nD) : FVec Ideal S100000x64 .f32 := m ((c.tc : Thread nD τ).loc main_arg0)
abbrev a1 (c : Dev nD) : IVec S2x1600000 32 := m ((c.tc : Thread nD τ).loc main_arg1)
abbrev a2 (c : Dev nD) : FVec Ideal S64x256 .f32 := m ((c.tc : Thread nD τ).loc main_arg2)
abbrev a3 (c : Dev nD) : FVec Ideal S4x2 .f32 := m ((c.tc : Thread nD τ).loc main_arg3)
abbrev a4 (c : Dev nD) : FVec Ideal S4x2 .f32 := m ((c.tc : Thread nD τ).loc main_arg4)
abbrev a5 (c : Dev nD) : FVec Ideal S64x64 .f32 := m ((c.tc : Thread nD τ).loc main_arg5)
abbrev a6 (c : Dev nD) : FVec Ideal S64 .f32 := m ((c.tc : Thread nD τ).loc main_arg6)

/-- The message table the gathering kernel is entered with is the message kernel's array. -/
theorem msg_entry (c : Dev nD) :
    V4 m ρ c main_v48 = Cert.Spec.msgArr (V2 m ρ c main_v47) (V2 m ρ c main_v46) (V2 m ρ c main_arg2) :=
  (W4_of m ρ c main_v48 (by decide)).trans ((W3_arr m ρ c 3).trans (Cert.KernelIdeal.MsgValue.msg_array (V2 m ρ) c))

theorem x_entry (c : Dev nD) : V4 m ρ c main_arg0 = a0 m c :=
  W4_launch m ρ c main_arg0 (by decide) (by decide) (by decide) (by decide)
theorem root_entry (c : Dev nD) : V4 m ρ c main_arg5 = a5 m c :=
  W4_launch m ρ c main_arg5 (by decide) (by decide) (by decide) (by decide)
theorem bias_entry (c : Dev nD) : V4 m ρ c main_arg6 = a6 m c :=
  W4_launch m ρ c main_arg6 (by decide) (by decide) (by decide) (by decide)
theorem g_entry (c : Dev nD) : V2 m ρ c main_arg2 = a2 m c :=
  (W2_of m ρ c main_arg2 (by decide)).trans ((W1_of m ρ c main_arg2 (by decide)).trans rfl)

/-- The mixture weights the message kernel reads are the reference's stage of the same arguments. -/
theorem gw_entry (c : Dev nD) :
    V2 m ρ c main_v46 = Cert.ReferenceIdeal.Read.val_main_v43 (F := Ideal) (a1 m c) (a3 m c) (a4 m c) :=
  (W2_of m ρ c main_v46 (by decide)).trans (gw_eq (W0 m ρ c))

/-- The destination column the gathering kernel reads holds the reference's destination words. -/
theorem dst_entry (c : Dev nD) (e : Fin 1600000) :
    V4 m ρ c main_v49 (ix2 e 0) = Cert.ReferenceIdeal.Read.val_main_v3 (F := Ideal) (a1 m c) (ix1 e) := by
  refine (dst2_apply (W3 m ρ c) e).trans ?_
  rw [W3_of_ne m ρ c main_v3 (by decide), W2_of m ρ c main_v3 (by decide)]
  exact congrFun (dst_eq (W0 m ρ c)) (ix1 e)

/-- The reciprocal degrees the gathering kernel reads are one over the reference's degrees. -/
theorem inv_entry (c : Dev nD) (n : Fin 100000) :
    V4 m ρ c main_v13 (ix2 n 0) = Ideal.div 1 (Cert.ReferenceIdeal.Read.val_main_v9 (F := Ideal) (a1 m c) (ix1 n)) := by
  have h : V4 m ρ c main_v13 = W1 m ρ c (Proc.devRef .tc main_v13) :=
    (W4_of m ρ c main_v13 (by decide)).trans ((W3_of_ne m ρ c main_v13 (by decide)).trans (W2_of m ρ c main_v13 (by decide)))
  rw [h]
  exact invdeg_apply (W0 m ρ c) n

/-- Under the precondition the gathered source rows are the node table's rows at the reference's source words. -/
theorem xs_entry [Cert.Pre_finite_inputs.Facts] (hpre : Cert.Pre_KernelIdeal m) (c : Dev nD) (e : Fin 1600000) (j : Fin 64) :
    V2 m ρ c main_v47 (ix2 e j)
      = a0 m c (ix2 (Cert.LibGatherRows.rowOf 100000 (by decide)
          (Cert.ReferenceIdeal.Read.val_main_v54 (F := Ideal) (a1 m c) (ix1 e))) j) := by
  have hr := Cert.PreRange.src_range _ _ _ _ _ _ _ (hpre c) e
  have hs : (W1 m ρ c (Proc.devRef .tc main_v1) : IVec S1600000 32) (ix1 e) = a1 m c (ix2 (0 : Fin 2) e) :=
    (congrFun (src_eq (W0 m ρ c)) (ix1 e)).trans (Cert.PreRange.src_word (a1 m c) e)
  have hx := xsrc_apply (W1 m ρ c) e j (by rw [hs]; exact hr.1) (by rw [hs]; exact hr.2)
  refine hx.trans ?_
  rw [hs, Cert.PreRange.wrap_id (a1 m c) e hr.1, Cert.PreRange.src_word (a1 m c) e]
  exact congrFun (W1_of m ρ c main_arg0 (by decide)) _

/-- THE KERNEL'S RESULT at node n, feature q, is the reference's closed form. -/
theorem result_apply [Cert.Pre_finite_inputs.Facts] (hpre : Cert.Pre_KernelIdeal m) (c : Dev nD) (n : Fin 100000) (q : Fin 64) :
    (dat1 (F := Ideal) (V4 m ρ) c).arrAt 6 cfg1.N (ix2 n q)
      = Cert.Spec.refAt (Cert.ReferenceIdeal.Read.val_main_v54 (F := Ideal) (a1 m c))
          (Cert.ReferenceIdeal.Read.val_main_v3 (F := Ideal) (a1 m c))
          (Cert.ReferenceIdeal.Read.val_main_v43 (F := Ideal) (a1 m c) (a3 m c) (a4 m c))
          (Cert.ReferenceIdeal.Read.val_main_v9 (F := Ideal) (a1 m c)) (a0 m c) (a2 m c) (a5 m c) (a6 m c) n q := by
  rw [Cert.KernelIdeal.OutValue.out_array (V4 m ρ) c]
  show Cert.Spec.finishAt (Cert.Spec.aggAt (V4 m ρ c main_v49) (V4 m ρ c main_v48) n.val q) (V4 m ρ c main_arg0)
    (V4 m ρ c main_v13) (V4 m ρ c main_arg5) (V4 m ρ c main_arg6) n q = _
  rw [msg_entry m ρ c, x_entry m ρ c, root_entry m ρ c, bias_entry m ρ c, g_entry m ρ c, gw_entry m ρ c]
  exact Cert.Bridge.layer_eq _ _ (V4 m ρ c main_v49) _ _ (a0 m c) (a2 m c) (a5 m c) (a6 m c) (V2 m ρ c main_v47) (V4 m ρ c main_v13)
    (dst_entry m ρ c) (xs_entry m ρ hpre c) (inv_entry m ρ c) (Cert.DegPos.deg_ne_zero (a1 m c)) n q

end Cert.KernelIdeal.Value

end
-- ==== Proof.LibScatterRows.lean ====
/-
  A scatter-add of rows read at an index.

  Updates [E, C] are added into a table [N, C], update row e into the table row its index word names (read as a
  signed integer, not clamped: a word that names no row drops its update). Over the extended reals the result at
  (n, q) is the table's entry plus the sum, over the update rows e whose word is n, of the update's entry (e, q).
  Nothing here depends on a program: the extents are variables.
-/
import Idealize.ShloMosaic.PureOps.Ideal
import Idealize.ShloMosaic.Lib.ValueIdx

noncomputable section

open scoped BigOperators

namespace Cert.LibScatterRows

open Idealize.ShloMosaic Idealize.ShloMosaic.ValueIdx

/-- Dimension numbers of a scatter of rows: table [N, C], one index word per update row, updates [E, C]. -/
abbrev addRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## The landing place of one update element

For these dimension numbers the only scattered axis of the table is axis 0 and the only window axis is axis 1:
the start of update element j is (word of row j₀, 0) and its window coordinate is (0, j₁). -/

/-- On the row axis the start is the index word of the update's row, read signed. -/
theorem start_row {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (addRowsDims N E C wf).start j idx 0 = (idx (ix2 (j 0) 0)).toInt := by
  unfold ScatterDims.start
  rw [dif_pos (show (0 : Fin 2) ∈ (addRowsDims N E C wf).scatterDimsToOperandDims from List.mem_singleton.mpr rfl)]
  -- the word is read at (j₀, 0): the update's row on the kept axis, component 0 on the index vector's axis
  have hsi : (addRowsDims N E C wf).siIdx j ⟨List.idxOf (0 : Fin 2) (addRowsDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis, which no index word addresses, the start is 0. -/
theorem start_col {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (addRowsDims N E C wf).start j idx 1 = 0 := by
  unfold ScatterDims.start
  rw [dif_neg (show ¬ (1 : Fin 2) ∈ (addRowsDims N E C wf).scatterDimsToOperandDims from
    (show ¬ (1 : Fin 2) ∈ ([0] : List (Fin 2)) by decide))]

/-- The row axis is an inserted window axis: the window coordinate there is 0. -/
theorem window_row {N E C : Nat} (wf : ScatterDims.WF ⟨2, ![N, C]⟩ ⟨2, ![E, 1]⟩ ⟨2, ![E, C]⟩ [1] [0] [0] 1)
    (j : (⟨2, ![E, C]⟩ : Shape).Idx) :
    (addRowsDims N E C wf).window j 0 = 0 := by
  unfold ScatterDims.window
  rw [dif_neg (show ¬ (0 : Fin 2) ∈ (addRowsDims N E C wf).sKept from
    (show ¬ (0 : Fin 2) ∈ (List.finRange 2).filter (fun a : Fin 2 => a ∉ ([0] : List (Fin 2))) by decide))]

/-- The column axis is the one kept axis: the window coordinate there is the update's column. -/
theorem window_col {N E C : Nat} (wf : ScatterDims.WF ⟨2, ![N, C]⟩ ⟨2, ![E, 1]⟩ ⟨2, ![E, C]⟩ [1] [0] [0] 1)
    (j : (⟨2, ![E, C]⟩ : Shape).Idx) :
    (addRowsDims N E C wf).window j 1 = (j 1).val := by
  unfold ScatterDims.window
  rw [dif_pos (show (1 : Fin 2) ∈ (addRowsDims N E C wf).sKept from
    (show (1 : Fin 2) ∈ (List.finRange 2).filter (fun a : Fin 2 => a ∉ ([0] : List (Fin 2))) by decide))]
  rfl

/-- Update element j lands on table element i exactly when the word of j's row, read signed, is i's row and the
    two columns agree. (A word outside [0, N) names no row: the element lands nowhere, and the right side fails
    for every i.) -/
theorem resultIdx_rows_iff {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx) :
    (addRowsDims N E C wf).resultIdx? j idx = some i
      ↔ (idx (ix2 (j 0) 0)).toInt = ((i 0).val : Int) ∧ j 1 = i 1 := by
  have hi0 : (i 0).val < N := idx2_lt0 i
  have hj1 : (j 1).val < C := idx2_lt1 j
  unfold ScatterDims.resultIdx?
  split
  · -- start + window is inside the table on both axes: compare it with i axis by axis
    rename_i h
    rw [Option.some.injEq]
    constructor
    · intro heq
      have e0 := congrArg Fin.val (congrFun heq 0)
      have e1 := congrArg Fin.val (congrFun heq 1)
      have h0 := (h 0).1
      simp only [start_row, window_row, start_col, window_col] at e0 e1 h0
      refine ⟨by omega, Fin.ext (by omega)⟩
    · rintro ⟨hn, hq⟩
      funext a
      refine Fin.ext ?_
      revert a
      rw [Fin.forall_fin_two]
      simp only [start_row, window_row, start_col, window_col]
      refine ⟨by omega, by rw [hq]; omega⟩
  · -- it leaves the table on some axis: then the word cannot be a row of the table
    rename_i h
    constructor
    · intro heq; cases heq
    · rintro ⟨hn, hq⟩
      exfalso
      apply h
      rw [Fin.forall_fin_two]
      simp only [start_row, window_row, start_col, window_col]
      refine ⟨⟨by omega, ?_⟩, ⟨by omega, ?_⟩⟩
      · show _ < (N : Int); omega
      · show _ < (C : Int); omega

/-! ## The sum over the landing update elements -/

/-- The accumulating scatter at (n, q): the table's entry plus the updates of the rows whose word is n. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (q : Fin C) :
    Ideal.hostScatterAdd (addRowsDims N E C wf) x idx upd (ix2 n q)
      = x (ix2 n q) + ∑ e ∈ Finset.univ.filter (fun e : Fin E => (idx (ix2 e 0)).toInt = (n.val : Int)), upd (ix2 e q) := by
  unfold Ideal.hostScatterAdd
  congr 1
  -- the update elements landing on (n, q) are the (e, q) with word(e) = n: re-index the sum by the row e
  have key : ∀ j : (⟨2, ![E, C]⟩ : Shape).Idx,
      (addRowsDims N E C wf).resultIdx? j idx = some (ix2 n q)
        ↔ (idx (ix2 (⟨(j 0).val, idx2_lt0 j⟩ : Fin E) 0)).toInt = (n.val : Int) ∧ j 1 = q :=
    fun j => resultIdx_rows_iff wf idx j (ix2 n q)
  refine Finset.sum_nbij' (fun j => (⟨(j 0).val, idx2_lt0 j⟩ : Fin E)) (fun e => ix2 e q) ?_ ?_ ?_ ?_ ?_
  · intro j hj
    exact Finset.mem_filter.mpr ⟨Finset.mem_univ _, ((key j).mp (Finset.mem_filter.mp hj).2).1⟩
  · intro e he
    exact Finset.mem_filter.mpr ⟨Finset.mem_univ _, (key (ix2 e q)).mpr ⟨(Finset.mem_filter.mp he).2, rfl⟩⟩
  · intro j hj
    have hq : j 1 = q := ((key j).mp (Finset.mem_filter.mp hj).2).2
    rw [← hq]
    exact (eq_ix2 j).symm
  · intro e _
    rfl
  · intro j hj
    have hq : j 1 = q := ((key j).mp (Finset.mem_filter.mp hj).2).2
    rw [← hq]
    exact congrArg upd (eq_ix2 j)

end Cert.LibScatterRows

end
-- ==== Proof.RefRead.lean ====
/-
  The reference read at an index, over the extended reals.

  The reference's result at node n, feature q, read one operation at a time: the transformed table's cell (r, k) is
  row r of x against block k of g; block k's index pairs are (wrapped source word, k), its gathered rows are scaled by
  the edge's weight for the block and added into the rows their destination words name; the four blocks are added
  onto a zero table, the total is divided by the degree, and the root transform, the bias, the clip at zero and the
  residual follow. The degree and the mixture weights are kept as they are computed, not opened.
-/
import proofs.«400719_j31138512896561_3_alg».proof.Proof.Gen.ReferenceIdeal.Read
import proofs.«400719_j31138512896561_3_alg».proof.Proof.RefSpec
import proofs.«400719_j31138512896561_3_alg».proof.Proof.LibGatherRows
import proofs.«400719_j31138512896561_3_alg».proof.Proof.LibScatterRows
import Idealize.ShloMosaic.Lib.ValueIdx
import Idealize.ShloMosaic.Lib.Pipeline.Value
import Idealize.ShloMosaic.PureOps.Ideal.Laws

noncomputable section

open scoped BigOperators

namespace Cert.ReferenceIdeal.RefRead

open Cert.ReferenceIdeal Cert.ReferenceIdeal.Gen Cert.ReferenceIdeal.Read Idealize.ShloMosaic Idealize.ShloMosaic.ValueIdx
  Cert.LibGatherRows Cert.LibScatterRows Cert.Spec

/-- The gather's printed dimension numbers are the cell gather's. -/
theorem gatherDims_eq :
    gather_S100000x4x64_S1600000x2_S1600000x64_1_01_n_n_01_1_1164
      = cellDims 100000 4 1600000 64 Facts₀.gather_S100000x4x64_S1600000x2_S1600000x64_1_01_n_n_01_1_1164_wf := rfl

/-- The scatter's printed dimension numbers are the row scatter's. -/
theorem scatterDims_eq :
    scatter_S100000x64_S1600000x1_S1600000x64_1_0_0_1
      = addRowsDims 100000 1600000 64 Facts₀.scatter_S100000x64_S1600000x1_S1600000x64_1_0_0_1_wf := rfl

/-- The transformed table, cell (r, k), feature q: row r of x against column 64·k + q of g. -/
theorem table_apply (x0 : (⟨S100000x64, .f32⟩ : BufTy).Contents (Elt Ideal)) (x2 : (⟨S64x256, .f32⟩ : BufTy).Contents (Elt Ideal))
    (r : Fin 100000) (k : Fin 4) (q : Fin 64) :
    val_main_v45 (F := Ideal) x0 x2 (ix3 r k q) = ∑ j : Fin 64, x0 (ix2 r j) * x2 (ix2 j (col k q)) := by
  rw [val_main_v45_apply, val_main_v44_apply]
  refine Finset.sum_congr rfl fun j _ => ?_
  have hl : lidx_main_v44 (idx_main_v45 (ix3 r k q)) j = ix2 r j := funext fun a => Fin.ext (by
    match a with
    | ⟨0, _⟩ =>
      have h0 := r.isLt; have h1 := k.isLt; have h2 := q.isLt
      show ((r.val * 4 + k.val) * 64 + q.val) / 256 = r.val
      omega
    | ⟨1, _⟩ => rfl)
  have hr : ridx_main_v44 (idx_main_v45 (ix3 r k q)) j = ix2 j (col k q) := funext fun a => Fin.ext (by
    match a with
    | ⟨0, _⟩ => rfl
    | ⟨1, _⟩ =>
      have h0 := r.isLt; have h1 := k.isLt; have h2 := q.isLt
      show ((r.val * 4 + k.val) * 64 + q.val) % 256 = 64 * k.val + q.val
      omega)
  rw [hl, hr]

/-- A scatter-add of rows onto a zero table whose update row e is edge e's weight for block k times the transformed
    source row's block k: at (n, q) it is zero plus block k's contribution to node n. -/
theorem seg_of_scatter (k : Fin 4) (z : FVec Ideal S100000x64 .f32) (dstc : IVec S1600000x1 32) (upd : FVec Ideal S1600000x64 .f32)
    (src dst : S1600000.Idx → BitVec 32) (gw : S1600000x4.Idx → EReal) (x : S100000x64.Idx → EReal) (g : S64x256.Idx → EReal)
    (n : Fin 100000) (q : Fin 64)
    (hz : z (ix2 n q) = (0 : EReal)) (hd : ∀ e : Fin 1600000, dstc (ix2 e 0) = dst (ix1 e))
    (hupd : ∀ e : Fin 1600000, upd (ix2 e q)
      = gw (ix2 e k) * ∑ j : Fin 64, x (ix2 (rowOf 100000 (by decide) (src (ix1 e))) j) * g (ix2 j (col k q))) :
    Host.scatterAdd (F := Ideal) scatter_S100000x64_S1600000x1_S1600000x64_1_0_0_1 z dstc upd (ix2 n q)
      = (0 : EReal) + refSeg src dst gw x g k n q := by
  show Ideal.hostScatterAdd scatter_S100000x64_S1600000x1_S1600000x64_1_0_0_1 z dstc upd (ix2 n q) = _
  rw [scatterDims_eq, scatterAdd_rows_apply, hz]
  unfold refSeg
  simp only [hd]
  exact congrArg _ (Finset.sum_congr rfl fun e _ => hupd e)

/-- The first index word of block 0 at edge e: the wrapped source word. -/
theorem pair0_src (x1 : (⟨S2x1600000, .i32⟩ : BufTy).Contents (Elt Ideal)) (e : Fin 1600000) :
    val_main_v59 (F := Ideal) x1 (ix2 e 0) = val_main_v54 (F := Ideal) x1 (ix1 e) := by
  unfold val_main_v59
  rw [concatenate_pair_apply_left (s₁ := S1600000x1) (s₂ := S1600000x1) (1 : Fin S1600000x2.rank) _ _ _ (ix2 e 0) rfl
    (ix2 e 0) (fun b => by match b with | ⟨0, _⟩ => rfl | ⟨1, _⟩ => rfl), val_main_v57_apply]
  exact congrArg _ (funext fun a => Fin.ext (by match a with | ⟨0, _⟩ => rfl))

/-- The second index word of block 0 at edge e: the constant word 0. -/
theorem pair0_blk (x1 : (⟨S2x1600000, .i32⟩ : BufTy).Contents (Elt Ideal)) (e : Fin 1600000) :
    val_main_v59 (F := Ideal) x1 (ix2 e 1) = 0#32 := by
  unfold val_main_v59
  rw [concatenate_pair_apply_right (s₁ := S1600000x1) (s₂ := S1600000x1) (1 : Fin S1600000x2.rank) _ _ _ (ix2 e 1) rfl rfl
    (ix2 e 0) (fun b hb => by
      match b with
      | ⟨0, _⟩ => rfl
      | ⟨1, _⟩ => exact absurd rfl hb) rfl,
    val_main_v58_apply, val_main_v56_apply, val_main_v55_apply, val_main_c_11_apply]

/-- The mixture weight spread along row e of block 0: edge e's weight for block 0. -/
theorem weight0 (x1 : (⟨S2x1600000, .i32⟩ : BufTy).Contents (Elt Ideal)) (x3 x4 : (⟨S4x2, .f32⟩ : BufTy).Contents (Elt Ideal))
    (e : Fin 1600000) (q : Fin 64) :
    val_main_v61 (F := Ideal) x1 x3 x4 (ix2 e q) = val_main_v43 (F := Ideal) x1 x3 x4 (ix2 e 0) := by
  rw [val_main_v61_apply, val_main_v49_apply, val_main_v48_apply, val_main_v47_apply]
  exact congrArg _ (funext fun a => Fin.ext (by
    match a with
    | ⟨0, _⟩ => exact Nat.div_one _
    | ⟨1, _⟩ => rfl))

/-- The gathered row of block 0 at edge e, feature q: the source row of x against column q of g's block 0. -/
theorem gather0 (x0 : (⟨S100000x64, .f32⟩ : BufTy).Contents (Elt Ideal)) (x1 : (⟨S2x1600000, .i32⟩ : BufTy).Contents (Elt Ideal))
    (x2 : (⟨S64x256, .f32⟩ : BufTy).Contents (Elt Ideal)) (e : Fin 1600000) (q : Fin 64) :
    val_main_v60 (F := Ideal) x0 x1 x2 (ix2 e q)
      = ∑ j : Fin 64, x0 (ix2 (rowOf 100000 (by decide) (val_main_v54 (F := Ideal) x1 (ix1 e))) j) * x2 (ix2 j (col 0 q)) := by
  unfold val_main_v60
  rw [gatherDims_eq, gather_cell_apply (by decide) (by decide), pair0_src, pair0_blk, table_apply]
  have hk : rowOf 4 (by decide) (0#32 : BitVec 32) = (0 : Fin 4) := by decide
  rw [hk]

/-- The zero table block 0's gathering starts from. -/
theorem zero0 (i : S100000x64.Idx) : val_main_v63 (F := Ideal) i = (0 : EReal) := by
  rw [val_main_v63_apply, val_main_cst_12_apply, Ideal.ofBits_def, Ideal.ofBits_zero_f32]

/-- The destination index word of block 0 at edge e: the destination word. -/
theorem dst0 (x1 : (⟨S2x1600000, .i32⟩ : BufTy).Contents (Elt Ideal)) (e : Fin 1600000) :
    val_main_v64 (F := Ideal) x1 (ix2 e 0) = val_main_v3 (F := Ideal) x1 (ix1 e) := by
  rw [val_main_v64_apply]
  exact congrArg _ (funext fun a => Fin.ext (by match a with | ⟨0, _⟩ => rfl))

/-- Block 0's gathering at (n, q): zero plus block 0's contribution to node n. -/
theorem seg0 (x0 : (⟨S100000x64, .f32⟩ : BufTy).Contents (Elt Ideal)) (x1 : (⟨S2x1600000, .i32⟩ : BufTy).Contents (Elt Ideal))
    (x2 : (⟨S64x256, .f32⟩ : BufTy).Contents (Elt Ideal)) (x3 x4 : (⟨S4x2, .f32⟩ : BufTy).Contents (Elt Ideal))
    (n : Fin 100000) (q : Fin 64) :
    val_main_v65 (F := Ideal) x0 x1 x2 x3 x4 (ix2 n q)
      = (0 : EReal) + refSeg (val_main_v54 (F := Ideal) x1) (val_main_v3 (F := Ideal) x1) (val_main_v43 (F := Ideal) x1 x3 x4) x0 x2 0 n q := by
  unfold val_main_v65
  exact seg_of_scatter 0 _ _ _ _ _ _ _ _ n q (zero0 _) (dst0 x1)
    (fun e => by rw [val_main_v62_apply, Ideal.mulf_def, weight0, gather0])

/-- Block 1 wraps the source words as block 0 does: the same words. -/
theorem src1_eq (x1 : (⟨S2x1600000, .i32⟩ : BufTy).Contents (Elt Ideal)) : val_main_v74 (F := Ideal) x1 = val_main_v54 (F := Ideal) x1 := rfl

/-- The first index word of block 1 at edge e: the wrapped source word. -/
theorem pair1_src (x1 : (⟨S2x1600000, .i32⟩ : BufTy).Contents (Elt Ideal)) (e : Fin 1600000) :
    val_main_v79 (F := Ideal) x1 (ix2 e 0) = val_main_v54 (F := Ideal) x1 (ix1 e) := by
  unfold val_main_v79
  rw [concatenate_pair_apply_left (s₁ := S1600000x1) (s₂ := S1600000x1) (1 : Fin S1600000x2.rank) _ _ _ (ix2 e 0) rfl
    (ix2 e 0) (fun b => by match b with | ⟨0, _⟩ => rfl | ⟨1, _⟩ => rfl), val_main_v77_apply, src1_eq]
  exact congrArg _ (funext fun a => Fin.ext (by match a with | ⟨0, _⟩ => rfl))

/-- The second index word of block 1 at edge e: the constant word 1. -/
theorem pair1_blk (x1 : (⟨S2x1600000, .i32⟩ : BufTy).Contents (Elt Ideal)) (e : Fin 1600000) :
    val_main_v79 (F := Ideal) x1 (ix2 e 1) = 1#32 := by
  unfold val_main_v79
  rw [concatenate_pair_apply_right (s₁ := S1600000x1) (s₂ := S1600000x1) (1 : Fin S1600000x2.rank) _ _ _ (ix2 e 1) rfl rfl
    (ix2 e 0) (fun b hb => by
      match b with
      | ⟨0, _⟩ => rfl
      | ⟨1, _⟩ => exact absurd rfl hb) rfl,
    val_main_v78_apply, val_main_v76_apply, val_main_v75_apply, val_main_c_15_apply]

/-- The mixture weight spread along row e of block 1: edge e's weight for block 1. -/
theorem weight1 (x1 : (⟨S2x1600000, .i32⟩ : BufTy).Contents (Elt Ideal)) (x3 x4 : (⟨S4x2, .f32⟩ : BufTy).Contents (Elt Ideal))
    (e : Fin 1600000) (q : Fin 64) :
    val_main_v81 (F := Ideal) x1 x3 x4 (ix2 e q) = val_main_v43 (F := Ideal) x1 x3 x4 (ix2 e 1) := by
  rw [val_main_v81_apply, val_main_v69_apply, val_main_v68_apply, val_main_v67_apply]
  exact congrArg _ (funext fun a => Fin.ext (by
    match a with
    | ⟨0, _⟩ => exact Nat.div_one _
    | ⟨1, _⟩ => rfl))

/-- The gathered row of block 1 at edge e, feature q: the source row of x against column q of g's block 1. -/
theorem gather1 (x0 : (⟨S100000x64, .f32⟩ : BufTy).Contents (Elt Ideal)) (x1 : (⟨S2x1600000, .i32⟩ : BufTy).Contents (Elt Ideal))
    (x2 : (⟨S64x256, .f32⟩ : BufTy).Contents (Elt Ideal)) (e : Fin 1600000) (q : Fin 64) :
    val_main_v80 (F := Ideal) x0 x1 x2 (ix2 e q)
      = ∑ j : Fin 64, x0 (ix2 (rowOf 100000 (by decide) (val_main_v54 (F := Ideal) x1 (ix1 e))) j) * x2 (ix2 j (col 1 q)) := by
  unfold val_main_v80
  rw [gatherDims_eq, gather_cell_apply (by decide) (by decide), pair1_src, pair1_blk, table_apply]
  have hk : rowOf 4 (by decide) (1#32 : BitVec 32) = (1 : Fin 4) := by decide
  rw [hk]

/-- The zero table block 1's gathering starts from. -/
theorem zero1 (i : S100000x64.Idx) : val_main_v83 (F := Ideal) i = (0 : EReal) := by
  rw [val_main_v83_apply, val_main_cst_16_apply, Ideal.ofBits_def, Ideal.ofBits_zero_f32]

/-- The destination index word of block 1 at edge e: the destination word. -/
theorem dst1 (x1 : (⟨S2x1600000, .i32⟩ : BufTy).Contents (Elt Ideal)) (e : Fin 1600000) :
    val_main_v84 (F := Ideal) x1 (ix2 e 0) = val_main_v3 (F := Ideal) x1 (ix1 e) := by
  rw [val_main_v84_apply]
  exact congrArg _ (funext fun a => Fin.ext (by match a with | ⟨0, _⟩ => rfl))

/-- Block 1's gathering at (n, q): zero plus block 1's contribution to node n. -/
theorem seg1 (x0 : (⟨S100000x64, .f32⟩ : BufTy).Contents (Elt Ideal)) (x1 : (⟨S2x1600000, .i32⟩ : BufTy).Contents (Elt Ideal))
    (x2 : (⟨S64x256, .f32⟩ : BufTy).Contents (Elt Ideal)) (x3 x4 : (⟨S4x2, .f32⟩ : BufTy).Contents (Elt Ideal))
    (n : Fin 100000) (q : Fin 64) :
    val_main_v85 (F := Ideal) x0 x1 x2 x3 x4 (ix2 n q)
      = (0 : EReal) + refSeg (val_main_v54 (F := Ideal) x1) (val_main_v3 (F := Ideal) x1) (val_main_v43 (F := Ideal) x1 x3 x4) x0 x2 1 n q := by
  unfold val_main_v85
  exact seg_of_scatter 1 _ _ _ _ _ _ _ _ n q (zero1 _) (dst1 x1)
    (fun e => by rw [val_main_v82_apply, Ideal.mulf_def, weight1, gather1])

/-- Block 2 wraps the source words as block 0 does: the same words. -/
theorem src2_eq (x1 : (⟨S2x1600000, .i32⟩ : BufTy).Contents (Elt Ideal)) : val_main_v94 (F := Ideal) x1 = val_main_v54 (F := Ideal) x1 := rfl

/-- The first index word of block 2 at edge e: the wrapped source word. -/
theorem pair2_src (x1 : (⟨S2x1600000, .i32⟩ : BufTy).Contents (Elt Ideal)) (e : Fin 1600000) :
    val_main_v99 (F := Ideal) x1 (ix2 e 0) = val_main_v54 (F := Ideal) x1 (ix1 e) := by
  unfold val_main_v99
  rw [concatenate_pair_apply_left (s₁ := S1600000x1) (s₂ := S1600000x1) (1 : Fin S1600000x2.rank) _ _ _ (ix2 e 0) rfl
    (ix2 e 0) (fun b => by match b with | ⟨0, _⟩ => rfl | ⟨1, _⟩ => rfl), val_main_v97_apply, src2_eq]
  exact congrArg _ (funext fun a => Fin.ext (by match a with | ⟨0, _⟩ => rfl))

/-- The second index word of block 2 at edge e: the constant word 2. -/
theorem pair2_blk (x1 : (⟨S2x1600000, .i32⟩ : BufTy).Contents (Elt Ideal)) (e : Fin 1600000) :
    val_main_v99 (F := Ideal) x1 (ix2 e 1) = 2#32 := by
  unfold val_main_v99
  rw [concatenate_pair_apply_right (s₁ := S1600000x1) (s₂ := S1600000x1) (1 : Fin S1600000x2.rank) _ _ _ (ix2 e 1) rfl rfl
    (ix2 e 0) (fun b hb => by
      match b with
      | ⟨0, _⟩ => rfl
      | ⟨1, _⟩ => exact absurd rfl hb) rfl,
    val_main_v98_apply, val_main_v96_apply, val_main_v95_apply, val_main_c_19_apply]

/-- The mixture weight spread along row e of block 2: edge e's weight for block 2. -/
theorem weight2 (x1 : (⟨S2x1600000, .i32⟩ : BufTy).Contents (Elt Ideal)) (x3 x4 : (⟨S4x2, .f32⟩ : BufTy).Contents (Elt Ideal))
    (e : Fin 1600000) (q : Fin 64) :
    val_main_v101 (F := Ideal) x1 x3 x4 (ix2 e q) = val_main_v43 (F := Ideal) x1 x3 x4 (ix2 e 2) := by
  rw [val_main_v101_apply, val_main_v89_apply, val_main_v88_apply, val_main_v87_apply]
  exact congrArg _ (funext fun a => Fin.ext (by
    match a with
    | ⟨0, _⟩ => exact Nat.div_one _
    | ⟨1, _⟩ => rfl))

/-- The gathered row of block 2 at edge e, feature q: the source row of x against column q of g's block 2. -/
theorem gather2 (x0 : (⟨S100000x64, .f32⟩ : BufTy).Contents (Elt Ideal)) (x1 : (⟨S2x1600000, .i32⟩ : BufTy).Contents (Elt Ideal))
    (x2 : (⟨S64x256, .f32⟩ : BufTy).Contents (Elt Ideal)) (e : Fin 1600000) (q : Fin 64) :
    val_main_v100 (F := Ideal) x0 x1 x2 (ix2 e q)
      = ∑ j : Fin 64, x0 (ix2 (rowOf 100000 (by decide) (val_main_v54 (F := Ideal) x1 (ix1 e))) j) * x2 (ix2 j (col 2 q)) := by
  unfold val_main_v100
  rw [gatherDims_eq, gather_cell_apply (by decide) (by decide), pair2_src, pair2_blk, table_apply]
  have hk : rowOf 4 (by decide) (2#32 : BitVec 32) = (2 : Fin 4) := by decide
  rw [hk]

/-- The zero table block 2's gathering starts from. -/
theorem zero2 (i : S100000x64.Idx) : val_main_v103 (F := Ideal) i = (0 : EReal) := by
  rw [val_main_v103_apply, val_main_cst_20_apply, Ideal.ofBits_def, Ideal.ofBits_zero_f32]

/-- The destination index word of block 2 at edge e: the destination word. -/
theorem dst2 (x1 : (⟨S2x1600000, .i32⟩ : BufTy).Contents (Elt Ideal)) (e : Fin 1600000) :
    val_main_v104 (F := Ideal) x1 (ix2 e 0) = val_main_v3 (F := Ideal) x1 (ix1 e) := by
  rw [val_main_v104_apply]
  exact congrArg _ (funext fun a => Fin.ext (by match a with | ⟨0, _⟩ => rfl))

/-- Block 2's gathering at (n, q): zero plus block 2's contribution to node n. -/
theorem seg2 (x0 : (⟨S100000x64, .f32⟩ : BufTy).Contents (Elt Ideal)) (x1 : (⟨S2x1600000, .i32⟩ : BufTy).Contents (Elt Ideal))
    (x2 : (⟨S64x256, .f32⟩ : BufTy).Contents (Elt Ideal)) (x3 x4 : (⟨S4x2, .f32⟩ : BufTy).Contents (Elt Ideal))
    (n : Fin 100000) (q : Fin 64) :
    val_main_v105 (F := Ideal) x0 x1 x2 x3 x4 (ix2 n q)
      = (0 : EReal) + refSeg (val_main_v54 (F := Ideal) x1) (val_main_v3 (F := Ideal) x1) (val_main_v43 (F := Ideal) x1 x3 x4) x0 x2 2 n q := by
  unfold val_main_v105
  exact seg_of_scatter 2 _ _ _ _ _ _ _ _ n q (zero2 _) (dst2 x1)
    (fun e => by rw [val_main_v102_apply, Ideal.mulf_def, weight2, gather2])

/-- Block 3 wraps the source words as block 0 does: the same words. -/
theorem src3_eq (x1 : (⟨S2x1600000, .i32⟩ : BufTy).Contents (Elt Ideal)) : val_main_v114 (F := Ideal) x1 = val_main_v54 (F := Ideal) x1 := rfl

/-- The first index word of block 3 at edge e: the wrapped source word. -/
theorem pair3_src (x1 : (⟨S2x1600000, .i32⟩ : BufTy).Contents (Elt Ideal)) (e : Fin 1600000) :
    val_main_v119 (F := Ideal) x1 (ix2 e 0) = val_main_v54 (F := Ideal) x1 (ix1 e) := by
  unfold val_main_v119
  rw [concatenate_pair_apply_left (s₁ := S1600000x1) (s₂ := S1600000x1) (1 : Fin S1600000x2.rank) _ _ _ (ix2 e 0) rfl
    (ix2 e 0) (fun b => by match b with | ⟨0, _⟩ => rfl | ⟨1, _⟩ => rfl), val_main_v117_apply, src3_eq]
  exact congrArg _ (funext fun a => Fin.ext (by match a with | ⟨0, _⟩ => rfl))

/-- The second index word of block 3 at edge e: the constant word 3. -/
theorem pair3_blk (x1 : (⟨S2x1600000, .i32⟩ : BufTy).Contents (Elt Ideal)) (e : Fin 1600000) :
    val_main_v119 (F := Ideal) x1 (ix2 e 1) = 3#32 := by
  unfold val_main_v119
  rw [concatenate_pair_apply_right (s₁ := S1600000x1) (s₂ := S1600000x1) (1 : Fin S1600000x2.rank) _ _ _ (ix2 e 1) rfl rfl
    (ix2 e 0) (fun b hb => by
      match b with
      | ⟨0, _⟩ => rfl
      | ⟨1, _⟩ => exact absurd rfl hb) rfl,
    val_main_v118_apply, val_main_v116_apply, val_main_v115_apply, val_main_c_23_apply]

/-- The mixture weight spread along row e of block 3: edge e's weight for block 3. -/
theorem weight3 (x1 : (⟨S2x1600000, .i32⟩ : BufTy).Contents (Elt Ideal)) (x3 x4 : (⟨S4x2, .f32⟩ : BufTy).Contents (Elt Ideal))
    (e : Fin 1600000) (q : Fin 64) :
    val_main_v121 (F := Ideal) x1 x3 x4 (ix2 e q) = val_main_v43 (F := Ideal) x1 x3 x4 (ix2 e 3) := by
  rw [val_main_v121_apply, val_main_v109_apply, val_main_v108_apply, val_main_v107_apply]
  exact congrArg _ (funext fun a => Fin.ext (by
    match a with
    | ⟨0, _⟩ => exact Nat.div_one _
    | ⟨1, _⟩ => rfl))

/-- The gathered row of block 3 at edge e, feature q: the source row of x against column q of g's block 3. -/
theorem gather3 (x0 : (⟨S100000x64, .f32⟩ : BufTy).Contents (Elt Ideal)) (x1 : (⟨S2x1600000, .i32⟩ : BufTy).Contents (Elt Ideal))
    (x2 : (⟨S64x256, .f32⟩ : BufTy).Contents (Elt Ideal)) (e : Fin 1600000) (q : Fin 64) :
    val_main_v120 (F := Ideal) x0 x1 x2 (ix2 e q)
      = ∑ j : Fin 64, x0 (ix2 (rowOf 100000 (by decide) (val_main_v54 (F := Ideal) x1 (ix1 e))) j) * x2 (ix2 j (col 3 q)) := by
  unfold val_main_v120
  rw [gatherDims_eq, gather_cell_apply (by decide) (by decide), pair3_src, pair3_blk, table_apply]
  have hk : rowOf 4 (by decide) (3#32 : BitVec 32) = (3 : Fin 4) := by decide
  rw [hk]

/-- The zero table block 3's gathering starts from. -/
theorem zero3 (i : S100000x64.Idx) : val_main_v123 (F := Ideal) i = (0 : EReal) := by
  rw [val_main_v123_apply, val_main_cst_24_apply, Ideal.ofBits_def, Ideal.ofBits_zero_f32]

/-- The destination index word of block 3 at edge e: the destination word. -/
theorem dst3 (x1 : (⟨S2x1600000, .i32⟩ : BufTy).Contents (Elt Ideal)) (e : Fin 1600000) :
    val_main_v124 (F := Ideal) x1 (ix2 e 0) = val_main_v3 (F := Ideal) x1 (ix1 e) := by
  rw [val_main_v124_apply]
  exact congrArg _ (funext fun a => Fin.ext (by match a with | ⟨0, _⟩ => rfl))

/-- Block 3's gathering at (n, q): zero plus block 3's contribution to node n. -/
theorem seg3 (x0 : (⟨S100000x64, .f32⟩ : BufTy).Contents (Elt Ideal)) (x1 : (⟨S2x1600000, .i32⟩ : BufTy).Contents (Elt Ideal))
    (x2 : (⟨S64x256, .f32⟩ : BufTy).Contents (Elt Ideal)) (x3 x4 : (⟨S4x2, .f32⟩ : BufTy).Contents (Elt Ideal))
    (n : Fin 100000) (q : Fin 64) :
    val_main_v125 (F := Ideal) x0 x1 x2 x3 x4 (ix2 n q)
      = (0 : EReal) + refSeg (val_main_v54 (F := Ideal) x1) (val_main_v3 (F := Ideal) x1) (val_main_v43 (F := Ideal) x1 x3 x4) x0 x2 3 n q := by
  unfold val_main_v125
  exact seg_of_scatter 3 _ _ _ _ _ _ _ _ n q (zero3 _) (dst3 x1)
    (fun e => by rw [val_main_v122_apply, Ideal.mulf_def, weight3, gather3])

/-- The zero table the four blocks are added onto. -/
theorem zero_acc (i : S100000x64.Idx) : val_main_v46 (F := Ideal) i = (0 : EReal) := by
  rw [val_main_v46_apply, val_main_cst_8_apply, Ideal.ofBits_def, Ideal.ofBits_zero_f32]

/-- The four blocks added one after the other onto the zero table, at (n, q). -/
theorem total_apply (x0 : (⟨S100000x64, .f32⟩ : BufTy).Contents (Elt Ideal)) (x1 : (⟨S2x1600000, .i32⟩ : BufTy).Contents (Elt Ideal))
    (x2 : (⟨S64x256, .f32⟩ : BufTy).Contents (Elt Ideal)) (x3 x4 : (⟨S4x2, .f32⟩ : BufTy).Contents (Elt Ideal))
    (n : Fin 100000) (q : Fin 64) :
    val_main_v126 (F := Ideal) x0 x1 x2 x3 x4 (ix2 n q)
      = ((((0 : EReal) + ((0 : EReal) + refSeg (val_main_v54 (F := Ideal) x1) (val_main_v3 (F := Ideal) x1) (val_main_v43 (F := Ideal) x1 x3 x4) x0 x2 0 n q))
          + ((0 : EReal) + refSeg (val_main_v54 (F := Ideal) x1) (val_main_v3 (F := Ideal) x1) (val_main_v43 (F := Ideal) x1 x3 x4) x0 x2 1 n q))
          + ((0 : EReal) + refSeg (val_main_v54 (F := Ideal) x1) (val_main_v3 (F := Ideal) x1) (val_main_v43 (F := Ideal) x1 x3 x4) x0 x2 2 n q))
          + ((0 : EReal) + refSeg (val_main_v54 (F := Ideal) x1) (val_main_v3 (F := Ideal) x1) (val_main_v43 (F := Ideal) x1 x3 x4) x0 x2 3 n q) := by
  rw [val_main_v126_apply, val_main_v106_apply, val_main_v86_apply, val_main_v66_apply, zero_acc, seg0, seg1, seg2, seg3]
  rfl

/-- The degree spread along row n: node n's degree. -/
theorem deg_apply (x1 : (⟨S2x1600000, .i32⟩ : BufTy).Contents (Elt Ideal)) (n : Fin 100000) (q : Fin 64) :
    val_main_v128 (F := Ideal) x1 (ix2 n q) = val_main_v9 (F := Ideal) x1 (ix1 n) := by
  rw [val_main_v128_apply, val_main_v127_apply]
  exact congrArg _ (funext fun a => Fin.ext (by match a with | ⟨0, _⟩ => rfl))

/-- The root transform at (n, q): row n of x against column q of the root matrix. -/
theorem root_apply (x0 : (⟨S100000x64, .f32⟩ : BufTy).Contents (Elt Ideal)) (x5 : (⟨S64x64, .f32⟩ : BufTy).Contents (Elt Ideal)) (n : Fin 100000) (q : Fin 64) :
    val_main_v130 (F := Ideal) x0 x5 (ix2 n q) = ∑ j : Fin 64, x0 (ix2 n j) * x5 (ix2 j q) := by
  rw [val_main_v130_apply]
  refine Finset.sum_congr rfl fun j _ => ?_
  have hl : lidx_main_v130 (ix2 n q) j = ix2 n j := funext fun a => Fin.ext (by match a with | ⟨0, _⟩ => rfl | ⟨1, _⟩ => rfl)
  have hr : ridx_main_v130 (ix2 n q) j = ix2 j q := funext fun a => Fin.ext (by match a with | ⟨0, _⟩ => rfl | ⟨1, _⟩ => rfl)
  rw [hl, hr]

/-- The bias spread over the rows, at (n, q): the bias at q. -/
theorem bias_apply (x6 : (⟨S64, .f32⟩ : BufTy).Contents (Elt Ideal)) (n : Fin 100000) (q : Fin 64) :
    val_main_v133 (F := Ideal) x6 (ix2 n q) = x6 (ix1 q) := by
  rw [val_main_v133_apply, val_main_v132_apply]
  exact congrArg _ (funext fun a => Fin.ext (by match a with | ⟨0, _⟩ => rfl))

/-- The zero the clip compares with. -/
theorem clip_zero (i : S100000x64.Idx) : val_main_call0_v0 (F := Ideal) i = (0 : EReal) := by
  rw [val_main_call0_v0_apply, val_main_call0_cst_apply, Ideal.ofBits_def, Ideal.ofBits_zero_f32]

/-- The reference's result at node n, feature q. -/
theorem ref_apply (x0 : (⟨S100000x64, .f32⟩ : BufTy).Contents (Elt Ideal)) (x1 : (⟨S2x1600000, .i32⟩ : BufTy).Contents (Elt Ideal)) (x2 : (⟨S64x256, .f32⟩ : BufTy).Contents (Elt Ideal)) (x3 x4 : (⟨S4x2, .f32⟩ : BufTy).Contents (Elt Ideal)) (x5 : (⟨S64x64, .f32⟩ : BufTy).Contents (Elt Ideal)) (x6 : (⟨S64, .f32⟩ : BufTy).Contents (Elt Ideal)) (n : Fin 100000) (q : Fin 64) :
    val_main_v136 (F := Ideal) x0 x1 x2 x3 x4 x5 x6 (ix2 n q)
      = Cert.Spec.refAt (val_main_v54 (F := Ideal) x1) (val_main_v3 (F := Ideal) x1) (val_main_v43 (F := Ideal) x1 x3 x4) (val_main_v9 (F := Ideal) x1) x0 x2 x5 x6 n q := by
  rw [val_main_v136_apply, val_main_v135_apply, val_main_v134_apply, val_main_v131_apply, val_main_v129_apply,
    total_apply, deg_apply, root_apply, bias_apply, clip_zero]
  rfl

end Cert.ReferenceIdeal.RefRead

end
-- ==== Proof.lean ====
/-
  The layer's kernel program against its reference, over the extended reals.

  Both idealized programs end, from memories that agree on the seven arguments, with the same result array: entry (n, q) of
  either is the node's own row entry plus the clipped sum of its mean gathered message, its root transform and the bias —
  the kernel forming every edge's message first and gathering by an indicator product, the reference transforming every
  node first and gathering mixture block by mixture block; the two arrangements are one function of the arguments wherever
  every source word names a row of the node table, which the precondition says. Each program runs to the end without a
  fault and leaves its arguments as launched; the idealization rewrote no operation, so nothing is owed for it.
-/
import proofs.«400719_j31138512896561_3_alg».proof.Defs
import proofs.«400719_j31138512896561_3_alg».proof.Proof.Gen.Kernel
import proofs.«400719_j31138512896561_3_alg».proof.Proof.Gen.KernelIdeal
import proofs.«400719_j31138512896561_3_alg».proof.Proof.Gen.ReferenceIdeal
import proofs.«400719_j31138512896561_3_alg».proof.Proof.Gen.Pre_finite_inputs
import proofs.«400719_j31138512896561_3_alg».proof.Proof.Gen.ReferenceIdeal.Run
import proofs.«400719_j31138512896561_3_alg».proof.Proof.Gen.ReferenceIdeal.Read
import proofs.«400719_j31138512896561_3_alg».proof.Proof.KRun
import proofs.«400719_j31138512896561_3_alg».proof.Proof.KIRun
import proofs.«400719_j31138512896561_3_alg».proof.Proof.KIValue
import proofs.«400719_j31138512896561_3_alg».proof.Proof.RefRead
import Idealize.ShloMosaic.Adequacy
import Idealize.ShloMosaic.Init

noncomputable section

namespace Cert.Proof

open Idealize.ShloMosaic Idealize.SL.Sem Idealize.ShloMosaic.ValueIdx

/-- The word-level program runs to the end and leaves its arguments as launched. -/
theorem frame_kernel : Cert.frame_Kernel := fun m ρ _ => Cert.Kernel.Frame.frame (F := Bits) m ρ

/-- So does the idealized program. -/
theorem frame_kernelIdeal : Cert.frame_KernelIdeal := fun m ρ _ => Cert.KernelIdeal.Frame.frame (F := Ideal) m ρ

/-- And the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments the two idealized programs end with equal result arrays: the kernel program's
    array is named, and the reference's result is shown to be it, entry by entry, through the closed form both meet. -/
theorem algebraic : Cert.algebraic_KernelIdeal_ReferenceIdeal := by
  intro m ρ m' ρ' hpre hagree
  refine ⟨fun c => (Cert.KernelIdeal.Frame.dat1 (F := Ideal) (Cert.KernelIdeal.Frame.V4 m ρ) c).arrAt 6 Cert.KernelIdeal.cfg1.N,
    Cert.KernelIdeal.Frame.run_out m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v136_eq m' c, (hagree c).1, (hagree c).2.1, (hagree c).2.2.1, (hagree c).2.2.2.1,
    (hagree c).2.2.2.2.1, (hagree c).2.2.2.2.2.1, (hagree c).2.2.2.2.2.2]
  funext i
  obtain ⟨n, q, rfl⟩ : ∃ (n : Fin 100000) (q : Fin 64), i = ix2 n q := ⟨i 0, i 1, eq_ix2 i⟩
  rw [Cert.ReferenceIdeal.RefRead.ref_apply]
  exact (Cert.KernelIdeal.Value.result_apply m ρ hpre c n q).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
